-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S8192x8 : Shape := ⟨2, ![8192, 8]⟩
abbrev S8x8 : Shape := ⟨2, ![8, 8]⟩
abbrev S8x1024 : Shape := ⟨2, ![8, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S8x8 : S_.BroadcastsInDim S8x8 (![] : Fin 0 → Fin S8x8.rank)
  reducesTo_S8x8_S_d0_1 : S8x8.ReducesTo [0, 1] S_
  bcast_S_S8x1024 : S_.BroadcastsInDim S8x1024 (![] : Fin 0 → Fin S8x1024.rank)
  reducesTo_S8x1024_S_d0_1 : S8x1024.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg1 main_v19
  let main_c_7 : IVec S_ 32 := constantI S_ 32 8#32
  let main_v21 : IVec S8192 32 := broadcastInDim S8192 ![] bcast_S_S8192 main_c_7
  let main_v22 : IVec S8192 1 := cmpi .slt main_arg1 main_v21
  let main_v23 : IVec S8192 1 := andi main_v20 main_v22
  let main_c_8 : IVec S_ 1 := constantI S_ 1 1#1
  let main_v24 : IVec S_ 1 := (fun x v => Host.reduce IntOp.andi x v reducesTo_S8192_S_d0 h_S_) main_v23 main_c_8
  let main_v25 : IVec S_ 1 := andi main_v18 main_v24
  main_v25

def fn {F : FTy → Type} [FloatOps F] (main_arg0 : FVec F S8192x1024 .f32) (main_arg1 : IVec S8192 32) (main_arg2 : FVec F S8192x8 .f32) (main_arg3 : FVec F S8x8 .f32) (main_arg4 : FVec F S8x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8 .f32 := Host.absf main_arg2
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S8x8 .f32 := Host.absf main_arg3
  let main_cst_2 : FVec F S_ .f32 := constant S_ .f32 0x7F800000#32
  let main_v10 : FVec F S8x8 .f32 := broadcastInDim S8x8 ![] bcast_S_S8x8 main_cst_2
  let main_v11 : IVec S8x8 1 := cmpf .olt main_v9 main_v10
  let main_c_3 : IVec S_ 1 := constantI S_ 1 1#1
  let main_v12 : IVec S_ 1 := (fun x v => Host.reduce IntOp.andi x v reducesTo_S8x8_S_d0_1 h_S_) main_v11 main_c_3
  let main_v13 : IVec S_ 1 := andi main_v8 main_v12
  let main_v14 : FVec F S8x1024 .f32 := Host.absf main_arg4
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_arg1 main_v13 main_v16
-- ==== Kernel.lean ====
abbrev S8192x1024 : Shape := ⟨2, ![8192, 1024]⟩
abbrev S8192 : Shape := ⟨1, ![8192]⟩
abbrev S8192x8 : Shape := ⟨2, ![8192, 8]⟩
abbrev S8x8 : Shape := ⟨2, ![8, 8]⟩
abbrev S8x1024 : Shape := ⟨2, ![8, 1024]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S1x8 : Shape := ⟨2, ![1, 8]⟩
abbrev S8x8x128 : Shape := ⟨3, ![8, 8, 128]⟩
abbrev S1024x1024 : Shape := ⟨2, ![1024, 1024]⟩
abbrev S1024x8 : Shape := ⟨2, ![1024, 8]⟩
abbrev S1x8x128 : Shape := ⟨3, ![1, 8, 128]⟩
abbrev S8x128 : Shape := ⟨2, ![8, 128]⟩
abbrev S1024 : Shape := ⟨1, ![1024]⟩
abbrev S1024x1 : Shape := ⟨2, ![1024, 1]⟩
abbrev S1x1 : Shape := ⟨2, ![1, 1]⟩

abbrev nBuf : Space → Nat
  | .hbm => 98
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x8, .f32⟩
  | .hbm, ⟨3, _⟩ => ⟨S8x8, .f32⟩
  | .hbm, ⟨4, _⟩ => ⟨S8x1024, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x8, .f32⟩
  | .hbm, ⟨12, _⟩ => ⟨S8192x8, .f32⟩
  | .hbm, ⟨13, _⟩ => ⟨S8192x8, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S8192x8, .f32⟩
  | .hbm, ⟨19, _⟩ => ⟨S8192x8, .f32⟩
  | .hbm, ⟨20, _⟩ => ⟨S8192x1, .i32⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S_, .i32⟩
  | .hbm, ⟨25, _⟩ => ⟨S8192x1, .i32⟩
  | .hbm, ⟨26, _⟩ => ⟨S8192x1, .i32⟩
  | .hbm, ⟨27, _⟩ => ⟨S8192x1, .i32⟩
  | .hbm, ⟨28, _⟩ => ⟨S8192x1x1, .i32⟩
  | .hbm, ⟨29, _⟩ => ⟨S1, .i32⟩
  | .hbm, ⟨30, _⟩ => ⟨S_, .i32⟩
  | .hbm, ⟨31, _⟩ => ⟨S8192x1x1, .i32⟩
  | .hbm, ⟨32, _⟩ => ⟨S8192x1x1, .i1⟩
  | .hbm, ⟨33, _⟩ => ⟨S1x1x1, .i32⟩
  | .hbm, ⟨34, _⟩ => ⟨S8192x1x1, .i32⟩
  | .hbm, ⟨35, _⟩ => ⟨S8192x1x1, .i1⟩
  | .hbm, ⟨36, _⟩ => ⟨S8192x1x1, .i1⟩
  | .hbm, ⟨37, _⟩ => ⟨S_, .i1⟩
  | .hbm, ⟨38, _⟩ => ⟨S8192x1, .i1⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192x1, .i32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S8192x1, .i32⟩
  | .hbm, ⟨78, _⟩ => ⟨S1x8, .i32⟩
  | .hbm, ⟨79, _⟩ => ⟨S8192x8, .i32⟩
  | .hbm, ⟨80, _⟩ => ⟨S8192x8, .i32⟩
  | .hbm, ⟨81, _⟩ => ⟨S8192x8, .i1⟩
  | .hbm, ⟨82, _⟩ => ⟨S8192x8, .f32⟩
  | .hbm, ⟨83, _⟩ => ⟨S8192x8, .f32⟩
  | .hbm, ⟨84, _⟩ => ⟨S8x8, .f32⟩
  | .hbm, ⟨85, _⟩ => ⟨S8x8, .f32⟩
  | .hbm, ⟨86, _⟩ => ⟨S8192x8, .f32⟩
  | .hbm, ⟨87, _⟩ => ⟨S8x8x128, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x8, .f32⟩
  | .local _ .vmem, ⟨5, _⟩ => ⟨S1024x8, .f32⟩
  | .local _ .vmem, ⟨6, _⟩ => ⟨S1024x8, .f32⟩
  | .local _ .vmem, ⟨7, _⟩ => ⟨S1024x8, .f32⟩
  | .local _ .vmem, ⟨8, _⟩ => ⟨S1024x8, .f32⟩
  | .local _ .vmem, ⟨9, _⟩ => ⟨S1024x8, .f32⟩
  | .local _ .vmem, ⟨10, _⟩ => ⟨S1x8x128, .f32⟩
  | .local _ .vmem, ⟨11, _⟩ => ⟨S1x8x128, .f32⟩
  | .local _ .vmem, ⟨12, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_cst_0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_cst_1 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_v0 : Ref sig .tc := ⟨.hbm, 19, rfl⟩
abbrev main_call0_v1 : Ref sig .tc := ⟨.hbm, 20, rfl⟩
abbrev main_call0_call1_c : Ref sig .tc := ⟨.hbm, 21, rfl⟩
abbrev main_call0_call1_v0 : Ref sig .tc := ⟨.hbm, 22, rfl⟩
abbrev main_call0_call1_v1 : Ref sig .tc := ⟨.hbm, 23, rfl⟩
abbrev main_call0_call1_c_0 : Ref sig .tc := ⟨.hbm, 24, rfl⟩
abbrev main_call0_call1_v2 : Ref sig .tc := ⟨.hbm, 25, rfl⟩
abbrev main_call0_call1_v3 : Ref sig .tc := ⟨.hbm, 26, rfl⟩
abbrev main_call0_call1_v4 : Ref sig .tc := ⟨.hbm, 27, rfl⟩
abbrev main_call0_call1_v5 : Ref sig .tc := ⟨.hbm, 28, rfl⟩
abbrev main_call0_call1_c_1 : Ref sig .tc := ⟨.hbm, 29, rfl⟩
abbrev main_call0_call1_c_2 : Ref sig .tc := ⟨.hbm, 30, rfl⟩
abbrev main_call0_call1_v6 : Ref sig .tc := ⟨.hbm, 31, rfl⟩
abbrev main_call0_call1_v7 : Ref sig .tc := ⟨.hbm, 32, rfl⟩
abbrev main_call0_call1_v8 : Ref sig .tc := ⟨.hbm, 33, rfl⟩
abbrev main_call0_call1_v9 : Ref sig .tc := ⟨.hbm, 34, rfl⟩
abbrev main_call0_call1_v10 : Ref sig .tc := ⟨.hbm, 35, rfl⟩
abbrev main_call0_call1_v11 : Ref sig .tc := ⟨.hbm, 36, rfl⟩
abbrev main_call0_call1_c_3 : Ref sig .tc := ⟨.hbm, 37, rfl⟩
abbrev main_call0_call1_v12 : Ref sig .tc := ⟨.hbm, 38, rfl⟩
abbrev main_call0_call1_v13 : Ref sig .tc := ⟨.hbm, 39, rfl⟩
abbrev main_call0_call1_cst : Ref sig .tc := ⟨.hbm, 40, rfl⟩
abbrev main_call0_call1_v14 : Ref sig .tc := ⟨.hbm, 41, rfl⟩
abbrev main_call0_v2 : Ref sig .tc := ⟨.hbm, 42, rfl⟩
abbrev main_call0_v3 : Ref sig .tc := ⟨.hbm, 43, rfl⟩
abbrev main_call0_cst : Ref sig .tc := ⟨.hbm, 44, rfl⟩
abbrev main_call0_v4 : Ref sig .tc := ⟨.hbm, 45, rfl⟩
abbrev main_call0_cst_0 : Ref sig .tc := ⟨.hbm, 46, rfl⟩
abbrev main_call0_v5 : Ref sig .tc := ⟨.hbm, 47, rfl⟩
abbrev main_call0_v6 : Ref sig .tc := ⟨.hbm, 48, rfl⟩
abbrev main_call0_c : Ref sig .tc := ⟨.hbm, 49, rfl⟩
abbrev main_call0_v7 : Ref sig .tc := ⟨.hbm, 50, rfl⟩
abbrev main_call0_v8 : Ref sig .tc := ⟨.hbm, 51, rfl⟩
abbrev main_call0_c_1 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_v15 : Ref sig .tc := ⟨.hbm, 59, rfl⟩
abbrev main_call0_cst_2 : Ref sig .tc := ⟨.hbm, 60, rfl⟩
abbrev main_call0_v16 : Ref sig .tc := ⟨.hbm, 61, rfl⟩
abbrev main_call0_cst_3 : Ref sig .tc := ⟨.hbm, 62, rfl⟩
abbrev main_call0_v17 : Ref sig .tc := ⟨.hbm, 63, rfl⟩
abbrev main_call0_cst_4 : Ref sig .tc := ⟨.hbm, 64, rfl⟩
abbrev main_call0_v18 : Ref sig .tc := ⟨.hbm, 65, rfl⟩
abbrev main_call0_v19 : Ref sig .tc := ⟨.hbm, 66, rfl⟩
abbrev main_call0_cst_5 : Ref sig .tc := ⟨.hbm, 67, rfl⟩
abbrev main_call0_v20 : Ref sig .tc := ⟨.hbm, 68, rfl⟩
abbrev main_call0_v21 : Ref sig .tc := ⟨.hbm, 69, rfl⟩
abbrev main_call0_v22 : Ref sig .tc := ⟨.hbm, 70, rfl⟩
abbrev main_call0_cst_6 : Ref sig .tc := ⟨.hbm, 71, rfl⟩
abbrev main_call0_v23 : Ref sig .tc := ⟨.hbm, 72, rfl⟩
abbrev main_call0_v24 : Ref sig .tc := ⟨.hbm, 73, rfl⟩
abbrev main_call0_v25 : Ref sig .tc := ⟨.hbm, 74, rfl⟩
abbrev main_call0_v26 : Ref sig .tc := ⟨.hbm, 75, rfl⟩
abbrev main_call0_v27 : Ref sig .tc := ⟨.hbm, 76, rfl⟩
abbrev main_call0_call2_v0 : Ref sig .tc := ⟨.hbm, 77, rfl⟩
abbrev main_call0_call2_v1 : Ref sig .tc := ⟨.hbm, 78, rfl⟩
abbrev main_call0_call2_v2 : Ref sig .tc := ⟨.hbm, 79, rfl⟩
abbrev main_call0_call2_v3 : Ref sig .tc := ⟨.hbm, 80, rfl⟩
abbrev main_call0_call2_v4 : Ref sig .tc := ⟨.hbm, 81, rfl⟩
abbrev main_call0_v28 : Ref sig .tc := ⟨.hbm, 82, rfl⟩
abbrev main_call0_v29 : Ref sig .tc := ⟨.hbm, 83, rfl⟩
abbrev main_call0_v30 : Ref sig .tc := ⟨.hbm, 84, rfl⟩
abbrev main_call0_v31 : Ref sig .tc := ⟨.hbm, 85, rfl⟩
abbrev main_call0_v32 : Ref sig .tc := ⟨.hbm, 86, rfl⟩
abbrev main_call0_v33 : Ref sig .tc := ⟨.hbm, 87, rfl⟩
abbrev main_call0_cst_7 : Ref sig .tc := ⟨.hbm, 88, rfl⟩
abbrev main_call0_v34 : Ref sig .tc := ⟨.hbm, 89, rfl⟩
abbrev main_call0_cst_8 : Ref sig .tc := ⟨.hbm, 90, rfl⟩
abbrev main_call0_v35 : Ref sig .tc := ⟨.hbm, 91, rfl⟩
abbrev main_call0_cst_9 : Ref sig .tc := ⟨.hbm, 92, rfl⟩
abbrev main_call0_v36 : Ref sig .tc := ⟨.hbm, 93, rfl⟩
abbrev main_call0_v37 : Ref sig .tc := ⟨.hbm, 94, rfl⟩
abbrev main_call0_cst_10 : Ref sig .tc := ⟨.hbm, 95, rfl⟩
abbrev main_call0_v38 : Ref sig .tc := ⟨.hbm, 96, rfl⟩
abbrev main_v0 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x8_S8192_d1 : S8192x8.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  reducesTo_S8192x1024_S_d0_1 : S8192x1024.ReducesTo [0, 1] S_
  reducesTo_S8192x1024_S8192_d1 : S8192x1024.ReducesTo [1] S8192
  bcast_S8192x1_S8192x1024_0_1 : S8192x1.BroadcastsInDim S8192x1024 (![0, 1] : Fin 2 → Fin S8192x1024.rank)
  bitsLt_bf16_f32 : FTy.bits .bf16 < FTy.bits .f32
  bcast_S1x8_S8192x8_0_1 : S1x8.BroadcastsInDim S8192x8 (![0, 1] : Fin 2 → Fin S8192x8.rank)
  transposes_S8x8_S8x8_1_0 : S8x8.Transposes [1, 0] S8x8
  reducesTo_S8x8x128_S_d0_1_2 : S8x8x128.ReducesTo [0, 1, 2] S_
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  iota_S1024x1024_d0_w32 : S1024x1024.Iotas .tc 32 [0]
  iota_S1024x1024_d1_w32 : S1024x1024.Iotas .tc 32 [1]
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  gather_S8192x8_S8192x1x1_S8192x1_n_1_0_0_1_2_11_wf : GatherDims.WF S8192x8 S8192x1x1 S8192x1 [] [1] [0] [1] [0] 2 ![1, 1]
  gather_S8x1024_S8192x1_S8192x1024_1_0_n_n_0_1_11024_wf : GatherDims.WF S8x1024 S8192x1 S8192x1024 [1] [0] [] [0] [] 1 ![1, 1024]
  dot_S8192x8_S8x8_S8192x8_1_0_0_1_n_n_wf : DotDims.WF S8192x8 S8x8 S8192x8 [1] [0] [0] [1] [] []
  dot_S1024x1024_S1024x1024_S1024x1024_1_1_0_0_n_n_wf : DotDims.WF S1024x1024 S1024x1024 S1024x1024 [1] [1] [0] [0] [] []
  dot_S1024x8_S1024x8_S1024x1024_1_1_0_0_n_n_wf : DotDims.WF S1024x8 S1024x8 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8.size a ≤ S8192x8.size a
  hwx0_2 : ∀ i : grid0.Coords, EltTy.bits .f32 = 32 ∨ (Rect.block (s := S8192x8) S1024x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S8192x8.size a
  hwx0_3 : ∀ i : grid0.Coords, EltTy.bits .f32 = 32 ∨ (Rect.block (s := S8192x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x8.size a ≤ S8192x8.size a
  hwx0_4 : ∀ i : grid0.Coords, EltTy.bits .f32 = 32 ∨ (Rect.block (s := S8192x8) S1024x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S8x8x128.size a
  hwx0_5 : ∀ i : grid0.Coords, EltTy.bits .f32 = 32 ∨ (Rect.block (s := S8x8x128) S1x8x128.size (cc0_transform_5 i) (hinb0_5 i)).WholeWords (EltTy.packing .f32)

variable [Facts₀]

def gather_S8192x8_S8192x1x1_S8192x1_n_1_0_0_1_2_11 : GatherDims S8192x8 S8192x1x1 S8192x1 where
  offsetDims := []
  collapsedSliceDims := [1]
  operandBatchingDims := [0]
  startIndicesBatchingDims := [0]
  startIndexMap := [1]
  indexVectorDim := 2
  sliceSizes := ![1, 1]
  wf := gather_S8192x8_S8192x1x1_S8192x1_n_1_0_0_1_2_11_wf
def gather_S8x1024_S8192x1_S8192x1024_1_0_n_n_0_1_11024 : GatherDims S8x1024 S8192x1 S8192x1024 where
  offsetDims := [1]
  collapsedSliceDims := [0]
  operandBatchingDims := []
  startIndicesBatchingDims := []
  startIndexMap := [0]
  indexVectorDim := 1
  sliceSizes := ![1, 1024]
  wf := gather_S8x1024_S8192x1_S8192x1024_1_0_n_n_0_1_11024_wf
def dot_S8192x8_S8x8_S8192x8_1_0_0_1_n_n : DotDims S8192x8 S8x8 S8192x8 where
  lhsContracting := [1]
  rhsContracting := [0]
  lhsNonContracting := [0]
  rhsNonContracting := [1]
  lhsBatch := []
  rhsBatch := []
  wf := dot_S8192x8_S8x8_S8192x8_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x8_S1024x8_S1024x1024_1_1_0_0_n_n : DotDims S1024x8 S1024x8 S1024x1024 where
  lhsContracting := [1]
  rhsContracting := [1]
  lhsNonContracting := [0]
  rhsNonContracting := [0]
  lhsBatch := []
  rhsBatch := []
  wf := dot_S1024x8_S1024x8_S1024x1024_1_1_0_0_n_n_wf

abbrev win0_0 : Pipeline.Window sig grid0 :=
  Pipeline.Window.ofSpec (Memref.whole main_call0_v27) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v27) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v29) S1024x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v32) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v28) S1024x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v33) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S8192x8 : Shape := ⟨2, ![8192, 8]⟩
abbrev S8x8 : Shape := ⟨2, ![8, 8]⟩
abbrev S8x1024 : Shape := ⟨2, ![8, 1024]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S1024x8192 : Shape := ⟨2, ![1024, 8192]⟩
abbrev S8192x8192 : Shape := ⟨2, ![8192, 8192]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x8, .f32⟩
  | .hbm, ⟨3, _⟩ => ⟨S8x8, .f32⟩
  | .hbm, ⟨4, _⟩ => ⟨S8x1024, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x8, .f32⟩
  | .hbm, ⟨12, _⟩ => ⟨S8192x8, .f32⟩
  | .hbm, ⟨13, _⟩ => ⟨S8192x8, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S8192x8, .f32⟩
  | .hbm, ⟨19, _⟩ => ⟨S8192x8, .f32⟩
  | .hbm, ⟨20, _⟩ => ⟨S8192x1, .i32⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S_, .i32⟩
  | .hbm, ⟨25, _⟩ => ⟨S8192x1, .i32⟩
  | .hbm, ⟨26, _⟩ => ⟨S8192x1, .i32⟩
  | .hbm, ⟨27, _⟩ => ⟨S8192x1, .i32⟩
  | .hbm, ⟨28, _⟩ => ⟨S8192x1x1, .i32⟩
  | .hbm, ⟨29, _⟩ => ⟨S1, .i32⟩
  | .hbm, ⟨30, _⟩ => ⟨S_, .i32⟩
  | .hbm, ⟨31, _⟩ => ⟨S8192x1x1, .i32⟩
  | .hbm, ⟨32, _⟩ => ⟨S8192x1x1, .i1⟩
  | .hbm, ⟨33, _⟩ => ⟨S1x1x1, .i32⟩
  | .hbm, ⟨34, _⟩ => ⟨S8192x1x1, .i32⟩
  | .hbm, ⟨35, _⟩ => ⟨S8192x1x1, .i1⟩
  | .hbm, ⟨36, _⟩ => ⟨S8192x1x1, .i1⟩
  | .hbm, ⟨37, _⟩ => ⟨S_, .i1⟩
  | .hbm, ⟨38, _⟩ => ⟨S8192x1, .i1⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192x1, .i32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S1024x8192, .f32⟩
  | .hbm, ⟨77, _⟩ => ⟨S8192x8192, .f32⟩
  | .hbm, ⟨78, _⟩ => ⟨S_, .i32⟩
  | .hbm, ⟨79, _⟩ => ⟨S8192, .i32⟩
  | .hbm, ⟨80, _⟩ => ⟨S8192, .i1⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .i32⟩
  | .hbm, ⟨85, _⟩ => ⟨S8192x1, .i32⟩
  | .hbm, ⟨86, _⟩ => ⟨S8192x8, .f32⟩
  | .hbm, ⟨87, _⟩ => ⟨S_, .i32⟩
  | .hbm, ⟨88, _⟩ => ⟨S8192, .i32⟩
  | .hbm, ⟨89, _⟩ => ⟨S8192, .i1⟩
  | .hbm, ⟨90, _⟩ => ⟨S_, .i32⟩
  | .hbm, ⟨91, _⟩ => ⟨S8192, .i32⟩
  | .hbm, ⟨92, _⟩ => ⟨S8192, .i32⟩
  | .hbm, ⟨93, _⟩ => ⟨S8192, .i32⟩
  | .hbm, ⟨94, _⟩ => ⟨S8192x1, .i32⟩
  | .hbm, ⟨95, _⟩ => ⟨S8192x8192, .f32⟩
  | .hbm, ⟨96, _⟩ => ⟨S8192x8192, .i32⟩
  | .hbm, ⟨97, _⟩ => ⟨S8192x8192, .i32⟩
  | .hbm, ⟨98, _⟩ => ⟨S_, .i32⟩
  | .hbm, ⟨99, _⟩ => ⟨S8192x8192, .i32⟩
  | .hbm, ⟨100, _⟩ => ⟨S8192x8192, .i32⟩
  | .hbm, ⟨101, _⟩ => ⟨S8192x8192, .i1⟩
  | .hbm, ⟨102, _⟩ => ⟨S8192x8192, .f32⟩
  | .hbm, ⟨103, _⟩ => ⟨S_, .f32⟩
  | .hbm, ⟨104, _⟩ => ⟨S8192x8192, .f32⟩
  | .hbm, ⟨105, _⟩ => ⟨S8192x8192, .f32⟩
  | .hbm, ⟨106, _⟩ => ⟨S_, .f32⟩
  | .hbm, ⟨107, _⟩ => ⟨S8192x8192, .f32⟩
  | .hbm, ⟨108, _⟩ => ⟨S8192x8192, .f32⟩
  | .hbm, ⟨109, _⟩ => ⟨S_, .f32⟩
  | .hbm, ⟨110, _⟩ => ⟨S8192x8192, .f32⟩
  | .hbm, ⟨111, _⟩ => ⟨S8192x8192, .f32⟩
  | .hbm, ⟨112, _⟩ => ⟨S8192x8192, .f32⟩
  | .hbm, ⟨113, _⟩ => ⟨S8192x8192, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_cst_0 : Ref sig .tc := ⟨.hbm, 46, rfl⟩
abbrev main_v5 : Ref sig .tc := ⟨.hbm, 47, rfl⟩
abbrev main_v6 : Ref sig .tc := ⟨.hbm, 48, rfl⟩
abbrev main_c : Ref sig .tc := ⟨.hbm, 49, rfl⟩
abbrev main_v7 : Ref sig .tc := ⟨.hbm, 50, rfl⟩
abbrev main_v8 : Ref sig .tc := ⟨.hbm, 51, rfl⟩
abbrev main_c_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_cst_3 : Ref sig .tc := ⟨.hbm, 62, rfl⟩
abbrev main_v17 : Ref sig .tc := ⟨.hbm, 63, rfl⟩
abbrev main_cst_4 : Ref sig .tc := ⟨.hbm, 64, rfl⟩
abbrev main_v18 : Ref sig .tc := ⟨.hbm, 65, rfl⟩
abbrev main_call2_v0 : Ref sig .tc := ⟨.hbm, 66, rfl⟩
abbrev main_call2_cst : Ref sig .tc := ⟨.hbm, 67, rfl⟩
abbrev main_call2_v1 : Ref sig .tc := ⟨.hbm, 68, rfl⟩
abbrev main_call2_v2 : Ref sig .tc := ⟨.hbm, 69, rfl⟩
abbrev main_v19 : Ref sig .tc := ⟨.hbm, 70, rfl⟩
abbrev main_cst_5 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_c_6 : Ref sig .tc := ⟨.hbm, 78, rfl⟩
abbrev main_v26 : Ref sig .tc := ⟨.hbm, 79, rfl⟩
abbrev main_v27 : Ref sig .tc := ⟨.hbm, 80, rfl⟩
abbrev main_c_7 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_c_8 : Ref sig .tc := ⟨.hbm, 87, rfl⟩
abbrev main_v33 : Ref sig .tc := ⟨.hbm, 88, rfl⟩
abbrev main_v34 : Ref sig .tc := ⟨.hbm, 89, rfl⟩
abbrev main_c_9 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_c_10 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_11 : Ref sig .tc := ⟨.hbm, 103, rfl⟩
abbrev main_v46 : Ref sig .tc := ⟨.hbm, 104, rfl⟩
abbrev main_v47 : Ref sig .tc := ⟨.hbm, 105, rfl⟩
abbrev main_cst_12 : Ref sig .tc := ⟨.hbm, 106, rfl⟩
abbrev main_v48 : Ref sig .tc := ⟨.hbm, 107, rfl⟩
abbrev main_v49 : Ref sig .tc := ⟨.hbm, 108, rfl⟩
abbrev main_call3_cst : Ref sig .tc := ⟨.hbm, 109, rfl⟩
abbrev main_call3_v0 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_13 : Ref sig .tc := ⟨.hbm, 114, rfl⟩
abbrev main_v53 : Ref sig .tc := ⟨.hbm, 115, rfl⟩
abbrev main_cst_14 : Ref sig .tc := ⟨.hbm, 116, rfl⟩
abbrev main_v54 : Ref sig .tc := ⟨.hbm, 117, rfl⟩
abbrev main_cst_15 : Ref sig .tc := ⟨.hbm, 118, rfl⟩
abbrev main_v55 : Ref sig .tc := ⟨.hbm, 119, rfl⟩
abbrev main_v56 : Ref sig .tc := ⟨.hbm, 120, rfl⟩
abbrev main_cst_16 : Ref sig .tc := ⟨.hbm, 121, rfl⟩
abbrev main_v57 : Ref sig .tc := ⟨.hbm, 122, rfl⟩
abbrev main_v58 : Ref sig .tc := ⟨.hbm, 123, rfl⟩

abbrev nD : Nat := 1
abbrev τ : Topo := Topo.v7x

variable {F : FTy → Type} [FloatOps F]

class Facts₀ : Prop where
  reducesTo_S8192x8_S8192_d1 : S8192x8.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  reducesTo_S8192x1024_S_d0_1 : S8192x1024.ReducesTo [0, 1] S_
  reducesTo_S8192x1024_S8192_d1 : S8192x1024.ReducesTo [1] S8192
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  reducesTo_S8192x8192_S_d0_1 : S8192x8192.ReducesTo [0, 1] S_
  gather_S8192x8_S8192x1x1_S8192x1_n_1_0_0_1_2_11_wf : GatherDims.WF S8192x8 S8192x1x1 S8192x1 [] [1] [0] [1] [0] 2 ![1, 1]
  gather_S8x1024_S8192x1_S8192x1024_1_0_n_n_0_1_11024_wf : GatherDims.WF S8x1024 S8192x1 S8192x1024 [1] [0] [] [0] [] 1 ![1, 1024]
  dot_S8192x1024_S1024x8192_S8192x8192_1_0_0_1_n_n_wf : DotDims.WF S8192x1024 S1024x8192 S8192x8192 [1] [0] [0] [1] [] []
  gather_S8x8_S8192x1_S8192x8_1_0_n_n_0_1_18_wf : GatherDims.WF S8x8 S8192x1 S8192x8 [1] [0] [] [0] [] 1 ![1, 8]
  gather_S8192x8_S8192x1_S8192x8192_0_1_n_n_1_1_81921_wf : GatherDims.WF S8192x8 S8192x1 S8192x8192 [0] [1] [] [1] [] 1 ![8192, 1]

variable [Facts₀]

def gather_S8192x8_S8192x1x1_S8192x1_n_1_0_0_1_2_11 : GatherDims S8192x8 S8192x1x1 S8192x1 where
  offsetDims := []
  collapsedSliceDims := [1]
  operandBatchingDims := [0]
  startIndicesBatchingDims := [0]
  startIndexMap := [1]
  indexVectorDim := 2
  sliceSizes := ![1, 1]
  wf := gather_S8192x8_S8192x1x1_S8192x1_n_1_0_0_1_2_11_wf
def gather_S8x1024_S8192x1_S8192x1024_1_0_n_n_0_1_11024 : GatherDims S8x1024 S8192x1 S8192x1024 where
  offsetDims := [1]
  collapsedSliceDims := [0]
  operandBatchingDims := []
  startIndicesBatchingDims := []
  startIndexMap := [0]
  indexVectorDim := 1
  sliceSizes := ![1, 1024]
  wf := gather_S8x1024_S8192x1_S8192x1024_1_0_n_n_0_1_11024_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8x8_S8192x1_S8192x8_1_0_n_n_0_1_18 : GatherDims S8x8 S8192x1 S8192x8 where
  offsetDims := [1]
  collapsedSliceDims := [0]
  operandBatchingDims := []
  startIndicesBatchingDims := []
  startIndexMap := [0]
  indexVectorDim := 1
  sliceSizes := ![1, 8]
  wf := gather_S8x8_S8192x1_S8192x8_1_0_n_n_0_1_18_wf
def gather_S8192x8_S8192x1_S8192x8192_0_1_n_n_1_1_81921 : GatherDims S8192x8 S8192x1 S8192x8192 where
  offsetDims := [0]
  collapsedSliceDims := [1]
  operandBatchingDims := []
  startIndicesBatchingDims := []
  startIndexMap := [1]
  indexVectorDim := 1
  sliceSizes := ![8192, 1]
  wf := gather_S8192x8_S8192x1_S8192x8192_0_1_n_n_1_1_81921_wf

class Facts : Prop extends Facts₀ where

variable [Facts]
-- ==== Proof.KBKit.lean ====
/-
  What the frame of the pairwise kernel is stated over.

  @main is a stretch of host operations (normalising the rows, the one-hot rows and their two products with the weight
  matrix, and the two loss terms that need no kernel), the kernel region on an 8 × 8 grid, and a short stretch that sums
  the region's result and adds the three terms. `V` is what the buffers hold when the region is entered.

  The body at grid point (i, j) keeps a running 8 × 128 accumulator in a scratch buffer across the points of a
  block-row: it is zeroed at j = 0, the diagonal block is added at j = i, a block above the diagonal at j > i, nothing
  at j < i; the accumulator is copied to the output block at every point. `accNext` is one point's effect on the
  accumulator as a function of the five input blocks and of what the accumulator held before, with the three
  conditions read off the grid coordinates exactly as the body computes them.
-/
import proofs.«411099_j55954833933114_3_alg».proof.Proof.Gen.Kernel.Launch
import proofs.«411099_j55954833933114_3_alg».proof.Proof.Gen.Kernel.Skeleton
import proofs.«411099_j55954833933114_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation before the region allocates. -/
theorem hostOps0_fresh : (hostOps0 : List (HloOp τ sig (Elt F))).Forall fun op => op.fresh = ∅ := by
  simp only [List.Forall]; repeat' constructor
/-- Nor does one after it. -/
theorem hostOps1_fresh : (hostOps1 : List (HloOp τ sig (Elt F))).Forall fun op => op.fresh = ∅ := by
  simp only [List.Forall]; repeat' constructor

/-- @main reduces to the region continued by the later host operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's three conditions, from the grid coordinates -/

/-- `j = 0`: the accumulator is zeroed. -/
abbrev cond0 (i : grid0.Coords) : Prop :=
  (Scalar.cmpi .ne (Scalar.extui (Scalar.cmpi .eq (BitVec.ofNat 32 (i 1).val) 0#32)) 0#32) = 1#1
/-- `j = i`: the diagonal block is added. -/
abbrev cond1 (i : grid0.Coords) : Prop :=
  (Scalar.cmpi .ne (Scalar.extui (Scalar.cmpi .eq (BitVec.ofNat 32 (i 1).val) (BitVec.ofNat 32 (i 0).val))) 0#32) = 1#1
/-- `j > i`: a block above the diagonal is added. -/
abbrev cond2 (i : grid0.Coords) : Prop :=
  (Scalar.cmpi .ne (Scalar.extui (Scalar.cmpi .sgt (BitVec.ofNat 32 (i 1).val) (BitVec.ofNat 32 (i 0).val))) 0#32) = 1#1

/-- One point's effect on the accumulator: zeroed if `j = 0`, then the diagonal block's total added if `j = i`, then
    an upper block's if `j > i` (the body's three conditionals in order), over the input blocks `b0 … b4` (the two row
    blocks, the two weight-row blocks, the one-hot block) and the accumulator's contents before the point. -/
def accNext (i : grid0.Coords) (b0 b1 : Vec F S1024x1024 .bf16) (b2 b3 b4 : Vec F S1024x8 .f32) (xs : Vec F S8x128 .f32) :
    Vec F S8x128 .f32 :=
  let s1 : Vec F S8x128 .f32 := if cond0 i then k0_pay1 (F := F) else xs
  let s2 : Vec F S8x128 .f32 := if cond1 i then k0_pay2 (k0_pay5 b0 b1 b2 b4 s1) else s1
  if cond2 i then k0_pay3 b0 b1 b3 b4 s2 else s2

/-! ## The staging memrefs and the scratch -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x8 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x8 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x8 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x128 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev scM : Memref sig .tc .vmem S8x128 .f32 := Memref.whole cc0_scratch0

/-- The region's invariant outside the body's own bookkeeping: the accumulator at some contents, and the generator's
    register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KBDat.lean ====
/-
  The proof data of the pairwise kernel's pipeline.

  `accAt n` is what the accumulator holds after grid point `n` (points in row-major order, `n = 8 i + j`): one point's
  effect `accNext` on what the point before left, from zeros before the first. The output window's staging buffer
  holds a copy of it after every point; the five input windows' buffers hold their blocks. The two windows on the
  normalised rows share one array, each holding half of its points-to.
-/
import proofs.«411099_j55954833933114_3_alg».proof.Proof.KBKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after point `n`. -/
def accAt (c : Dev nD) : (n : ℕ) → n < cfg0.N → Vec F S8x128 .f32
  | 0, hn => accNext (grid0.coords ⟨0, hn⟩) (iblk m c 0 ⟨0, hn⟩) (iblk m c 1 ⟨0, hn⟩) (iblk m c 2 ⟨0, hn⟩) (iblk m c 3 ⟨0, hn⟩) (iblk m c 4 ⟨0, hn⟩)
      (k0_pay1 (F := F))
  | n + 1, hn => accNext (grid0.coords ⟨n + 1, hn⟩) (iblk m c 0 ⟨n + 1, hn⟩) (iblk m c 1 ⟨n + 1, hn⟩) (iblk m c 2 ⟨n + 1, hn⟩) (iblk m c 3 ⟨n + 1, hn⟩)
      (iblk m c 4 ⟨n + 1, hn⟩) (accAt c n (Nat.lt_of_succ_lt hn))

/-- The region's invariant before point `n`: before the first the kernel's scratch at anything, afterwards the
    accumulator at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (accAt m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

end Cert.Kernel.Hand

end
-- ==== Proof.KBBody0.lean ====
/-
  Whole-buffer accesses of the pairwise kernel's body.

  Every load and every store of the body goes through the rectangle of the buffer's own sizes at offset zero. Through
  that rectangle a load reads the buffer's contents, and after a store through it the buffer holds the store's payload,
  whatever it held before and whatever was stored into it earlier. The two statements below say this for a buffer's
  contents after a list of stores (the last store first) and for a load that follows them.
-/
import proofs.«411099_j55954833933114_3_alg».proof.Proof.KBKit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 access, as the constant function. -/
theorem hz2 : (![0, 0] : Fin 2 → Nat) = fun _ => 0 := funext fun a => by fin_cases a <;> rfl
/-- The zero offsets of a rank-3 access. -/
theorem hz3 : (![0, 0, 0] : Fin 3 → Nat) = fun _ => 0 := funext fun a => by fin_cases a <;> rfl

section whole
variable {Val : EltTy → Type} [∀ e, Nonempty (Val e)] {sg : RefSig} {κ : Kind} {sp : Space} {S : Shape} {e : EltTy}

/-- After a store through the whole-shape rectangle, LAST, the buffer reads as that store's payload, whatever it held
    and whatever was stored before: the rectangle holds every index, so the earlier pieces are all overwritten. -/
theorem read_writes_cons_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h]

/-- A load through the same rectangle after such a store reads the payload. -/
theorem readCov_cons_whole (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.Mem.head _, View.mem_set_unit_zero h inb y⟩),
    View.canon_cons_unit_zero h, View.ld_unit_zero h]

end whole

end Cert.Kernel.Hand

end
-- ==== Proof.KBBody1.lean ====
/-
  The pairwise kernel's body where the first condition (`j = 0`: the accumulator is zeroed) holds, for each way the
  other two conditions (`j = i`: the diagonal block is added; `j > i`: a block above the diagonal is added) fall.

  Each statement is the body's triple with the three conditions decided: the five input blocks are read and handed back
  unchanged, the accumulator ends at the stated composition of the payloads — every store into it covers it, so it
  holds the last store's payload, and each load of it reads what the store before left —, and the output's staging
  buffer, whatever it held, ends at the accumulator's final contents recast to the output block's shape.
-/
import proofs.«411099_j55954833933114_3_alg».proof.Proof.KBBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where `j = 0` holds, `j = i` holds and `j > i` holds:
    the accumulator is zeroed, then the diagonal block's total is added to it, then an upper block's total is added to it;
    the output's staging buffer is then filled with the accumulator's contents. -/
theorem run_body_ttt (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : cond0 i) (h1 : cond1 i) (h2 : cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay3 b0 b1 b3 b4 (k0_pay2 (k0_pay5 b0 b1 b2 b4 (k0_pay1 (F := F))))))
              ∗ owns (c : Thread nD τ) arg8 fullShare (k0_pay3 b0 b1 b3 b4 (k0_pay2 (k0_pay5 b0 b1 b2 b4 (k0_pay1 (F := F)))))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` holds, `j = i` holds and `j > i` fails:
    the accumulator is zeroed, then the diagonal block's total is added to it;
    the output's staging buffer is then filled with the accumulator's contents. -/
theorem run_body_ttf (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : cond0 i) (h1 : cond1 i) (h2 : ¬cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay2 (k0_pay5 b0 b1 b2 b4 (k0_pay1 (F := F)))))
              ∗ owns (c : Thread nD τ) arg8 fullShare (k0_pay2 (k0_pay5 b0 b1 b2 b4 (k0_pay1 (F := F))))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` holds, `j = i` fails and `j > i` holds:
    the accumulator is zeroed, then an upper block's total is added to it;
    the output's staging buffer is then filled with the accumulator's contents. -/
theorem run_body_tft (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : cond0 i) (h1 : ¬cond1 i) (h2 : cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay3 b0 b1 b3 b4 (k0_pay1 (F := F))))
              ∗ owns (c : Thread nD τ) arg8 fullShare (k0_pay3 b0 b1 b3 b4 (k0_pay1 (F := F)))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` holds, `j = i` fails and `j > i` fails:
    the accumulator is zeroed;
    the output's staging buffer is then filled with the accumulator's contents. -/
theorem run_body_tff (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : cond0 i) (h1 : ¬cond1 i) (h2 : ¬cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay1 (F := F)))
              ∗ owns (c : Thread nD τ) arg8 fullShare (k0_pay1 (F := F))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

end Cert.Kernel.Hand

end
-- ==== Proof.KBBody2.lean ====
/-
  The pairwise kernel's body where the first condition (`j = 0`: the accumulator is zeroed) fails, for each way the
  other two conditions (`j = i`: the diagonal block is added; `j > i`: a block above the diagonal is added) fall.

  Each statement is the body's triple with the three conditions decided: the five input blocks are read and handed back
  unchanged, the accumulator ends at the stated composition of the payloads — every store into it covers it, so it
  holds the last store's payload, and each load of it reads what the store before left —, and the output's staging
  buffer, whatever it held, ends at the accumulator's final contents recast to the output block's shape.
-/
import proofs.«411099_j55954833933114_3_alg».proof.Proof.KBBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where `j = 0` fails, `j = i` holds and `j > i` holds:
    the accumulator is the diagonal block's total is added to it, then an upper block's total is added to it;
    the output's staging buffer is then filled with the accumulator's contents. -/
theorem run_body_ftt (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : ¬cond0 i) (h1 : cond1 i) (h2 : cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay3 b0 b1 b3 b4 (k0_pay2 (k0_pay5 b0 b1 b2 b4 xs))))
              ∗ owns (c : Thread nD τ) arg8 fullShare (k0_pay3 b0 b1 b3 b4 (k0_pay2 (k0_pay5 b0 b1 b2 b4 xs)))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` fails, `j = i` holds and `j > i` fails:
    the accumulator is the diagonal block's total is added to it;
    the output's staging buffer is then filled with the accumulator's contents. -/
theorem run_body_ftf (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : ¬cond0 i) (h1 : cond1 i) (h2 : ¬cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay2 (k0_pay5 b0 b1 b2 b4 xs)))
              ∗ owns (c : Thread nD τ) arg8 fullShare (k0_pay2 (k0_pay5 b0 b1 b2 b4 xs))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` fails, `j = i` fails and `j > i` holds:
    the accumulator is an upper block's total is added to it;
    the output's staging buffer is then filled with the accumulator's contents. -/
theorem run_body_fft (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : ¬cond0 i) (h1 : ¬cond1 i) (h2 : cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay3 b0 b1 b3 b4 xs))
              ∗ owns (c : Thread nD τ) arg8 fullShare (k0_pay3 b0 b1 b3 b4 xs)) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` fails, `j = i` fails and `j > i` fails:
    the accumulator is left as it was;
    the output's staging buffer is then filled with the accumulator's contents. -/
theorem run_body_fff (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : ¬cond0 i) (h1 : ¬cond1 i) (h2 : ¬cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 xs)
              ∗ owns (c : Thread nD τ) arg8 fullShare xs) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

end Cert.Kernel.Hand

end
-- ==== Proof.KBBody.lean ====
/-
  The pairwise kernel's body at any grid point.

  The body's three conditions (`j = 0`, `j = i`, `j > i`, read off the grid coordinates) are each decided one way or
  the other; under every combination the body runs to the continuation with the inputs unchanged, the accumulator at the
  composition of payloads that combination selects, and the output's staging buffer at that accumulator's contents.
  `accNext` is by definition that composition as a function of the three conditions, so the eight runs together are
  the body's triple at `accNext`.
-/
import proofs.«411099_j55954833933114_3_alg».proof.Proof.KBBody1
import proofs.«411099_j55954833933114_3_alg».proof.Proof.KBBody2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple: from the five input blocks, the output's staging buffer at anything and the accumulator at
    `xs`, it runs to the continuation with the inputs as they were, the accumulator at one point's effect on `xs` and
    the output's staging buffer at that accumulator's contents. The three conditions are decided either way; each of the
    eight combinations is a run of its own, at the value `accNext` takes there. -/
theorem run_body (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (accNext i b0 b1 b2 b3 b4 xs))
              ∗ owns (c : Thread nD τ) arg8 fullShare (accNext i b0 b1 b2 b3 b4 xs)) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  by_cases h0 : cond0 i <;> by_cases h1 : cond1 i <;> by_cases h2 : cond2 i
  · have e : accNext i b0 b1 b2 b3 b4 xs = k0_pay3 b0 b1 b3 b4 (k0_pay2 (k0_pay5 b0 b1 b2 b4 (k0_pay1 (F := F)))) := by
      unfold accNext; simp only [if_pos h0, if_pos h1, if_pos h2]
    rw [e]; exact run_body_ttt c i arg2 harg2 arg3 harg3 arg4 harg4 arg5 harg5 arg6 harg6 arg7 harg7 arg8 harg8 h0 h1 h2 b0 b1 b2 b3 b4 xs E K
  · have e : accNext i b0 b1 b2 b3 b4 xs = k0_pay2 (k0_pay5 b0 b1 b2 b4 (k0_pay1 (F := F))) := by
      unfold accNext; simp only [if_pos h0, if_pos h1, if_neg h2]
    rw [e]; exact run_body_ttf c i arg2 harg2 arg3 harg3 arg4 harg4 arg5 harg5 arg6 harg6 arg7 harg7 arg8 harg8 h0 h1 h2 b0 b1 b2 b3 b4 xs E K
  · have e : accNext i b0 b1 b2 b3 b4 xs = k0_pay3 b0 b1 b3 b4 (k0_pay1 (F := F)) := by
      unfold accNext; simp only [if_pos h0, if_neg h1, if_pos h2]
    rw [e]; exact run_body_tft c i arg2 harg2 arg3 harg3 arg4 harg4 arg5 harg5 arg6 harg6 arg7 harg7 arg8 harg8 h0 h1 h2 b0 b1 b2 b3 b4 xs E K
  · have e : accNext i b0 b1 b2 b3 b4 xs = k0_pay1 (F := F) := by
      unfold accNext; simp only [if_pos h0, if_neg h1, if_neg h2]
    rw [e]; exact run_body_tff c i arg2 harg2 arg3 harg3 arg4 harg4 arg5 harg5 arg6 harg6 arg7 harg7 arg8 harg8 h0 h1 h2 b0 b1 b2 b3 b4 xs E K
  · have e : accNext i b0 b1 b2 b3 b4 xs = k0_pay3 b0 b1 b3 b4 (k0_pay2 (k0_pay5 b0 b1 b2 b4 xs)) := by
      unfold accNext; simp only [if_neg h0, if_pos h1, if_pos h2]
    rw [e]; exact run_body_ftt c i arg2 harg2 arg3 harg3 arg4 harg4 arg5 harg5 arg6 harg6 arg7 harg7 arg8 harg8 h0 h1 h2 b0 b1 b2 b3 b4 xs E K
  · have e : accNext i b0 b1 b2 b3 b4 xs = k0_pay2 (k0_pay5 b0 b1 b2 b4 xs) := by
      unfold accNext; simp only [if_neg h0, if_pos h1, if_neg h2]
    rw [e]; exact run_body_ftf c i arg2 harg2 arg3 harg3 arg4 harg4 arg5 harg5 arg6 harg6 arg7 harg7 arg8 harg8 h0 h1 h2 b0 b1 b2 b3 b4 xs E K
  · have e : accNext i b0 b1 b2 b3 b4 xs = k0_pay3 b0 b1 b3 b4 xs := by
      unfold accNext; simp only [if_neg h0, if_neg h1, if_pos h2]
    rw [e]; exact run_body_fft c i arg2 harg2 arg3 harg3 arg4 harg4 arg5 harg5 arg6 harg6 arg7 harg7 arg8 harg8 h0 h1 h2 b0 b1 b2 b3 b4 xs E K
  · have e : accNext i b0 b1 b2 b3 b4 xs = xs := by
      unfold accNext; simp only [if_neg h0, if_neg h1, if_neg h2]
    rw [e]; exact run_body_fff c i arg2 harg2 arg3 harg3 arg4 harg4 arg5 harg5 arg6 harg6 arg7 harg7 arg8 harg8 h0 h1 h2 b0 b1 b2 b3 b4 xs E K

end Cert.Kernel.Hand

end
-- ==== Proof.LibFrameShared.lean ====
/-
  The run of a one-region program whose INPUT windows may share an array, continued by host operations.

  A kernel may be handed one array through several of its input windows (the same rows read once as "row block i" and
  once as "row block j"). The pipeline then holds that array's points-to split among those windows, each at a share of
  its own, and the arrays behind the windows are no longer pairwise distinct buffers. This module states the launch for
  that shape: @main is host operations, the region, host operations; the windows' arrays need not be distinct
  (`WinFacts₀`), the certificate says how the distinct buffers behind them, whole at the full share, make the proof
  data's arrays at entry (`hsplit`: an array read through several input windows split among them along their shares);
  ONE window `wo` — the kernel's result — is held at the full share on a buffer no other window names, and the host
  operations after the region touch only that buffer and the buffers that bypass the region, and do not write it.
  The region's invariant is the core's scoped buffers that are no staging buffer (the kernel's scratch); the generator's
  register is let go. The run concludes: every window's array at what the proof data computes for it after the last
  point, and every bypassing buffer at the later host operations' result from the exit contents — the bypassing buffers
  as the earlier host operations left them, the result array as the region left it (`exitVal`).
-/
import Idealize.ShloMosaic.Lib.Pipeline.FrameSuffix

noncomputable section

namespace Idealize.ShloMosaic

open Idealize.SL
open Idealize.SL.BI (sProp bigSep bigSep_map bigSep_union bigSep_congr bigSep_insert bigSep_erase)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

open scoped Classical in
/-- The device buffers a host operation after the region may touch: the result window's array and the buffers that bypass
    the region. -/
def outRefs (wo : Fin (cfg).W) : Finset (DevRef τ sig) :=
  (insert (arrRef (cfg).spec wo) (restRefs sig (cfg).spec)).map ⟨Proc.devRef (sig := sig) .tc, Proc.devRef_injective _⟩

open scoped Classical in
/-- The core's buffer contents at the region's exit as the later host operations see them: the result window's array at
    what the region left in it, every other buffer at its region-entry contents `V₀`. -/
def exitVal (V₀ : Dev nD → Valuation τ sig Val) (wo : Fin (cfg).W) (c : Dev nD) : Valuation τ sig Val :=
  Function.update (V₀ c) (Proc.devRef .tc (arrRef (cfg).spec wo)) ((dats p c).arrAt wo (cfg).N)

omit [Fintype P] [DecidableEq P] [∀ e, Nonempty (Val e)] in
/-- Those buffers held at `W`: the result array, and the bypassing buffers. -/
theorem held_outRefs (wo : Fin (cfg).W) (c : Dev nD) (W : Valuation τ sig Val) :
    (StableHlo.held (c.tc : Thread nD τ) (outRefs cfgs p wo) W : sProp 𝕄)
      = iprop((((c.tc : Thread nD τ).loc (arrRef (cfg).spec wo)) ↦{fullShare} W (Proc.devRef .tc (arrRef (cfg).spec wo)))
          ∗ unscopedRest (cfg).spec c (fun b => W (Proc.devRef .tc b))) := by
  classical
  have hnot : arrRef (cfg).spec wo ∉ restRefs sig (cfg).spec := fun h =>
    (Finset.mem_sdiff.mp h).2 (Finset.mem_image.mpr ⟨wo, Finset.mem_univ _, rfl⟩)
  unfold StableHlo.held outRefs unscopedRest
  rw [bigSep_map, bigSep_insert hnot]
  rfl

omit [Fintype P] [DecidableEq P] [∀ e, Nonempty (Val e)] in
set_option backward.isDefEq.respectTransparency.types false in
/-- The host operations after the region, run within the result array and the bypassing buffers. -/
theorem tail_seqs_out (wo : Fin (cfg).W) (c : Dev nD) (W : Valuation τ sig Val) (opss : List (List (HloOp τ sig Val)))
    (hsub : ∀ ops ∈ opss, ∀ op ∈ ops, op.bufs ⊆ outRefs cfgs p wo)
    (hfresh : ∀ ops ∈ opss, ∀ op ∈ ops, op.fresh = ∅) (Q' : PUnit → sProp 𝕄) :
    iprop((iprop((StableHlo.held (c.tc : Thread nD τ) (outRefs cfgs p wo) (StableHlo.after opss.flatten W) : sProp 𝕄)) -∗ Q' ⟨⟩)
        ∗ boundary (c.tc : Thread nD τ) ∗ (StableHlo.held (c.tc : Thread nD τ) (outRefs cfgs p wo) W : sProp 𝕄))
      ⊢ wp frame (wpE 𝔻 𝕍 (c.tc : Thread nD τ) none) Set.univ (chain (opss.map StableHlo.seq)) Q' := by
  rw [← List.append_nil (opss.map StableHlo.seq)]
  iintro ⟨Hk, Hb⟩
  iapply (wp_seqs_then (fun q => Cfg.toPCfg (Val := Val) (cfgs q)) defs₀ 𝒱₀ c (outRefs cfgs p wo) [] opss hsub hfresh W) $$ Hb
  iintro Hb
  rw [chain_nil, wp_pure]
  imodintro
  iapply Hk
  icases Hb with ⟨-, H⟩
  iexact H

include cfgs dats p in
omit [Fintype P] [DecidableEq P] [∀ e, Nonempty (Val e)] in
/-- At the exit contents the result array is what the region left in it. -/
theorem exitVal_out (V₀ : Dev nD → Valuation τ sig Val) (wo : Fin (cfg).W) (c : Dev nD) :
    exitVal cfgs dats p V₀ wo c (Proc.devRef .tc (arrRef (cfg).spec wo)) = (dats p c).arrAt wo (cfg).N := by
  classical
  unfold exitVal; exact Function.update_self ..

omit [Fintype P] [DecidableEq P] [∀ e, Nonempty (Val e)] in
/-- And every other buffer is at its region-entry contents. -/
theorem exitVal_of_ne (V₀ : Dev nD → Valuation τ sig Val) (wo : Fin (cfg).W) (c : Dev nD) (b : Ref sig .tc)
    (hb : b ≠ arrRef (cfg).spec wo) :
    exitVal cfgs dats p V₀ wo c (Proc.devRef .tc b) = V₀ c (Proc.devRef .tc b) := by
  classical
  unfold exitVal
  exact Function.update_of_ne (fun e => hb (Proc.devRef_injective _ e)) ..

/-- THE RUN: @main is host operations, the region, host operations `opss`; the windows may share arrays; the later
    operations read the result window `wo`'s array and the bypassing buffers only. -/
theorem θ_run_frame_shared_tail
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (wo : Fin (cfg).W) (hwo : ∀ c, (dats p c).share wo = fullShare)
    (hsub : ∀ ops ∈ opss, ∀ op ∈ ops, op.bufs ⊆ outRefs cfgs p wo)
    (hfresh : ∀ ops ∈ opss, ∀ op ∈ ops, op.fresh = ∅)
    (hkeep : ∀ ops ∈ opss, ∀ op ∈ ops, Proc.devRef .tc (arrRef (cfg).spec wo) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, arrBufs (cfg).spec c (fun b => V₀ c (Proc.devRef .tc b)) ⊢ (dats p c).arrays ((dats p c).arrAt · 0))
    (hin : ∀ c, scopedRest (Ix := Unit) (Name := ℕ) (U := UR sig nD τ) (Lvl := ℕ) (Val := Val) (cfg).spec c ⊢ (dats p c).Φ 0)
    (hout : ∀ c, (dats p c).Φ (Fin.last (cfg).N) ⊢ scopedRest (Ix := Unit) (Name := ℕ) (U := UR sig nD τ) (Lvl := ℕ) (Val := Val) (cfg).spec c) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b)
          = StableHlo.after opss.flatten (exitVal cfgs dats p V₀ wo c) (Proc.devRef .tc b)) := by
  classical
  -- the proof data's arrays with the result window's array taken out, whole at the full share
  have harrays : ∀ (c : Dev nD) (G : (w : Fin (cfg).W) → Buf Val (((cfg).win w).arr.view.loc (c.tc : Thread nD τ))),
      ((dats p c).arrays G : sProp 𝕄)
        = iprop((((c.tc : Thread nD τ).loc (arrRef (cfg).spec wo)) ↦{fullShare} G wo)
            ∗ bigSep (Finset.univ.erase wo) fun w : Fin (cfg).W =>
                ((cfg).win w).arr.view.loc (c.tc : Thread nD τ) ↦[((cfg).win w).arr.view.set]{(dats p c).share w} G w) := fun c G => by
    unfold Dat.arrays
    rw [bigSep_erase (Finset.mem_univ wo)]
    congr 1
    rw [(harr wo).set_eq_univ, hwo c]
  exact θ_run_region_noSem_pf_tail (fun q => (cfgs q).toPCfg (Val := Val)) (fun q => (cfgs q).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c
      (fun b => StableHlo.after opss.flatten (exitVal cfgs dats p V₀ wo c) (Proc.devRef .tc b)))
    (hX := fun c => by
      rw [unscopedRestP_none]
      iintro H
      isplitr; · iempintro
      iexact H)
    (hin := fun c => (show _ ⊢ scopedRest (Ix := Unit) (Name := ℕ) (U := UR sig nD τ) (Lvl := ℕ) (Val := Val) (cfg).spec c from by
      iintro ⟨-, -, HR⟩; iexact HR).trans (hin c))
    (hout := fun c => (hout c).trans (by
      iintro H
      isplitr; · iempintro
      iexact H))
    (htail := fun c Q' => by
      have hW := held_outRefs cfgs p wo c (exitVal cfgs dats p V₀ wo c)
      have hW' := held_outRefs cfgs p wo c (StableHlo.after opss.flatten (exitVal cfgs dats p V₀ wo c))
      have e2 : (unscopedRest (Ix := Unit) (Name := ℕ) (U := UR sig nD τ) (Lvl := ℕ) (cfg).spec c (fun b => exitVal cfgs dats p V₀ wo c (Proc.devRef .tc b)) : sProp 𝕄)
          = unscopedRest (cfg).spec c (fun b => V₀ c (Proc.devRef .tc b)) := by
        unfold unscopedRest
        exact bigSep_congr fun b hb => by
          beta_reduce
          rw [exitVal_of_ne cfgs dats p V₀ wo c b fun e =>
            (Finset.mem_sdiff.mp hb).2 (Finset.mem_image.mpr ⟨wo, Finset.mem_univ _, e.symm⟩)]
      have e3 : StableHlo.after opss.flatten (exitVal cfgs dats p V₀ wo c) (Proc.devRef .tc (arrRef (cfg).spec wo))
          = (dats p c).arrAt wo (cfg).N := by
        rw [StableHlo.after_of_forall_not_mem _ _ fun op hop => ?_, exitVal_out]
        obtain ⟨ops, hops, hop⟩ := List.mem_flatten.mp hop
        exact hkeep ops hops op hop
      rw [exitVal_out, e2] at hW
      rw [e3] at hW'
      have hT := tail_seqs_out cfgs p defs₀ 𝒱₀ wo c (exitVal cfgs dats p V₀ wo c) opss hsub hfresh Q'
      rw [hW, hW'] at hT
      rw [harrays c]
      iintro ⟨Hk, Hb, ⟨HA1, HA2⟩, HZ⟩
      iapply hT
      isplitl [Hk HA2]
      · iintro ⟨HA1, HZ'⟩
        iapply Hk
        isplitl [HA1 HA2]
        · isplitl [HA1]; · iexact HA1
          iexact HA2
        · iexact HZ'
      · isplitl [Hb]; · iexact Hb
        isplitl [HA1]; · iexact HA1
        iexact HZ)
    (QY := fun c s => ∀ b ∈ restRefs sig (cfg).spec, s.mem ((c.tc : Thread nD τ).loc b)
      = StableHlo.after opss.flatten (exitVal cfgs dats p V₀ wo c) (Proc.devRef .tc b))
    (hY := fun c s' => by
      iintro ⟨-, HU, HSI⟩
      unfold unscopedRest
      imodintro
      iapply (pointsTo_read_all (restRefs sig (cfg).spec) (fun b => (c.tc : Thread nD τ).loc b)
        (fun b => StableHlo.after opss.flatten (exitVal cfgs dats p V₀ wo c) (Proc.devRef .tc b)) s')
      isplitl [HU] <;> iassumption)
    (hQ := fun s h c => ⟨(h c).1, (h c).2.2⟩)

end SharedFrame

end Pipeline

end Idealize.ShloMosaic

end
-- ==== Proof.KBFrame.lean ====
/-
  The frame of the pairwise kernel's program.

  The pipeline's proof data is shown to meet what the launch of a region whose input windows share an array asks:
  each input window's staging buffer holds its block at every point; the body at a point takes the accumulator from
  what the point before left to what this point leaves, and copies it to the output block; the one array read through
  two windows enters split in two halves; the host operations after the region read the region's result and buffers
  the region does not touch. The run of @main follows, and from it that the five argument arrays end as they began.
-/
import proofs.«411099_j55954833933114_3_alg».proof.Proof.KBDat
import proofs.«411099_j55954833933114_3_alg».proof.Proof.KBBody
import proofs.«411099_j55954833933114_3_alg».proof.Proof.LibFrameShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data, projected -/

/-- The proof data's arrays are the region-entry contents. -/
theorem A_eq (c : Dev nD) (w : Fin cfg0.W) : (dats m 0 c).A w = V m c (Pipeline.arrRef spec0 w) := by
  dsimp only [dats]

/-- What the body leaves in each window's buffer: an input's block; for the output the copy of the accumulator. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay4 (accAt m c t.val t.isLt) := by dsimp only [dats]

/-- The kernel's scoped buffers that are no staging buffer: the accumulator, at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

/-- After point `n`: the accumulator at that point's contents. -/
theorem PhiS_succ (c : Dev nD) (n : ℕ) (hn : n < cfg0.N) :
    PhiS m c (n + 1) hn = owns (c : Thread nD τ) scM fullShare (accAt m c n hn) := rfl

/-- Before a point that is not the first: the accumulator at what the point before left. -/
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-! ## What the body finds in the input windows' buffers -/

/-- Each input window's current staging buffer holds the window's block at every point, fetched there or not: where
    it is not fetched the block index has not moved since the point before, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The invariant at the region's ends -/

/-- What the launch hands the region is the invariant before the first point. -/
theorem hin (c : Dev nD) :
    Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back: the accumulator's contents are forgotten. -/
theorem hout (c : Dev nD) :
    (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro H
  iexists _; iexact H

/-! ## The body at a point -/

/-- The accumulator is zeroed at the points that open a block-row, and the first point is one. -/
theorem hcond0 : ∀ t : Fin cfg0.N, cond0 (grid0.coords t) ↔ t.val % 8 = 0 :=
  (by decide +kernel : ∀ t : Fin grid0.N, cond0 (grid0.coords t) ↔ t.val % 8 = 0)

/-- Where the accumulator is zeroed, what it held before does not matter. -/
theorem accNext_reset {i : grid0.Coords} (h : cond0 i) (b0 b1 : Vec F S1024x1024 .bf16) (b2 b3 b4 : Vec F S1024x8 .f32)
    (xs xs' : Vec F S8x128 .f32) : accNext i b0 b1 b2 b3 b4 xs = accNext i b0 b1 b2 b3 b4 xs' := by
  simp only [accNext, if_pos h]

/-- The accumulator after the first point, from whatever it held before. -/
theorem accAt_first (c : Dev nD) (t : Fin cfg0.N) (hz : t.val = 0) (xs : Vec F S8x128 .f32) :
    accAt m c t.val t.isLt
      = accNext (grid0.coords t) (iblk m c 0 t) (iblk m c 1 t) (iblk m c 2 t) (iblk m c 3 t) (iblk m c 4 t) xs := by
  obtain ⟨n, hn⟩ := t
  cases n with
  | zero => exact accNext_reset ((hcond0 ⟨0, hn⟩).mpr (Nat.zero_mod _)) _ _ _ _ _ _ _
  | succ n => exact absurd hz (Nat.succ_ne_zero n)

/-- The accumulator after a later point, from what the point before left. -/
theorem accAt_step (c : Dev nD) (t : Fin cfg0.N) (hz : t.val ≠ 0) :
    accAt m c t.val t.isLt
      = accNext (grid0.coords t) (iblk m c 0 t) (iblk m c 1 t) (iblk m c 2 t) (iblk m c 3 t) (iblk m c 4 t)
          (accAt m c (t.val - 1) (Nat.lt_of_le_of_lt (Nat.sub_le _ _) t.isLt)) := by
  obtain ⟨n, hn⟩ := t
  cases n with
  | zero => exact absurd rfl hz
  | succ n => rfl

/-- No window is idle at any point: the body leaves each window's buffer at the stated contents. -/
theorem leaves0 (c : Dev nD) (w : Fin cfg0.W) (t : Fin cfg0.N) :
    (dats m 0 c).leavesExact w t
      = owns (c : Thread nD τ) ((cfg0.win w).stage (cfg0.slots t w)) fullShare ((dats m 0 c).after w t) := rfl

/-- What the body is called with at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns: the invariant at the next point, and each buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point. The five input buffers hold their blocks; the output buffer holds anything; the invariant
    hands the body the accumulator — at the first point at anything, which that point zeroes, afterwards at what the
    point before left — and the body's run returns the accumulator at this point's contents and their copy in the
    output buffer; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0, leaves0, leaves0, leaves0, leaves0, leaves0, after0_0, after0_1, after0_2, after0_3, after0_4, after0_5]
  by_cases hz : t.val = 0
  · rw [PhiS_castSucc m c t, PhiS_zero m c _ _ hz, scoped_eq]
    iintro ⟨⟨%xs, HS⟩, Ho, ⟨%d0, H0⟩, ⟨%d1, H1⟩, ⟨%d2, H2⟩, ⟨%d3, H3⟩, ⟨%d4, H4⟩, ⟨%d5, H5⟩⟩
    rw [accAt_first m c t hz xs]
    iapply (run_body c (grid0.coords t) (ms0 t) (hs0 t) (ms1 t) (hs1 t) (ms2 t) (hs2 t) (ms3 t) (hs3 t) (ms4 t) (hs4 t) (ms5 t) (hs5 t)
      scM (Memref.isWhole_whole _) (iblk m c 0 t) (iblk m c 1 t) (iblk m c 2 t) (iblk m c 3 t) (iblk m c 4 t) xs Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc m c t, PhiS_pos m c _ _ hz, accAt_step m c t hz]
    iintro ⟨HS, Ho, ⟨%d0, H0⟩, ⟨%d1, H1⟩, ⟨%d2, H2⟩, ⟨%d3, H3⟩, ⟨%d4, H4⟩, ⟨%d5, H5⟩⟩
    iapply (run_body c (grid0.coords t) (ms0 t) (hs0 t) (ms1 t) (hs1 t) (ms2 t) (hs2 t) (ms3 t) (hs3 t) (ms4 t) (hs4 t) (ms5 t) (hs5 t)
      scM (Memref.isWhole_whole _) (iblk m c 0 t) (iblk m c 1 t) (iblk m c 2 t) (iblk m c 3 t) (iblk m c 4 t)
      (accAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

/-- The share each window holds of its array: the two windows on the normalised rows a half each, the others all. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

/-- A window's array as the proof data holds it at entry: the whole buffer behind it, at the window's share, at the
    region-entry contents. -/
theorem arr0 (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq, show (dats m 0 c).arrAt w 0 = (dats m 0 c).A w from rfl, A_eq]

/-- The buffers behind the six windows are five. -/
theorem arrSet : Finset.univ.image (Pipeline.arrRef spec0)
    = ([main_call0_v27, main_call0_v29, main_call0_v32, main_call0_v28, main_call0_v33] : List (Ref sig .tc)).toFinset := by
  decide +kernel

/-- A conjunction of equals. -/
theorem sep_eq {P P' Q Q' : sProp 𝕄} (h₁ : P = P') (h₂ : Q = Q') : (iprop(P ∗ Q) : sProp 𝕄) = iprop(P' ∗ Q') := by
  rw [h₁, h₂]

/-- The proof data's arrays at entry, window by window. -/
theorem arrays0_eq (c : Dev nD) :
    ((dats m 0 c).arrays ((dats m 0 c).arrAt · 0) : sProp 𝕄)
      = iprop((((c.tc : Thread nD τ).loc main_call0_v27) ↦{fullShare.left} V m c main_call0_v27)
          ∗ (((c.tc : Thread nD τ).loc main_call0_v27) ↦{fullShare.right} V m c main_call0_v27)
          ∗ (((c.tc : Thread nD τ).loc main_call0_v29) ↦{fullShare} V m c main_call0_v29)
          ∗ (((c.tc : Thread nD τ).loc main_call0_v32) ↦{fullShare} V m c main_call0_v32)
          ∗ (((c.tc : Thread nD τ).loc main_call0_v28) ↦{fullShare} V m c main_call0_v28)
          ∗ (((c.tc : Thread nD τ).loc main_call0_v33) ↦{fullShare} V m c main_call0_v33)) := by
  unfold Dat.arrays
  rw [bigSep_W0]
  exact sep_eq (arr0 m c 0 _ (share0_0 m c)) (sep_eq (arr0 m c 1 _ (share0_1 m c)) (sep_eq (arr0 m c 2 _ (share0_2 m c))
    (sep_eq (arr0 m c 3 _ (share0_3 m c)) (sep_eq (arr0 m c 4 _ (share0_4 m c)) (arr0 m c 5 _ (share0_5 m c))))))

/-- The distinct buffers behind the windows, one by one. -/
theorem arrBufs0_eq (c : Dev nD) :
    (Pipeline.arrBufs spec0 c (V m c) : sProp 𝕄)
      = iprop((((c.tc : Thread nD τ).loc main_call0_v27) ↦{fullShare} V m c main_call0_v27)
          ∗ (((c.tc : Thread nD τ).loc main_call0_v29) ↦{fullShare} V m c main_call0_v29)
          ∗ (((c.tc : Thread nD τ).loc main_call0_v32) ↦{fullShare} V m c main_call0_v32)
          ∗ (((c.tc : Thread nD τ).loc main_call0_v28) ↦{fullShare} V m c main_call0_v28)
          ∗ (((c.tc : Thread nD τ).loc main_call0_v33) ↦{fullShare} V m c main_call0_v33)) := by
  unfold Pipeline.arrBufs
  exact bigSep_eq_bigSepL_of_eq [main_call0_v27, main_call0_v29, main_call0_v32, main_call0_v28, main_call0_v33] arrSet (by decide) _

/-- The five distinct buffers behind the six windows, whole at the full share, make the proof data's arrays at entry:
    the normalised rows' buffer, read through two windows, is split in two halves along the share. -/
theorem hsplit (c : Dev nD) : Pipeline.arrBufs spec0 c (V m c) ⊢ (dats m 0 c).arrays ((dats m 0 c).arrAt · 0) := by
  rw [arrays0_eq, arrBufs0_eq]
  iintro ⟨H27, H29, H32, H28, H33⟩
  ihave H := (pointsTo_share (PosShare.mem_left_op_right fullShare)).1 $$ H27
  icases H with ⟨Ha, Hb⟩
  isplitl [Ha]; · iexact Ha
  isplitl [Hb]; · iexact Hb
  isplitl [H29]; · iexact H29
  isplitl [H32]; · iexact H32
  isplitl [H28]; · iexact H28
  iexact H33

/-! ## The host operations after the region -/

/-- An unscoped buffer that is no window's array is one the later operations may touch. -/
theorem mem_out_of (r : Ref sig .tc) (hs : r.isScoped = false) (ha : ∀ w, (spec0 w).arr.view.ref ≠ r) :
    Proc.devRef (τ := τ) .tc r ∈ Pipeline.outRefs cfgs 0 5 := by
  unfold Pipeline.outRefs
  exact Finset.mem_map_of_mem _ (Finset.mem_insert_of_mem (Pipeline.mem_restRefs_of r hs ha))

/-- So is the region's result array. -/
theorem mem_out_res : Proc.devRef (τ := τ) .tc main_call0_v33 ∈ Pipeline.outRefs cfgs 0 5 := by
  unfold Pipeline.outRefs
  exact Finset.mem_map_of_mem _ (Finset.mem_insert_self _ _)

/-- The operations after the region touch the region's result, two scalars the earlier operations left, and buffers
    of their own: no input array of the region. -/
theorem sfx_sub : ∀ ops ∈ ([hostOps1] : List (List (HloOp τ sig (Elt F)))), ∀ op ∈ ops,
    op.bufs ⊆ Pipeline.outRefs cfgs 0 5 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals
    simp only [StableHlo.nullary_bufs, StableHlo.binary_bufs, Finset.insert_subset_iff, Finset.singleton_subset_iff]
    repeat' apply And.intro
    all_goals first | exact mem_out_res | exact mem_out_of _ rfl (by decide)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And none writes the region's result array. -/
theorem sfx_keep : ∀ ops ∈ ([hostOps1] : List (List (HloOp τ sig (Elt F)))), ∀ op ∈ ops,
    Proc.devRef .tc (Pipeline.arrRef spec0 5) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals simp only [StableHlo.nullary_writes, StableHlo.binary_writes, Finset.mem_singleton] <;> exact StableHlo.devRef_ne_of_ne (by decide)

/-! ## The run and the frame -/

set_option backward.isDefEq.respectTransparency.types false in
/-- At the compiled mesh, for any values, from any memory with zero counters: every weakly fair execution of @main on
    the TensorCores terminates, and every final state has every array of the pipeline at what the proof data computes
    for it after the last point, and every buffer that bypasses the region at what the later host operations make of
    the contents at the region's exit. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after [hostOps1].flatten (Pipeline.exitVal cfgs (dats m) 0 (V0 m) 5 c) (Proc.devRef .tc b)) :=
  Pipeline.θ_run_frame_shared_tail cfgs (dats m) 0 defs₀ Variants.none cellOf_inj winFacts₀0 block_pos0 arr_whole0 stage_whole0 m ρ main
    (fun c => (body_obligation m c).loose) (fun _ _ => rfl) (V0 m) [hostOps1] 5 (fun c => share0_5 m c) sfx_sub sfx_fresh sfx_keep
    (hmain m Variants.none) (hsplit m) (hin m) (hout m)

/-- Every host operation before the region writes one buffer, and none of the first five, the arguments. -/
theorem hostOps0_writes : (hostOps0 : List (HloOp τ sig (Elt F))).Forall fun op =>
    ∃ y : Ref sig .tc, op.writes = {Proc.devRef .tc y} ∧ 5 ≤ y.idx.val := by
  simp only [List.Forall]
  repeat' apply And.intro
  all_goals exact ⟨_, rfl, by decide⟩

/-- The same of those after it. -/
theorem hostOps1_writes : (hostOps1 : List (HloOp τ sig (Elt F))).Forall fun op =>
    ∃ y : Ref sig .tc, op.writes = {Proc.devRef .tc y} ∧ 5 ≤ y.idx.val := by
  simp only [List.Forall]
  repeat' apply And.intro
  all_goals exact ⟨_, rfl, by decide⟩

/-- So no host operation before the region writes an argument array, -/
theorem pre_keeps (r : Ref sig .tc) (hr : r.idx.val < 5) :
    ∀ op ∈ (List.flatten [hostOps0] : List (HloOp τ sig (Elt F))), Proc.devRef (τ := τ) .tc r ∉ op.writes := by
  intro op hop
  simp only [List.flatten_cons, List.flatten_nil, List.append_nil] at hop
  obtain ⟨y, hy, h5⟩ := (List.forall_iff_forall_mem.mp hostOps0_writes) op hop
  rw [hy, Finset.mem_singleton]
  exact StableHlo.devRef_ne_of_ne (fun e => by subst e; omega)

/-- and none after it. -/
theorem post_keeps (r : Ref sig .tc) (hr : r.idx.val < 5) :
    ∀ op ∈ (List.flatten [hostOps1] : List (HloOp τ sig (Elt F))), Proc.devRef (τ := τ) .tc r ∉ op.writes := by
  intro op hop
  simp only [List.flatten_cons, List.flatten_nil, List.append_nil] at hop
  obtain ⟨y, hy, h5⟩ := (List.forall_iff_forall_mem.mp hostOps1_writes) op hop
  rw [hy, Finset.mem_singleton]
  exact StableHlo.devRef_ne_of_ne (fun e => by subst e; omega)

/-- An argument array, which is no window's array either, ends at what the launch memory holds. -/
theorem arg_kept (c : Dev nD) (r : Ref sig .tc) (hr : r.idx.val < 5) (hne : r ≠ Pipeline.arrRef spec0 5) :
    StableHlo.after [hostOps1].flatten (Pipeline.exitVal cfgs (dats m) 0 (V0 m) 5 c) (Proc.devRef .tc r)
      = m ((c.tc : Thread nD τ).loc r) := by
  rw [StableHlo.after_of_forall_not_mem _ _ (post_keeps r hr), Pipeline.exitVal_of_ne cfgs (dats m) 0 (V0 m) 5 c r hne]
  exact StableHlo.after_of_forall_not_mem _ _ (pre_keeps r hr)

/-- The argument arrays bypass the region: unscoped, and no window's array. -/
theorem arg0_rest : main_arg0 ∈ Pipeline.restRefs sig spec0 := Pipeline.mem_restRefs_of _ rfl (by decide)
theorem arg1_rest : main_arg1 ∈ Pipeline.restRefs sig spec0 := Pipeline.mem_restRefs_of _ rfl (by decide)
theorem arg2_rest : main_arg2 ∈ Pipeline.restRefs sig spec0 := Pipeline.mem_restRefs_of _ rfl (by decide)
theorem arg3_rest : main_arg3 ∈ Pipeline.restRefs sig spec0 := Pipeline.mem_restRefs_of _ rfl (by decide)
theorem arg4_rest : main_arg4 ∈ Pipeline.restRefs sig spec0 := Pipeline.mem_restRefs_of _ rfl (by decide)
/-- So does the program's result. -/
theorem v0_rest : main_v0 ∈ Pipeline.restRefs sig spec0 := Pipeline.mem_restRefs_of _ rfl (by decide)

/-- THE FRAME: the program runs and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 arg0_rest).trans (arg_kept m c main_arg0 (by decide) (by decide)),
     ((h c).2 main_arg1 arg1_rest).trans (arg_kept m c main_arg1 (by decide) (by decide)),
     ((h c).2 main_arg2 arg2_rest).trans (arg_kept m c main_arg2 (by decide) (by decide)),
     ((h c).2 main_arg3 arg3_rest).trans (arg_kept m c main_arg3 (by decide) (by decide)),
     ((h c).2 main_arg4 arg4_rest).trans (arg_kept m c main_arg4 (by decide) (by decide))⟩) (run_main m ρ)

/-- The same run, read at the program's result as well: what the host operations after the region make of the
    contents at the region's exit. -/
theorem run_value : θ_run defs (onTc (τ := τ) (main (F := F))) ⟨m, fun _ => 0, ρ⟩ (fun r => ∀ c : Dev nD,
      r.2.mem ((c.tc : Thread nD τ).loc main_v0)
        = StableHlo.after [hostOps1].flatten (Pipeline.exitVal cfgs (dats m) 0 (V0 m) 5 c) (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v0 v0_rest,
     ((h c).2 main_arg0 arg0_rest).trans (arg_kept m c main_arg0 (by decide) (by decide)),
     ((h c).2 main_arg1 arg1_rest).trans (arg_kept m c main_arg1 (by decide) (by decide)),
     ((h c).2 main_arg2 arg2_rest).trans (arg_kept m c main_arg2 (by decide) (by decide)),
     ((h c).2 main_arg3 arg3_rest).trans (arg_kept m c main_arg3 (by decide) (by decide)),
     ((h c).2 main_arg4 arg4_rest).trans (arg_kept m c main_arg4 (by decide) (by decide))⟩) (run_main m ρ)

end Cert.Kernel.Hand

end
-- ==== Proof.KIKit.lean ====
/-
  What the frame of the pairwise kernel is stated over.

  @main is a stretch of host operations (normalising the rows, the one-hot rows and their two products with the weight
  matrix, and the two loss terms that need no kernel), the kernel region on an 8 × 8 grid, and a short stretch that sums
  the region's result and adds the three terms. `V` is what the buffers hold when the region is entered.

  The body at grid point (i, j) keeps a running 8 × 128 accumulator in a scratch buffer across the points of a
  block-row: it is zeroed at j = 0, the diagonal block is added at j = i, a block above the diagonal at j > i, nothing
  at j < i; the accumulator is copied to the output block at every point. `accNext` is one point's effect on the
  accumulator as a function of the five input blocks and of what the accumulator held before, with the three
  conditions read off the grid coordinates exactly as the body computes them.
-/
import proofs.«411099_j55954833933114_3_alg».proof.Proof.Gen.KernelIdeal.Launch
import proofs.«411099_j55954833933114_3_alg».proof.Proof.Gen.KernelIdeal.Skeleton
import proofs.«411099_j55954833933114_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation before the region allocates. -/
theorem hostOps0_fresh : (hostOps0 : List (HloOp τ sig (Elt F))).Forall fun op => op.fresh = ∅ := by
  simp only [List.Forall]; repeat' constructor
/-- Nor does one after it. -/
theorem hostOps1_fresh : (hostOps1 : List (HloOp τ sig (Elt F))).Forall fun op => op.fresh = ∅ := by
  simp only [List.Forall]; repeat' constructor

/-- @main reduces to the region continued by the later host operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's three conditions, from the grid coordinates -/

/-- `j = 0`: the accumulator is zeroed. -/
abbrev cond0 (i : grid0.Coords) : Prop :=
  (Scalar.cmpi .ne (Scalar.extui (Scalar.cmpi .eq (BitVec.ofNat 32 (i 1).val) 0#32)) 0#32) = 1#1
/-- `j = i`: the diagonal block is added. -/
abbrev cond1 (i : grid0.Coords) : Prop :=
  (Scalar.cmpi .ne (Scalar.extui (Scalar.cmpi .eq (BitVec.ofNat 32 (i 1).val) (BitVec.ofNat 32 (i 0).val))) 0#32) = 1#1
/-- `j > i`: a block above the diagonal is added. -/
abbrev cond2 (i : grid0.Coords) : Prop :=
  (Scalar.cmpi .ne (Scalar.extui (Scalar.cmpi .sgt (BitVec.ofNat 32 (i 1).val) (BitVec.ofNat 32 (i 0).val))) 0#32) = 1#1

/-- One point's effect on the accumulator: zeroed if `j = 0`, then the diagonal block's total added if `j = i`, then
    an upper block's if `j > i` (the body's three conditionals in order), over the input blocks `b0 … b4` (the two row
    blocks, the two weight-row blocks, the one-hot block) and the accumulator's contents before the point. -/
def accNext (i : grid0.Coords) (b0 b1 : Vec F S1024x1024 .bf16) (b2 b3 b4 : Vec F S1024x8 .f32) (xs : Vec F S8x128 .f32) :
    Vec F S8x128 .f32 :=
  let s1 : Vec F S8x128 .f32 := if cond0 i then k0_pay1 (F := F) else xs
  let s2 : Vec F S8x128 .f32 := if cond1 i then k0_pay2 (k0_pay5 b0 b1 b2 b4 s1) else s1
  if cond2 i then k0_pay3 b0 b1 b3 b4 s2 else s2

/-! ## The staging memrefs and the scratch -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x8 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x8 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x8 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x128 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev scM : Memref sig .tc .vmem S8x128 .f32 := Memref.whole cc0_scratch0

/-- The region's invariant outside the body's own bookkeeping: the accumulator at some contents, and the generator's
    register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KIDat.lean ====
/-
  The proof data of the pairwise kernel's pipeline.

  `accAt n` is what the accumulator holds after grid point `n` (points in row-major order, `n = 8 i + j`): one point's
  effect `accNext` on what the point before left, from zeros before the first. The output window's staging buffer
  holds a copy of it after every point; the five input windows' buffers hold their blocks. The two windows on the
  normalised rows share one array, each holding half of its points-to.
-/
import proofs.«411099_j55954833933114_3_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after point `n`. -/
def accAt (c : Dev nD) : (n : ℕ) → n < cfg0.N → Vec F S8x128 .f32
  | 0, hn => accNext (grid0.coords ⟨0, hn⟩) (iblk m c 0 ⟨0, hn⟩) (iblk m c 1 ⟨0, hn⟩) (iblk m c 2 ⟨0, hn⟩) (iblk m c 3 ⟨0, hn⟩) (iblk m c 4 ⟨0, hn⟩)
      (k0_pay1 (F := F))
  | n + 1, hn => accNext (grid0.coords ⟨n + 1, hn⟩) (iblk m c 0 ⟨n + 1, hn⟩) (iblk m c 1 ⟨n + 1, hn⟩) (iblk m c 2 ⟨n + 1, hn⟩) (iblk m c 3 ⟨n + 1, hn⟩)
      (iblk m c 4 ⟨n + 1, hn⟩) (accAt c n (Nat.lt_of_succ_lt hn))

/-- The region's invariant before point `n`: before the first the kernel's scratch at anything, afterwards the
    accumulator at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (accAt m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

end Cert.KernelIdeal.Hand

end
-- ==== Proof.KIBody0.lean ====
/-
  Whole-buffer accesses of the pairwise kernel's body.

  Every load and every store of the body goes through the rectangle of the buffer's own sizes at offset zero. Through
  that rectangle a load reads the buffer's contents, and after a store through it the buffer holds the store's payload,
  whatever it held before and whatever was stored into it earlier. The two statements below say this for a buffer's
  contents after a list of stores (the last store first) and for a load that follows them.
-/
import proofs.«411099_j55954833933114_3_alg».proof.Proof.KIKit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 access, as the constant function. -/
theorem hz2 : (![0, 0] : Fin 2 → Nat) = fun _ => 0 := funext fun a => by fin_cases a <;> rfl
/-- The zero offsets of a rank-3 access. -/
theorem hz3 : (![0, 0, 0] : Fin 3 → Nat) = fun _ => 0 := funext fun a => by fin_cases a <;> rfl

section whole
variable {Val : EltTy → Type} [∀ e, Nonempty (Val e)] {sg : RefSig} {κ : Kind} {sp : Space} {S : Shape} {e : EltTy}

/-- After a store through the whole-shape rectangle, LAST, the buffer reads as that store's payload, whatever it held
    and whatever was stored before: the rectangle holds every index, so the earlier pieces are all overwritten. -/
theorem read_writes_cons_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h]

/-- A load through the same rectangle after such a store reads the payload. -/
theorem readCov_cons_whole (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.Mem.head _, View.mem_set_unit_zero h inb y⟩),
    View.canon_cons_unit_zero h, View.ld_unit_zero h]

end whole

end Cert.KernelIdeal.Hand

end
-- ==== Proof.KIBody1.lean ====
/-
  The pairwise kernel's body where the first condition (`j = 0`: the accumulator is zeroed) holds, for each way the
  other two conditions (`j = i`: the diagonal block is added; `j > i`: a block above the diagonal is added) fall.

  Each statement is the body's triple with the three conditions decided: the five input blocks are read and handed back
  unchanged, the accumulator ends at the stated composition of the payloads — every store into it covers it, so it
  holds the last store's payload, and each load of it reads what the store before left —, and the output's staging
  buffer, whatever it held, ends at the accumulator's final contents recast to the output block's shape.
-/
import proofs.«411099_j55954833933114_3_alg».proof.Proof.KIBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where `j = 0` holds, `j = i` holds and `j > i` holds:
    the accumulator is zeroed, then the diagonal block's total is added to it, then an upper block's total is added to it;
    the output's staging buffer is then filled with the accumulator's contents. -/
theorem run_body_ttt (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : cond0 i) (h1 : cond1 i) (h2 : cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay3 b0 b1 b3 b4 (k0_pay2 (k0_pay5 b0 b1 b2 b4 (k0_pay1 (F := F))))))
              ∗ owns (c : Thread nD τ) arg8 fullShare (k0_pay3 b0 b1 b3 b4 (k0_pay2 (k0_pay5 b0 b1 b2 b4 (k0_pay1 (F := F)))))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` holds, `j = i` holds and `j > i` fails:
    the accumulator is zeroed, then the diagonal block's total is added to it;
    the output's staging buffer is then filled with the accumulator's contents. -/
theorem run_body_ttf (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : cond0 i) (h1 : cond1 i) (h2 : ¬cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay2 (k0_pay5 b0 b1 b2 b4 (k0_pay1 (F := F)))))
              ∗ owns (c : Thread nD τ) arg8 fullShare (k0_pay2 (k0_pay5 b0 b1 b2 b4 (k0_pay1 (F := F))))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` holds, `j = i` fails and `j > i` holds:
    the accumulator is zeroed, then an upper block's total is added to it;
    the output's staging buffer is then filled with the accumulator's contents. -/
theorem run_body_tft (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : cond0 i) (h1 : ¬cond1 i) (h2 : cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay3 b0 b1 b3 b4 (k0_pay1 (F := F))))
              ∗ owns (c : Thread nD τ) arg8 fullShare (k0_pay3 b0 b1 b3 b4 (k0_pay1 (F := F)))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` holds, `j = i` fails and `j > i` fails:
    the accumulator is zeroed;
    the output's staging buffer is then filled with the accumulator's contents. -/
theorem run_body_tff (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : cond0 i) (h1 : ¬cond1 i) (h2 : ¬cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay1 (F := F)))
              ∗ owns (c : Thread nD τ) arg8 fullShare (k0_pay1 (F := F))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

end Cert.KernelIdeal.Hand

end
-- ==== Proof.KIBody2.lean ====
/-
  The pairwise kernel's body where the first condition (`j = 0`: the accumulator is zeroed) fails, for each way the
  other two conditions (`j = i`: the diagonal block is added; `j > i`: a block above the diagonal is added) fall.

  Each statement is the body's triple with the three conditions decided: the five input blocks are read and handed back
  unchanged, the accumulator ends at the stated composition of the payloads — every store into it covers it, so it
  holds the last store's payload, and each load of it reads what the store before left —, and the output's staging
  buffer, whatever it held, ends at the accumulator's final contents recast to the output block's shape.
-/
import proofs.«411099_j55954833933114_3_alg».proof.Proof.KIBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where `j = 0` fails, `j = i` holds and `j > i` holds:
    the accumulator is the diagonal block's total is added to it, then an upper block's total is added to it;
    the output's staging buffer is then filled with the accumulator's contents. -/
theorem run_body_ftt (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : ¬cond0 i) (h1 : cond1 i) (h2 : cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay3 b0 b1 b3 b4 (k0_pay2 (k0_pay5 b0 b1 b2 b4 xs))))
              ∗ owns (c : Thread nD τ) arg8 fullShare (k0_pay3 b0 b1 b3 b4 (k0_pay2 (k0_pay5 b0 b1 b2 b4 xs)))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` fails, `j = i` holds and `j > i` fails:
    the accumulator is the diagonal block's total is added to it;
    the output's staging buffer is then filled with the accumulator's contents. -/
theorem run_body_ftf (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : ¬cond0 i) (h1 : cond1 i) (h2 : ¬cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay2 (k0_pay5 b0 b1 b2 b4 xs)))
              ∗ owns (c : Thread nD τ) arg8 fullShare (k0_pay2 (k0_pay5 b0 b1 b2 b4 xs))) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` fails, `j = i` fails and `j > i` holds:
    the accumulator is an upper block's total is added to it;
    the output's staging buffer is then filled with the accumulator's contents. -/
theorem run_body_fft (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : ¬cond0 i) (h1 : ¬cond1 i) (h2 : cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (k0_pay3 b0 b1 b3 b4 xs))
              ∗ owns (c : Thread nD τ) arg8 fullShare (k0_pay3 b0 b1 b3 b4 xs)) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

set_option maxHeartbeats 1000000 in
/-- The body where `j = 0` fails, `j = i` fails and `j > i` fails:
    the accumulator is left as it was;
    the output's staging buffer is then filled with the accumulator's contents. -/
theorem run_body_fff (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (h0 : ¬cond0 i) (h1 : ¬cond1 i) (h2 : ¬cond2 i)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 xs)
              ∗ owns (c : Thread nD τ) arg8 fullShare xs) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  simp only [cc0__pairwise_kernel_eq_skeleton]; unfold cc0__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  sl_exec (disch := first | exact h0 | exact h1 | exact h2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      try sl_unfold_words
      simp only [read_writes_cons_whole (S := S1x8x128) _ _ hz3, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]
  iexists _; isplitr
  rotate_left
  · iexact H6
  · ipureintro
    try sl_unfold_words
    simp only [read_writes_cons_whole (S := S8x128) _ _ hz2, readCov_cons_whole (S := S8x128) _ hz2, View.readAt_eq_ld,
        harg2.read_unread, harg3.read_unread, harg4.read_unread, harg5.read_unread, harg6.read_unread, harg8.read_unread,
        View.ld_unit_zero (S := S1024x1024) hz2, View.ld_unit_zero (S := S1024x8) hz2, View.ld_unit_zero (S := S8x128) hz2]

end Cert.KernelIdeal.Hand

end
-- ==== Proof.KIBody.lean ====
/-
  The pairwise kernel's body at any grid point.

  The body's three conditions (`j = 0`, `j = i`, `j > i`, read off the grid coordinates) are each decided one way or
  the other; under every combination the body runs to the continuation with the inputs unchanged, the accumulator at the
  composition of payloads that combination selects, and the output's staging buffer at that accumulator's contents.
  `accNext` is by definition that composition as a function of the three conditions, so the eight runs together are
  the body's triple at `accNext`.
-/
import proofs.«411099_j55954833933114_3_alg».proof.Proof.KIBody1
import proofs.«411099_j55954833933114_3_alg».proof.Proof.KIBody2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple: from the five input blocks, the output's staging buffer at anything and the accumulator at
    `xs`, it runs to the continuation with the inputs as they were, the accumulator at one point's effect on `xs` and
    the output's staging buffer at that accumulator's contents. The three conditions are decided either way; each of the
    eight combinations is a run of its own, at the value `accNext` takes there. -/
theorem run_body (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x8 .f32) (harg4 : arg4.IsWhole) (arg5 : Memref sig .tc .vmem S1024x8 .f32) (harg5 : arg5.IsWhole)
    (arg6 : Memref sig .tc .vmem S1024x8 .f32) (harg6 : arg6.IsWhole) (arg7 : Memref sig .tc .vmem S1x8x128 .f32) (harg7 : arg7.IsWhole)
    (arg8 : Memref sig .tc .vmem S8x128 .f32) (harg8 : arg8.IsWhole)
    (b0 b1 : Vec F S1024x1024 .bf16) (b2 b3 b4 : Vec F S1024x8 .f32) (xs : Vec F S8x128 .f32) (E : Set ℕ) (K : PUnit → sProp 𝕄) :
    iprop(owns (c : Thread nD τ) arg2 fullShare b0 ∗ owns (c : Thread nD τ) arg3 fullShare b1 ∗ owns (c : Thread nD τ) arg4 fullShare b2
        ∗ owns (c : Thread nD τ) arg5 fullShare b3 ∗ owns (c : Thread nD τ) arg6 fullShare b4
        ∗ (∃ d, owns (c : Thread nD τ) arg7 fullShare d) ∗ owns (c : Thread nD τ) arg8 fullShare xs
        ∗ (iprop(owns (c : Thread nD τ) arg2 fullShare b0 ∗ owns (c : Thread nD τ) arg3 fullShare b1 ∗ owns (c : Thread nD τ) arg4 fullShare b2
              ∗ owns (c : Thread nD τ) arg5 fullShare b3 ∗ owns (c : Thread nD τ) arg6 fullShare b4
              ∗ owns (c : Thread nD τ) arg7 fullShare (k0_pay4 (accNext i b0 b1 b2 b3 b4 xs))
              ∗ owns (c : Thread nD τ) arg8 fullShare (accNext i b0 b1 b2 b3 b4 xs)) -∗ K ⟨⟩))
      ⊢ wp frame (wpE (defs₀ (F := F)) Variants.none c none) E
          (cc0__pairwise_kernel i arg2 harg2 arg3 harg3 arg4 harg4 arg5 harg5 arg6 harg6 arg7 harg7 arg8 harg8) K := by
  by_cases h0 : cond0 i <;> by_cases h1 : cond1 i <;> by_cases h2 : cond2 i
  · have e : accNext i b0 b1 b2 b3 b4 xs = k0_pay3 b0 b1 b3 b4 (k0_pay2 (k0_pay5 b0 b1 b2 b4 (k0_pay1 (F := F)))) := by
      unfold accNext; simp only [if_pos h0, if_pos h1, if_pos h2]
    rw [e]; exact run_body_ttt c i arg2 harg2 arg3 harg3 arg4 harg4 arg5 harg5 arg6 harg6 arg7 harg7 arg8 harg8 h0 h1 h2 b0 b1 b2 b3 b4 xs E K
  · have e : accNext i b0 b1 b2 b3 b4 xs = k0_pay2 (k0_pay5 b0 b1 b2 b4 (k0_pay1 (F := F))) := by
      unfold accNext; simp only [if_pos h0, if_pos h1, if_neg h2]
    rw [e]; exact run_body_ttf c i arg2 harg2 arg3 harg3 arg4 harg4 arg5 harg5 arg6 harg6 arg7 harg7 arg8 harg8 h0 h1 h2 b0 b1 b2 b3 b4 xs E K
  · have e : accNext i b0 b1 b2 b3 b4 xs = k0_pay3 b0 b1 b3 b4 (k0_pay1 (F := F)) := by
      unfold accNext; simp only [if_pos h0, if_neg h1, if_pos h2]
    rw [e]; exact run_body_tft c i arg2 harg2 arg3 harg3 arg4 harg4 arg5 harg5 arg6 harg6 arg7 harg7 arg8 harg8 h0 h1 h2 b0 b1 b2 b3 b4 xs E K
  · have e : accNext i b0 b1 b2 b3 b4 xs = k0_pay1 (F := F) := by
      unfold accNext; simp only [if_pos h0, if_neg h1, if_neg h2]
    rw [e]; exact run_body_tff c i arg2 harg2 arg3 harg3 arg4 harg4 arg5 harg5 arg6 harg6 arg7 harg7 arg8 harg8 h0 h1 h2 b0 b1 b2 b3 b4 xs E K
  · have e : accNext i b0 b1 b2 b3 b4 xs = k0_pay3 b0 b1 b3 b4 (k0_pay2 (k0_pay5 b0 b1 b2 b4 xs)) := by
      unfold accNext; simp only [if_neg h0, if_pos h1, if_pos h2]
    rw [e]; exact run_body_ftt c i arg2 harg2 arg3 harg3 arg4 harg4 arg5 harg5 arg6 harg6 arg7 harg7 arg8 harg8 h0 h1 h2 b0 b1 b2 b3 b4 xs E K
  · have e : accNext i b0 b1 b2 b3 b4 xs = k0_pay2 (k0_pay5 b0 b1 b2 b4 xs) := by
      unfold accNext; simp only [if_neg h0, if_pos h1, if_neg h2]
    rw [e]; exact run_body_ftf c i arg2 harg2 arg3 harg3 arg4 harg4 arg5 harg5 arg6 harg6 arg7 harg7 arg8 harg8 h0 h1 h2 b0 b1 b2 b3 b4 xs E K
  · have e : accNext i b0 b1 b2 b3 b4 xs = k0_pay3 b0 b1 b3 b4 xs := by
      unfold accNext; simp only [if_neg h0, if_neg h1, if_pos h2]
    rw [e]; exact run_body_fft c i arg2 harg2 arg3 harg3 arg4 harg4 arg5 harg5 arg6 harg6 arg7 harg7 arg8 harg8 h0 h1 h2 b0 b1 b2 b3 b4 xs E K
  · have e : accNext i b0 b1 b2 b3 b4 xs = xs := by
      unfold accNext; simp only [if_neg h0, if_neg h1, if_neg h2]
    rw [e]; exact run_body_fff c i arg2 harg2 arg3 harg3 arg4 harg4 arg5 harg5 arg6 harg6 arg7 harg7 arg8 harg8 h0 h1 h2 b0 b1 b2 b3 b4 xs E K

end Cert.KernelIdeal.Hand

end
-- ==== Proof.KIFrame.lean ====
/-
  The frame of the pairwise kernel's program.

  The pipeline's proof data is shown to meet what the launch of a region whose input windows share an array asks:
  each input window's staging buffer holds its block at every point; the body at a point takes the accumulator from
  what the point before left to what this point leaves, and copies it to the output block; the one array read through
  two windows enters split in two halves; the host operations after the region read the region's result and buffers
  the region does not touch. The run of @main follows, and from it that the five argument arrays end as they began.
-/
import proofs.«411099_j55954833933114_3_alg».proof.Proof.KIDat
import proofs.«411099_j55954833933114_3_alg».proof.Proof.KIBody
import proofs.«411099_j55954833933114_3_alg».proof.Proof.LibFrameShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data, projected -/

/-- The proof data's arrays are the region-entry contents. -/
theorem A_eq (c : Dev nD) (w : Fin cfg0.W) : (dats m 0 c).A w = V m c (Pipeline.arrRef spec0 w) := by
  dsimp only [dats]

/-- What the body leaves in each window's buffer: an input's block; for the output the copy of the accumulator. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay4 (accAt m c t.val t.isLt) := by dsimp only [dats]

/-- The kernel's scoped buffers that are no staging buffer: the accumulator, at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

/-- After point `n`: the accumulator at that point's contents. -/
theorem PhiS_succ (c : Dev nD) (n : ℕ) (hn : n < cfg0.N) :
    PhiS m c (n + 1) hn = owns (c : Thread nD τ) scM fullShare (accAt m c n hn) := rfl

/-- Before a point that is not the first: the accumulator at what the point before left. -/
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-! ## What the body finds in the input windows' buffers -/

/-- Each input window's current staging buffer holds the window's block at every point, fetched there or not: where
    it is not fetched the block index has not moved since the point before, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The invariant at the region's ends -/

/-- What the launch hands the region is the invariant before the first point. -/
theorem hin (c : Dev nD) :
    Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back: the accumulator's contents are forgotten. -/
theorem hout (c : Dev nD) :
    (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scoped_eq]
  iintro H
  iexists _; iexact H

/-! ## The body at a point -/

/-- The accumulator is zeroed at the points that open a block-row, and the first point is one. -/
theorem hcond0 : ∀ t : Fin cfg0.N, cond0 (grid0.coords t) ↔ t.val % 8 = 0 :=
  (by decide +kernel : ∀ t : Fin grid0.N, cond0 (grid0.coords t) ↔ t.val % 8 = 0)

/-- Where the accumulator is zeroed, what it held before does not matter. -/
theorem accNext_reset {i : grid0.Coords} (h : cond0 i) (b0 b1 : Vec F S1024x1024 .bf16) (b2 b3 b4 : Vec F S1024x8 .f32)
    (xs xs' : Vec F S8x128 .f32) : accNext i b0 b1 b2 b3 b4 xs = accNext i b0 b1 b2 b3 b4 xs' := by
  simp only [accNext, if_pos h]

/-- The accumulator after the first point, from whatever it held before. -/
theorem accAt_first (c : Dev nD) (t : Fin cfg0.N) (hz : t.val = 0) (xs : Vec F S8x128 .f32) :
    accAt m c t.val t.isLt
      = accNext (grid0.coords t) (iblk m c 0 t) (iblk m c 1 t) (iblk m c 2 t) (iblk m c 3 t) (iblk m c 4 t) xs := by
  obtain ⟨n, hn⟩ := t
  cases n with
  | zero => exact accNext_reset ((hcond0 ⟨0, hn⟩).mpr (Nat.zero_mod _)) _ _ _ _ _ _ _
  | succ n => exact absurd hz (Nat.succ_ne_zero n)

/-- The accumulator after a later point, from what the point before left. -/
theorem accAt_step (c : Dev nD) (t : Fin cfg0.N) (hz : t.val ≠ 0) :
    accAt m c t.val t.isLt
      = accNext (grid0.coords t) (iblk m c 0 t) (iblk m c 1 t) (iblk m c 2 t) (iblk m c 3 t) (iblk m c 4 t)
          (accAt m c (t.val - 1) (Nat.lt_of_le_of_lt (Nat.sub_le _ _) t.isLt)) := by
  obtain ⟨n, hn⟩ := t
  cases n with
  | zero => exact absurd rfl hz
  | succ n => rfl

/-- No window is idle at any point: the body leaves each window's buffer at the stated contents. -/
theorem leaves0 (c : Dev nD) (w : Fin cfg0.W) (t : Fin cfg0.N) :
    (dats m 0 c).leavesExact w t
      = owns (c : Thread nD τ) ((cfg0.win w).stage (cfg0.slots t w)) fullShare ((dats m 0 c).after w t) := rfl

/-- What the body is called with at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns: the invariant at the next point, and each buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point. The five input buffers hold their blocks; the output buffer holds anything; the invariant
    hands the body the accumulator — at the first point at anything, which that point zeroes, afterwards at what the
    point before left — and the body's run returns the accumulator at this point's contents and their copy in the
    output buffer; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0, leaves0, leaves0, leaves0, leaves0, leaves0, after0_0, after0_1, after0_2, after0_3, after0_4, after0_5]
  by_cases hz : t.val = 0
  · rw [PhiS_castSucc m c t, PhiS_zero m c _ _ hz, scoped_eq]
    iintro ⟨⟨%xs, HS⟩, Ho, ⟨%d0, H0⟩, ⟨%d1, H1⟩, ⟨%d2, H2⟩, ⟨%d3, H3⟩, ⟨%d4, H4⟩, ⟨%d5, H5⟩⟩
    rw [accAt_first m c t hz xs]
    iapply (run_body c (grid0.coords t) (ms0 t) (hs0 t) (ms1 t) (hs1 t) (ms2 t) (hs2 t) (ms3 t) (hs3 t) (ms4 t) (hs4 t) (ms5 t) (hs5 t)
      scM (Memref.isWhole_whole _) (iblk m c 0 t) (iblk m c 1 t) (iblk m c 2 t) (iblk m c 3 t) (iblk m c 4 t) xs Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc m c t, PhiS_pos m c _ _ hz, accAt_step m c t hz]
    iintro ⟨HS, Ho, ⟨%d0, H0⟩, ⟨%d1, H1⟩, ⟨%d2, H2⟩, ⟨%d3, H3⟩, ⟨%d4, H4⟩, ⟨%d5, H5⟩⟩
    iapply (run_body c (grid0.coords t) (ms0 t) (hs0 t) (ms1 t) (hs1 t) (ms2 t) (hs2 t) (ms3 t) (hs3 t) (ms4 t) (hs4 t) (ms5 t) (hs5 t)
      scM (Memref.isWhole_whole _) (iblk m c 0 t) (iblk m c 1 t) (iblk m c 2 t) (iblk m c 3 t) (iblk m c 4 t)
      (accAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at the region's entry -/

/-- The share each window holds of its array: the two windows on the normalised rows a half each, the others all. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

/-- A window's array as the proof data holds it at entry: the whole buffer behind it, at the window's share, at the
    region-entry contents. -/
theorem arr0 (c : Dev nD) (w : Fin cfg0.W) (q : PosShare TreeShare) (hq : (dats m 0 c).share w = q) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq, show (dats m 0 c).arrAt w 0 = (dats m 0 c).A w from rfl, A_eq]

/-- The buffers behind the six windows are five. -/
theorem arrSet : Finset.univ.image (Pipeline.arrRef spec0)
    = ([main_call0_v27, main_call0_v29, main_call0_v32, main_call0_v28, main_call0_v33] : List (Ref sig .tc)).toFinset := by
  decide +kernel

/-- A conjunction of equals. -/
theorem sep_eq {P P' Q Q' : sProp 𝕄} (h₁ : P = P') (h₂ : Q = Q') : (iprop(P ∗ Q) : sProp 𝕄) = iprop(P' ∗ Q') := by
  rw [h₁, h₂]

/-- The proof data's arrays at entry, window by window. -/
theorem arrays0_eq (c : Dev nD) :
    ((dats m 0 c).arrays ((dats m 0 c).arrAt · 0) : sProp 𝕄)
      = iprop((((c.tc : Thread nD τ).loc main_call0_v27) ↦{fullShare.left} V m c main_call0_v27)
          ∗ (((c.tc : Thread nD τ).loc main_call0_v27) ↦{fullShare.right} V m c main_call0_v27)
          ∗ (((c.tc : Thread nD τ).loc main_call0_v29) ↦{fullShare} V m c main_call0_v29)
          ∗ (((c.tc : Thread nD τ).loc main_call0_v32) ↦{fullShare} V m c main_call0_v32)
          ∗ (((c.tc : Thread nD τ).loc main_call0_v28) ↦{fullShare} V m c main_call0_v28)
          ∗ (((c.tc : Thread nD τ).loc main_call0_v33) ↦{fullShare} V m c main_call0_v33)) := by
  unfold Dat.arrays
  rw [bigSep_W0]
  exact sep_eq (arr0 m c 0 _ (share0_0 m c)) (sep_eq (arr0 m c 1 _ (share0_1 m c)) (sep_eq (arr0 m c 2 _ (share0_2 m c))
    (sep_eq (arr0 m c 3 _ (share0_3 m c)) (sep_eq (arr0 m c 4 _ (share0_4 m c)) (arr0 m c 5 _ (share0_5 m c))))))

/-- The distinct buffers behind the windows, one by one. -/
theorem arrBufs0_eq (c : Dev nD) :
    (Pipeline.arrBufs spec0 c (V m c) : sProp 𝕄)
      = iprop((((c.tc : Thread nD τ).loc main_call0_v27) ↦{fullShare} V m c main_call0_v27)
          ∗ (((c.tc : Thread nD τ).loc main_call0_v29) ↦{fullShare} V m c main_call0_v29)
          ∗ (((c.tc : Thread nD τ).loc main_call0_v32) ↦{fullShare} V m c main_call0_v32)
          ∗ (((c.tc : Thread nD τ).loc main_call0_v28) ↦{fullShare} V m c main_call0_v28)
          ∗ (((c.tc : Thread nD τ).loc main_call0_v33) ↦{fullShare} V m c main_call0_v33)) := by
  unfold Pipeline.arrBufs
  exact bigSep_eq_bigSepL_of_eq [main_call0_v27, main_call0_v29, main_call0_v32, main_call0_v28, main_call0_v33] arrSet (by decide) _

/-- The five distinct buffers behind the six windows, whole at the full share, make the proof data's arrays at entry:
    the normalised rows' buffer, read through two windows, is split in two halves along the share. -/
theorem hsplit (c : Dev nD) : Pipeline.arrBufs spec0 c (V m c) ⊢ (dats m 0 c).arrays ((dats m 0 c).arrAt · 0) := by
  rw [arrays0_eq, arrBufs0_eq]
  iintro ⟨H27, H29, H32, H28, H33⟩
  ihave H := (pointsTo_share (PosShare.mem_left_op_right fullShare)).1 $$ H27
  icases H with ⟨Ha, Hb⟩
  isplitl [Ha]; · iexact Ha
  isplitl [Hb]; · iexact Hb
  isplitl [H29]; · iexact H29
  isplitl [H32]; · iexact H32
  isplitl [H28]; · iexact H28
  iexact H33

/-! ## The host operations after the region -/

/-- An unscoped buffer that is no window's array is one the later operations may touch. -/
theorem mem_out_of (r : Ref sig .tc) (hs : r.isScoped = false) (ha : ∀ w, (spec0 w).arr.view.ref ≠ r) :
    Proc.devRef (τ := τ) .tc r ∈ Pipeline.outRefs cfgs 0 5 := by
  unfold Pipeline.outRefs
  exact Finset.mem_map_of_mem _ (Finset.mem_insert_of_mem (Pipeline.mem_restRefs_of r hs ha))

/-- So is the region's result array. -/
theorem mem_out_res : Proc.devRef (τ := τ) .tc main_call0_v33 ∈ Pipeline.outRefs cfgs 0 5 := by
  unfold Pipeline.outRefs
  exact Finset.mem_map_of_mem _ (Finset.mem_insert_self _ _)

/-- The operations after the region touch the region's result, two scalars the earlier operations left, and buffers
    of their own: no input array of the region. -/
theorem sfx_sub : ∀ ops ∈ ([hostOps1] : List (List (HloOp τ sig (Elt F)))), ∀ op ∈ ops,
    op.bufs ⊆ Pipeline.outRefs cfgs 0 5 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals
    simp only [StableHlo.nullary_bufs, StableHlo.binary_bufs, Finset.insert_subset_iff, Finset.singleton_subset_iff]
    repeat' apply And.intro
    all_goals first | exact mem_out_res | exact mem_out_of _ rfl (by decide)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And none writes the region's result array. -/
theorem sfx_keep : ∀ ops ∈ ([hostOps1] : List (List (HloOp τ sig (Elt F)))), ∀ op ∈ ops,
    Proc.devRef .tc (Pipeline.arrRef spec0 5) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals simp only [StableHlo.nullary_writes, StableHlo.binary_writes, Finset.mem_singleton] <;> exact StableHlo.devRef_ne_of_ne (by decide)

/-! ## The run and the frame -/

set_option backward.isDefEq.respectTransparency.types false in
/-- At the compiled mesh, for any values, from any memory with zero counters: every weakly fair execution of @main on
    the TensorCores terminates, and every final state has every array of the pipeline at what the proof data computes
    for it after the last point, and every buffer that bypasses the region at what the later host operations make of
    the contents at the region's exit. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after [hostOps1].flatten (Pipeline.exitVal cfgs (dats m) 0 (V0 m) 5 c) (Proc.devRef .tc b)) :=
  Pipeline.θ_run_frame_shared_tail cfgs (dats m) 0 defs₀ Variants.none cellOf_inj winFacts₀0 block_pos0 arr_whole0 stage_whole0 m ρ main
    (fun c => (body_obligation m c).loose) (fun _ _ => rfl) (V0 m) [hostOps1] 5 (fun c => share0_5 m c) sfx_sub sfx_fresh sfx_keep
    (hmain m Variants.none) (hsplit m) (hin m) (hout m)

/-- Every host operation before the region writes one buffer, and none of the first five, the arguments. -/
theorem hostOps0_writes : (hostOps0 : List (HloOp τ sig (Elt F))).Forall fun op =>
    ∃ y : Ref sig .tc, op.writes = {Proc.devRef .tc y} ∧ 5 ≤ y.idx.val := by
  simp only [List.Forall]
  repeat' apply And.intro
  all_goals exact ⟨_, rfl, by decide⟩

/-- The same of those after it. -/
theorem hostOps1_writes : (hostOps1 : List (HloOp τ sig (Elt F))).Forall fun op =>
    ∃ y : Ref sig .tc, op.writes = {Proc.devRef .tc y} ∧ 5 ≤ y.idx.val := by
  simp only [List.Forall]
  repeat' apply And.intro
  all_goals exact ⟨_, rfl, by decide⟩

/-- So no host operation before the region writes an argument array, -/
theorem pre_keeps (r : Ref sig .tc) (hr : r.idx.val < 5) :
    ∀ op ∈ (List.flatten [hostOps0] : List (HloOp τ sig (Elt F))), Proc.devRef (τ := τ) .tc r ∉ op.writes := by
  intro op hop
  simp only [List.flatten_cons, List.flatten_nil, List.append_nil] at hop
  obtain ⟨y, hy, h5⟩ := (List.forall_iff_forall_mem.mp hostOps0_writes) op hop
  rw [hy, Finset.mem_singleton]
  exact StableHlo.devRef_ne_of_ne (fun e => by subst e; omega)

/-- and none after it. -/
theorem post_keeps (r : Ref sig .tc) (hr : r.idx.val < 5) :
    ∀ op ∈ (List.flatten [hostOps1] : List (HloOp τ sig (Elt F))), Proc.devRef (τ := τ) .tc r ∉ op.writes := by
  intro op hop
  simp only [List.flatten_cons, List.flatten_nil, List.append_nil] at hop
  obtain ⟨y, hy, h5⟩ := (List.forall_iff_forall_mem.mp hostOps1_writes) op hop
  rw [hy, Finset.mem_singleton]
  exact StableHlo.devRef_ne_of_ne (fun e => by subst e; omega)

/-- An argument array, which is no window's array either, ends at what the launch memory holds. -/
theorem arg_kept (c : Dev nD) (r : Ref sig .tc) (hr : r.idx.val < 5) (hne : r ≠ Pipeline.arrRef spec0 5) :
    StableHlo.after [hostOps1].flatten (Pipeline.exitVal cfgs (dats m) 0 (V0 m) 5 c) (Proc.devRef .tc r)
      = m ((c.tc : Thread nD τ).loc r) := by
  rw [StableHlo.after_of_forall_not_mem _ _ (post_keeps r hr), Pipeline.exitVal_of_ne cfgs (dats m) 0 (V0 m) 5 c r hne]
  exact StableHlo.after_of_forall_not_mem _ _ (pre_keeps r hr)

/-- The argument arrays bypass the region: unscoped, and no window's array. -/
theorem arg0_rest : main_arg0 ∈ Pipeline.restRefs sig spec0 := Pipeline.mem_restRefs_of _ rfl (by decide)
theorem arg1_rest : main_arg1 ∈ Pipeline.restRefs sig spec0 := Pipeline.mem_restRefs_of _ rfl (by decide)
theorem arg2_rest : main_arg2 ∈ Pipeline.restRefs sig spec0 := Pipeline.mem_restRefs_of _ rfl (by decide)
theorem arg3_rest : main_arg3 ∈ Pipeline.restRefs sig spec0 := Pipeline.mem_restRefs_of _ rfl (by decide)
theorem arg4_rest : main_arg4 ∈ Pipeline.restRefs sig spec0 := Pipeline.mem_restRefs_of _ rfl (by decide)
/-- So does the program's result. -/
theorem v0_rest : main_v0 ∈ Pipeline.restRefs sig spec0 := Pipeline.mem_restRefs_of _ rfl (by decide)

/-- THE FRAME: the program runs and its five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 arg0_rest).trans (arg_kept m c main_arg0 (by decide) (by decide)),
     ((h c).2 main_arg1 arg1_rest).trans (arg_kept m c main_arg1 (by decide) (by decide)),
     ((h c).2 main_arg2 arg2_rest).trans (arg_kept m c main_arg2 (by decide) (by decide)),
     ((h c).2 main_arg3 arg3_rest).trans (arg_kept m c main_arg3 (by decide) (by decide)),
     ((h c).2 main_arg4 arg4_rest).trans (arg_kept m c main_arg4 (by decide) (by decide))⟩) (run_main m ρ)

/-- The same run, read at the program's result as well: what the host operations after the region make of the
    contents at the region's exit. -/
theorem run_value : θ_run defs (onTc (τ := τ) (main (F := F))) ⟨m, fun _ => 0, ρ⟩ (fun r => ∀ c : Dev nD,
      r.2.mem ((c.tc : Thread nD τ).loc main_v0)
        = StableHlo.after [hostOps1].flatten (Pipeline.exitVal cfgs (dats m) 0 (V0 m) 5 c) (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v0 v0_rest,
     ((h c).2 main_arg0 arg0_rest).trans (arg_kept m c main_arg0 (by decide) (by decide)),
     ((h c).2 main_arg1 arg1_rest).trans (arg_kept m c main_arg1 (by decide) (by decide)),
     ((h c).2 main_arg2 arg2_rest).trans (arg_kept m c main_arg2 (by decide) (by decide)),
     ((h c).2 main_arg3 arg3_rest).trans (arg_kept m c main_arg3 (by decide) (by decide)),
     ((h c).2 main_arg4 arg4_rest).trans (arg_kept m c main_arg4 (by decide) (by decide))⟩) (run_main m ρ)

end Cert.KernelIdeal.Hand

end
-- ==== Proof.KITail.lean ====
/-
  What the host operations after the kernel region leave in the result buffer.

  The ten operations sum the region's [8, 8, 128] output over all its axes, divide the sum by the constant
  `0x4C7FF800`, and add three terms: the buffer `v6`, `1.0 ·` the buffer `v18`, and `1.0 ·` the quotient. Each operation
  writes one buffer of its own and reads buffers written before it, so the result is the operations' functions
  composed in that order over the contents the stretch started from; a buffer none of them writes keeps its contents.
-/
import proofs.«411099_j55954833933114_3_alg».proof.Proof.KIKit
import Idealize.ShloMosaic.Lib.StableHlo.Run

set_option maxRecDepth 16384

noncomputable section

namespace Cert.KernelIdeal.TailValue

open Cert.KernelIdeal Cert.KernelIdeal.Gen
open Idealize.ShloMosaic Idealize.ShloMosaic.StableHlo Idealize.ShloMosaic.TcCoe

variable {F : FTy → Type} [FloatOps F]

/-- The result buffer after the tail: the three terms added, over the contents the tail started from. -/
theorem tail_value (W : Valuation τ sig (Elt F)) :
    (StableHlo.after (List.flatten [hostOps1]) W (Proc.devRef .tc main_v0) : (⟨S_, .f32⟩ : BufTy).Contents (Elt F))
      = addf (addf (W (Proc.devRef .tc main_call0_v6)) (mulf (constant S_ .f32 0x3F800000#32) (W (Proc.devRef .tc main_call0_v18))))
             (mulf (constant S_ .f32 0x3F800000#32)
               (Host.divf (Host.reduceAdd (W (Proc.devRef .tc main_call0_v33)) (constant S_ .f32 0x00000000#32) reducesTo_S8x8x128_S_d0_1_2 h_S_)
                          (constant S_ .f32 0x4C7FF800#32))) := by
  simp only [List.flatten_cons, List.flatten_nil, List.append_nil]
  show StableHlo.after hostOps1 _ (Proc.devRef .tc main_v0) = _
  after_results
  rfl

/-- A buffer none of the tail's operations writes holds afterwards what it held before. -/
theorem tail_keeps (W : Valuation τ sig (Elt F)) (b : Ref sig .tc)
    (hb : ∀ op ∈ (hostOps1 : List (HloOp τ sig (Elt F))), Proc.devRef .tc b ∉ op.writes) :
    StableHlo.after (List.flatten [hostOps1]) W (Proc.devRef .tc b) = W (Proc.devRef .tc b) := by
  simp only [List.flatten_cons, List.flatten_nil, List.append_nil]
  exact StableHlo.after_of_forall_not_mem _ W hb

/-- The buffers the tail only reads, or never touches, one by one: the five arguments and the three buffers its
    operations read from before the region. -/
theorem tail_keeps_arg0 (W : Valuation τ sig (Elt F)) :
    StableHlo.after (List.flatten [hostOps1]) W (Proc.devRef .tc main_arg0) = W (Proc.devRef .tc main_arg0) := by
  simp only [List.flatten_cons, List.flatten_nil, List.append_nil]
  show StableHlo.after hostOps1 _ (Proc.devRef .tc main_arg0) = _
  after_results
theorem tail_keeps_arg1 (W : Valuation τ sig (Elt F)) :
    StableHlo.after (List.flatten [hostOps1]) W (Proc.devRef .tc main_arg1) = W (Proc.devRef .tc main_arg1) := by
  simp only [List.flatten_cons, List.flatten_nil, List.append_nil]
  show StableHlo.after hostOps1 _ (Proc.devRef .tc main_arg1) = _
  after_results
theorem tail_keeps_arg2 (W : Valuation τ sig (Elt F)) :
    StableHlo.after (List.flatten [hostOps1]) W (Proc.devRef .tc main_arg2) = W (Proc.devRef .tc main_arg2) := by
  simp only [List.flatten_cons, List.flatten_nil, List.append_nil]
  show StableHlo.after hostOps1 _ (Proc.devRef .tc main_arg2) = _
  after_results
theorem tail_keeps_arg3 (W : Valuation τ sig (Elt F)) :
    StableHlo.after (List.flatten [hostOps1]) W (Proc.devRef .tc main_arg3) = W (Proc.devRef .tc main_arg3) := by
  simp only [List.flatten_cons, List.flatten_nil, List.append_nil]
  show StableHlo.after hostOps1 _ (Proc.devRef .tc main_arg3) = _
  after_results
theorem tail_keeps_arg4 (W : Valuation τ sig (Elt F)) :
    StableHlo.after (List.flatten [hostOps1]) W (Proc.devRef .tc main_arg4) = W (Proc.devRef .tc main_arg4) := by
  simp only [List.flatten_cons, List.flatten_nil, List.append_nil]
  show StableHlo.after hostOps1 _ (Proc.devRef .tc main_arg4) = _
  after_results
theorem tail_keeps_v6 (W : Valuation τ sig (Elt F)) :
    StableHlo.after (List.flatten [hostOps1]) W (Proc.devRef .tc main_call0_v6) = W (Proc.devRef .tc main_call0_v6) := by
  simp only [List.flatten_cons, List.flatten_nil, List.append_nil]
  show StableHlo.after hostOps1 _ (Proc.devRef .tc main_call0_v6) = _
  after_results
theorem tail_keeps_v18 (W : Valuation τ sig (Elt F)) :
    StableHlo.after (List.flatten [hostOps1]) W (Proc.devRef .tc main_call0_v18) = W (Proc.devRef .tc main_call0_v18) := by
  simp only [List.flatten_cons, List.flatten_nil, List.append_nil]
  show StableHlo.after hostOps1 _ (Proc.devRef .tc main_call0_v18) = _
  after_results
theorem tail_keeps_v33 (W : Valuation τ sig (Elt F)) :
    StableHlo.after (List.flatten [hostOps1]) W (Proc.devRef .tc main_call0_v33) = W (Proc.devRef .tc main_call0_v33) := by
  simp only [List.flatten_cons, List.flatten_nil, List.append_nil]
  show StableHlo.after hostOps1 _ (Proc.devRef .tc main_call0_v33) = _
  after_results

end Cert.KernelIdeal.TailValue

end
-- ==== Proof.KIChain6.lean ====
/-
  The kernel's program computes the cross-entropy term with the very host operations the reference uses: log-softmax of the logits, the entry at each row's label, the mean, negated. What its buffer holds when the region is entered is the reference's stage of the same name, as a function of the labels and the logits.
-/
import proofs.«411099_j55954833933114_3_alg».proof.Proof.KIKit
import proofs.«411099_j55954833933114_3_alg».proof.Proof.RefRead
import Idealize.ShloMosaic.Lib.Pipeline.Regions

set_option maxRecDepth 16384

noncomputable section

namespace Cert.KernelIdeal.HostChain

open Cert.KernelIdeal Cert.KernelIdeal.Gen Cert.KernelIdeal.Hand
open Idealize.ShloMosaic Idealize.ShloMosaic.TcCoe Idealize.SL.Sem

variable {F : FTy → Type} [FloatOps F]
variable (m : (ℓ : Loc nD τ sig) → Buf (Elt F) ℓ)

set_option maxHeartbeats 4000000 in
/-- The cross-entropy term the region finds is the reference's. -/
theorem V_ce (c : Dev nD) :
    V m c main_call0_v6
      = Cert.ReferenceIdeal.ReadP.val_main_v6 (F := F) (m ((c.tc : Thread nD τ).loc main_arg1)) (m ((c.tc : Thread nD τ).loc main_arg2)) := by
  chain_rfl

end Cert.KernelIdeal.HostChain

end
-- ==== Proof.KIChain18.lean ====
/-
  The centre-loss term likewise: the rows minus their class's centre, squared, summed, halved, divided by the number of rows — the same host operations in both programs.
-/
import proofs.«411099_j55954833933114_3_alg».proof.Proof.KIKit
import proofs.«411099_j55954833933114_3_alg».proof.Proof.RefRead
import Idealize.ShloMosaic.Lib.Pipeline.Regions

set_option maxRecDepth 16384

noncomputable section

namespace Cert.KernelIdeal.HostChain

open Cert.KernelIdeal Cert.KernelIdeal.Gen Cert.KernelIdeal.Hand
open Idealize.ShloMosaic Idealize.ShloMosaic.TcCoe Idealize.SL.Sem

variable {F : FTy → Type} [FloatOps F]
variable (m : (ℓ : Loc nD τ sig) → Buf (Elt F) ℓ)

set_option maxHeartbeats 4000000 in
/-- The centre-loss term the region finds is the reference's. -/
theorem V_center (c : Dev nD) :
    V m c main_call0_v18
      = Cert.ReferenceIdeal.ReadP.val_main_v18 (F := F) (m ((c.tc : Thread nD τ).loc main_arg0)) (m ((c.tc : Thread nD τ).loc main_arg1)) (m ((c.tc : Thread nD τ).loc main_arg4)) := by
  chain_rfl

end Cert.KernelIdeal.HostChain

end
-- ==== Proof.KIChain26.lean ====
/-
  The normalised rows: each row divided by the larger of its Euclidean norm and a small constant — the same host operations in both programs; the kernel's program then changes their format, which is no change over the extended reals.
-/
import proofs.«411099_j55954833933114_3_alg».proof.Proof.KIKit
import proofs.«411099_j55954833933114_3_alg».proof.Proof.RefRead
import Idealize.ShloMosaic.Lib.Pipeline.Regions

set_option maxRecDepth 16384

noncomputable section

namespace Cert.KernelIdeal.HostChain

open Cert.KernelIdeal Cert.KernelIdeal.Gen Cert.KernelIdeal.Hand
open Idealize.ShloMosaic Idealize.ShloMosaic.TcCoe Idealize.SL.Sem

variable {F : FTy → Type} [FloatOps F]
variable (m : (ℓ : Loc nD τ sig) → Buf (Elt F) ℓ)

set_option maxHeartbeats 4000000 in
/-- The normalised rows before the change of format are the reference's. -/
theorem V_fn32 (c : Dev nD) :
    V m c main_call0_v26 = Cert.ReferenceIdeal.ReadP.val_main_v23 (F := F) (m ((c.tc : Thread nD τ).loc main_arg0)) := by
  chain_rfl

set_option maxHeartbeats 4000000 in
/-- The rows the region's windows read are those, in the narrower format. -/
theorem V_fn16 (c : Dev nD) :
    V m c main_call0_v27 = truncf .bf16 (V m c main_call0_v26) bitsLt_bf16_f32 := by
  chain_rfl

end Cert.KernelIdeal.HostChain

end
-- ==== Proof.Spec.lean ====
/-
  The pairwise soft-cosine sum, as plain functions over finite index types.

  Rows are normalised feature vectors `fn r : Fin 1024 → EReal`; `lab r : Fin 8` is row `r`'s class; `sim` is the
  8 × 8 class-pair weight matrix. The reference sums `sim (lab r) (lab c) · max (1 − ⟨fn r, fn c⟩) 0` over all ordered
  pairs `r ≠ c` of the 8192 rows. The kernel cuts the rows into 8 blocks of 1024 and, for block-row `i`, adds the
  diagonal block `(i, i)` with the weights as they are and the diagonal entries masked out, and each block `(i, j)`,
  `j > i`, with the SYMMETRISED weights `sim a b + sim b a` — the pair `(r, c)` and its mirror `(c, r)` at once, the
  hinge `max (1 − ⟨fn r, fn c⟩) 0` being symmetric in `r` and `c`. The weights are read through one-hot rows:
  `Σ_k (Σ_k' onehot r k' · sim k' k) · onehot c k = sim (lab r) (lab c)`.
-/
import Mathlib.Data.EReal.Inv
import Mathlib.Algebra.BigOperators.Fin
import Mathlib.Order.Interval.Finset.Fin

noncomputable section

namespace Cert.Spec

open scoped BigOperators

/-- Row `p` of block `i`: the row `1024 · i + p` of the 8192. -/
def row (i : Fin 8) (p : Fin 1024) : Fin 8192 := ⟨1024 * i.val + p.val, by have := i.isLt; have := p.isLt; omega⟩

variable (fn : Fin 8192 → Fin 1024 → EReal) (lab : Fin 8192 → Fin 8) (sim : Fin 8 → Fin 8 → EReal)

/-- The inner product of two rows. -/
def cosv (r c : Fin 8192) : EReal := ∑ k : Fin 1024, fn r k * fn c k

/-- The hinge `max (1 − cos) 0`. -/
def hinge (r c : Fin 8192) : EReal := max ((1 : EReal) - cosv fn r c) 0

/-- The reference's summand at the ordered pair `(r, c)`: the class-pair weight times the hinge, the diagonal masked. -/
def refTerm (r c : Fin 8192) : EReal := sim (lab r) (lab c) * hinge fn r c * ((1 : EReal) - (if r = c then (1 : EReal) else 0))

/-- The reference's sum over all ordered pairs. -/
def refSum : EReal := ∑ r : Fin 8192, ∑ c : Fin 8192, refTerm fn lab sim r c

/-- The one-hot row of a label. -/
def onehot (r : Fin 8192) (k : Fin 8) : EReal := if lab r = k then 1 else 0

/-- `onehot · sim`: the weight matrix's row of `r`'s class. -/
def simrow (r : Fin 8192) (k : Fin 8) : EReal := ∑ k' : Fin 8, onehot lab r k' * sim k' k

/-- `onehot · (sim + simᵀ)`. -/
def simrowSym (r : Fin 8192) (k : Fin 8) : EReal := ∑ k' : Fin 8, onehot lab r k' * (sim k' k + sim k k')

/-- The diagonal block's weights. -/
def wDiag (i : Fin 8) (p q : Fin 1024) : EReal := ∑ k : Fin 8, simrow lab sim (row i p) k * onehot lab (row i q) k

/-- An upper block's (symmetrised) weights. -/
def wUp (i j : Fin 8) (p q : Fin 1024) : EReal := ∑ k : Fin 8, simrowSym lab sim (row i p) k * onehot lab (row j q) k

/-- The diagonal block `(i, i)`: its own diagonal masked out. -/
def diagBlock (i : Fin 8) : EReal :=
  ∑ p : Fin 1024, ∑ q : Fin 1024, wDiag lab sim i p q * hinge fn (row i p) (row i q) * ((1 : EReal) - (if p = q then (1 : EReal) else 0))

/-- A block `(i, j)` above the diagonal, with the symmetrised weights. -/
def upBlock (i j : Fin 8) : EReal :=
  ∑ p : Fin 1024, ∑ q : Fin 1024, wUp lab sim i j p q * hinge fn (row i p) (row j q)

/-- Block-row `i`'s share: its diagonal block and the blocks to its right. -/
def rowBlockSum (i : Fin 8) : EReal := diagBlock fn lab sim i + ∑ j ∈ Finset.Ioi i, upBlock fn lab sim i j

/-- What the kernel accumulates in all. -/
def kerSum : EReal := ∑ i : Fin 8, rowBlockSum fn lab sim i

end Cert.Spec

end
-- ==== Proof.KIPay.lean ====
/-
  What the pairwise kernel's body computes at one grid point, at the ideal values.

  The accumulator is an 8 × 128 slab that holds one number, at its corner (0, 0), and zero elsewhere: `e00 s`. A point of
  the grid adds to that number the total of one 1024 × 1024 block of terms
      w(p, q) · max (1 − ⟨x_p, y_q⟩) 0,
  where ⟨x_p, y_q⟩ = Σ_k x(p, k) · y(q, k) is the inner product of row `p` of the one row block with row `q` of the other
  and w(p, q) = Σ_k a(p, k) · h(q, k) is the weight read through the one-hot rows `h`; on the diagonal block every term is
  further multiplied by 1 − [p = q]. The body forms the two products as matrix products into a zero accumulator, sums the
  block along its rows and then down the column of row sums, spreads the one total over the slab, multiplies it by the
  slab that is 1 at the corner and 0 elsewhere, and adds the accumulator: at the corner `s + 1 · T`, elsewhere
  `0 + 0 · T = 0` (a product with zero is zero for every extended real, so nothing is assumed finite). `diagT` and `upT`
  are the two totals, summed rows first; `accNext_e00` is one point's effect on `e00 s`.
-/
import proofs.«411099_j55954833933114_3_alg».proof.Proof.KIKit
import proofs.«411099_j55954833933114_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.ValueIdx Cert.KernelIdeal Cert.KernelIdeal.Gen Cert.KernelIdeal.Hand
open scoped BigOperators

/-- The word of `1.0` is the extended real `1`. -/
theorem one_word : Ideal.ofBits .f32 0x3F800000#32 = 1 := by
  simp [Ideal.ofBits, Ideal.ieee, -EReal.coe_mul]; norm_num

/-- The 8 × 128 slab that is `s` at (0, 0) and zero elsewhere. -/
def e00 (s : EReal) : Vec Ideal S8x128 .f32 := fun idx => if idx = ix2 (0 : Fin 8) (0 : Fin 128) then s else 0

/-- The diagonal block's total from the blocks: the two row blocks `b0`, `b1` (1024 × 1024), the weight rows `b2` and the
    one-hot rows `b4` (1024 × 8); the block's own diagonal is masked out. -/
def diagT (b0 b1 : Vec Ideal S1024x1024 .bf16) (b2 b4 : Vec Ideal S1024x8 .f32) : EReal :=
  ∑ p : Fin 1024, ∑ q : Fin 1024, (∑ k : Fin 8, b2 (ix2 p k) * b4 (ix2 q k)) * max ((1 : EReal) - ∑ k : Fin 1024, b0 (ix2 p k) * b1 (ix2 q k)) 0 * ((1 : EReal) - (if p = q then (1 : EReal) else 0))

/-- A block above the diagonal: the same total with the symmetrised weight rows `b3` and no mask. -/
def upT (b0 b1 : Vec Ideal S1024x1024 .bf16) (b3 b4 : Vec Ideal S1024x8 .f32) : EReal :=
  ∑ p : Fin 1024, ∑ q : Fin 1024, (∑ k : Fin 8, b3 (ix2 p k) * b4 (ix2 q k)) * max ((1 : EReal) - ∑ k : Fin 1024, b0 (ix2 p k) * b1 (ix2 q k)) 0

/-! ## The two products read at an entry

Each product contracts the second axis of both operands; the four coordinate facts say which entries of the operands
meet at output entry `i` and contraction coordinate `q`. -/

theorem lhsA_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhsA_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhsA_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhsA_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The rows' product into the zero accumulator, at `(p, q)`: the inner product of row `p` of the one block and row `q` of the other. -/
theorem mmA_apply (x y : FVec Ideal S1024x1024 .bf16) (p q : Fin 1024) :
    matmul dot_S1024x1024_S1024x1024_S1024x1024_1_1_0_0_n_n none x y (constant (F := Ideal) S1024x1024 .f32 0x00000000#32) (ix2 p q)
      = ∑ k : Fin 1024, x (ix2 p k) * y (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhsA_0 _ _
    | ⟨1, _⟩ => exact (lhsA_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhsA_0 _ _
    | ⟨1, _⟩ => exact (rhsA_1 _ _).trans hk)
  rw [el, er]

theorem lhsB_0 (i : S1024x1024.Idx) (q : dot_S1024x8_S1024x8_S1024x1024_1_1_0_0_n_n.contr.Idx) :
    (dot_S1024x8_S1024x8_S1024x1024_1_1_0_0_n_n.lhsIdx i q 0).val = (i 0).val := by
  unfold DotDims.lhsIdx
  rw [dif_neg (show ¬(0 : Fin S1024x8.rank) ∈ dot_S1024x8_S1024x8_S1024x1024_1_1_0_0_n_n.lhsBatch by decide), dif_pos (show (0 : Fin S1024x8.rank) ∈ dot_S1024x8_S1024x8_S1024x1024_1_1_0_0_n_n.lhsNonContracting by decide)]
  rfl
theorem lhsB_1 (i : S1024x1024.Idx) (q : dot_S1024x8_S1024x8_S1024x1024_1_1_0_0_n_n.contr.Idx) :
    (dot_S1024x8_S1024x8_S1024x1024_1_1_0_0_n_n.lhsIdx i q 1).val = (q ⟨0, by decide⟩).val :=
  dot_S1024x8_S1024x8_S1024x1024_1_1_0_0_n_n.lhsIdx_val_of_single rfl i q
theorem rhsB_0 (i : S1024x1024.Idx) (q : dot_S1024x8_S1024x8_S1024x1024_1_1_0_0_n_n.contr.Idx) :
    (dot_S1024x8_S1024x8_S1024x1024_1_1_0_0_n_n.rhsIdx i q 0).val = (i 1).val := by
  unfold DotDims.rhsIdx
  rw [dif_neg (show ¬(0 : Fin S1024x8.rank) ∈ dot_S1024x8_S1024x8_S1024x1024_1_1_0_0_n_n.rhsBatch by decide), dif_pos (show (0 : Fin S1024x8.rank) ∈ dot_S1024x8_S1024x8_S1024x1024_1_1_0_0_n_n.rhsNonContracting by decide)]
  rfl
theorem rhsB_1 (i : S1024x1024.Idx) (q : dot_S1024x8_S1024x8_S1024x1024_1_1_0_0_n_n.contr.Idx) :
    (dot_S1024x8_S1024x8_S1024x1024_1_1_0_0_n_n.rhsIdx i q 1).val = (q ⟨0, by decide⟩).val :=
  dot_S1024x8_S1024x8_S1024x1024_1_1_0_0_n_n.rhsIdx_val_of_single rfl i q

/-- The weights' product into the zero accumulator, at `(p, q)`: the inner product over the 8 classes of row `p` of the one block and row `q` of the other. -/
theorem mmB_apply (x y : FVec Ideal S1024x8 .f32) (p q : Fin 1024) :
    matmul dot_S1024x8_S1024x8_S1024x1024_1_1_0_0_n_n (some .fp32) x y (constant (F := Ideal) S1024x1024 .f32 0x00000000#32) (ix2 p q)
      = ∑ k : Fin 8, x (ix2 p k) * y (ix2 q k) := by
  simp only [matmul]
  rw [Ideal.matmul_constant_zero_apply, ← Equiv.sum_comp (contrEquiv1 dot_S1024x8_S1024x8_S1024x1024_1_1_0_0_n_n 8 rfl rfl).symm]
  refine Finset.sum_congr rfl fun k _ => ?_
  have hk := contrEquiv1_symm_val dot_S1024x8_S1024x8_S1024x1024_1_1_0_0_n_n 8 rfl rfl k
  have el : dot_S1024x8_S1024x8_S1024x1024_1_1_0_0_n_n.lhsIdx (ix2 p q) ((contrEquiv1 dot_S1024x8_S1024x8_S1024x1024_1_1_0_0_n_n 8 rfl rfl).symm k) = ix2 p k := funext fun a => Fin.ext (by
    match a with
    | ⟨0, _⟩ => exact lhsB_0 _ _
    | ⟨1, _⟩ => exact (lhsB_1 _ _).trans hk)
  have er : dot_S1024x8_S1024x8_S1024x1024_1_1_0_0_n_n.rhsIdx (ix2 p q) ((contrEquiv1 dot_S1024x8_S1024x8_S1024x1024_1_1_0_0_n_n 8 rfl rfl).symm k) = ix2 q k := funext fun a => Fin.ext (by
    match a with
    | ⟨0, _⟩ => exact rhsB_0 _ _
    | ⟨1, _⟩ => exact (rhsB_1 _ _).trans hk)
  rw [el, er]

/-! ## The two masks -/

/-- Two naturals below `2 ^ 32` compare equal as 32-bit words exactly when they are equal. -/
theorem cmpi_eq_ofNat (a b : Nat) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; rw [if_pos rfl, beq_self_eq_true]; rfl
  · have hne : BitVec.ofNat 32 a ≠ BitVec.ofNat 32 b := fun e => h (by
      have := congrArg BitVec.toNat e
      simp only [BitVec.toNat_ofNat] at this
      omega)
    rw [if_neg h, beq_eq_false_iff_ne.mpr hne]; rfl

/-- The conjunction of two one-bit conditions is the condition of the conjunction. -/
theorem andi_bits (P Q : Prop) [Decidable P] [Decidable Q] :
    IntOp.andi (if P then 1#1 else 0#1) (if Q then 1#1 else 0#1) = if P ∧ Q then 1#1 else 0#1 := by
  by_cases hP : P <;> by_cases hQ : Q <;> simp [hP, hQ, IntOp.andi]

/-- A one-bit condition, widened and converted, is `1` where it holds and `0` where it does not. -/
theorem sitofp_bit (P : Prop) [Decidable P] :
    FloatOps.sitofp (F := Ideal) .f32 ((if P then 1#1 else 0#1 : BitVec 1).setWidth 32) = if P then (1 : EReal) else 0 := by
  by_cases hP : P
  · rw [if_pos hP, if_pos hP]
    show (((((1#1 : BitVec 1).setWidth 32).toInt : ℤ) : ℝ) : EReal) = 1
    rw [show ((1#1 : BitVec 1).setWidth 32).toInt = 1 from by decide]
    simp
  · rw [if_neg hP, if_neg hP]
    show (((((0#1 : BitVec 1).setWidth 32).toInt : ℤ) : ℝ) : EReal) = 0
    rw [show ((0#1 : BitVec 1).setWidth 32).toInt = 0 from by decide]
    simp

/-- The diagonal's mask at `(p, q)`: `1` on the diagonal and `0` off it. -/
theorem diagMask_apply (p q : Fin 1024) :
    (sitofp (F := Ideal) .f32 (extui 32 (cmpi .eq (iota .tc S1024x1024 32 [0] iota_S1024x1024_d0_w32) (iota .tc S1024x1024 32 [1] iota_S1024x1024_d1_w32)) natLt_1_32)) (ix2 p q)
      = if p = q then (1 : EReal) else 0 := by
  rw [sitofp_apply, extui_apply]
  show FloatOps.sitofp (F := Ideal) .f32 ((IntOp.cmpi .eq (iota .tc S1024x1024 32 [0] iota_S1024x1024_d0_w32 (ix2 p q)) (iota .tc S1024x1024 32 [1] iota_S1024x1024_d1_w32 (ix2 p q))).setWidth 32) = _
  rw [iota_single_apply, iota_single_apply]
  show FloatOps.sitofp (F := Ideal) .f32 ((IntOp.cmpi .eq (BitVec.ofNat 32 p.val) (BitVec.ofNat 32 q.val)).setWidth 32) = _
  rw [cmpi_eq_ofNat p.val q.val (by have := p.isLt; omega) (by have := q.isLt; omega), sitofp_bit]
  exact if_congr ⟨fun e => Fin.ext e, fun e => congrArg Fin.val e⟩ rfl rfl

/-- The corner's mask at `(r, c)` of the 8 × 128 slab: `1` at `(0, 0)` and `0` elsewhere. -/
theorem cornerMask_apply (r : Fin 8) (c : Fin 128) :
    (sitofp (F := Ideal) .f32 (extui 32 (andi (cmpi .eq (iota .tc S8x128 32 [0] iota_S8x128_d0_w32) (broadcast S8x128 0#32)) (cmpi .eq (iota .tc S8x128 32 [1] iota_S8x128_d1_w32) (broadcast S8x128 0#32))) natLt_1_32)) (ix2 r c)
      = if r = 0 ∧ c = 0 then (1 : EReal) else 0 := by
  rw [sitofp_apply, extui_apply]
  show FloatOps.sitofp (F := Ideal) .f32 ((IntOp.andi (IntOp.cmpi .eq (iota .tc S8x128 32 [0] iota_S8x128_d0_w32 (ix2 r c)) 0#32) (IntOp.cmpi .eq (iota .tc S8x128 32 [1] iota_S8x128_d1_w32 (ix2 r c)) 0#32)).setWidth 32) = _
  rw [iota_single_apply, iota_single_apply]
  show FloatOps.sitofp (F := Ideal) .f32 ((IntOp.andi (IntOp.cmpi .eq (BitVec.ofNat 32 r.val) (BitVec.ofNat 32 0)) (IntOp.cmpi .eq (BitVec.ofNat 32 c.val) (BitVec.ofNat 32 0))).setWidth 32) = _
  rw [cmpi_eq_ofNat r.val 0 (by have := r.isLt; omega) (by omega), cmpi_eq_ofNat c.val 0 (by have := c.isLt; omega) (by omega), andi_bits, sitofp_bit]
  exact if_congr (and_congr ⟨fun e => Fin.ext e, fun e => congrArg Fin.val e⟩ ⟨fun e => Fin.ext e, fun e => congrArg Fin.val e⟩) rfl rfl

/-! ## The total of a 1024 × 1024 array, as the body takes it -/

/-- The sum along the rows, at row `p`. -/
theorem rowSum_apply (v : FVec Ideal S1024x1024 .f32) (p : Fin 1024) :
    multiReduction (F := Ideal) .add [1] S1024 v 0x00000000#32 reduces_S1024x1024_S1024 (.inl rfl) rfl (ix1 p)
      = ∑ q : Fin 1024, v (ix2 p q) := by
  refine (Ideal.multiReduction_add_single v _ reduces_S1024x1024_S1024 _ _ (ix1 p)).trans ?_
  show ∑ k : Fin 1024, v (reduces_S1024x1024_S1024.lift (ix1 p) k) = _
  refine Finset.sum_congr rfl fun k _ => congrArg v (funext fun a => Fin.ext ?_)
  match a with
  | ⟨0, _⟩ => rfl
  | ⟨1, _⟩ => rfl

/-- The row sums as a column: the entry of row `p`. -/
theorem asColumn_apply (w : FVec Ideal S1024 .f32) (p : Fin 1024) (u : Fin 1) :
    shapeCast S1024x1 w shapeCasts_S1024_S1024x1 (ix2 p u) = w (ix1 p) :=
  shapeCast_apply w shapeCasts_S1024_S1024x1 (ix2 p u) (ix1 p) (by
    rw [Shape.rowMajor_val_one, Shape.rowMajor_val_two]
    show p.val = p.val * 1 + u.val
    have := u.isLt; omega)

/-- The sum down the column. -/
theorem colSum_apply (w : FVec Ideal S1024x1 .f32) (u : Fin 1) :
    multiReduction (F := Ideal) .add [0] S1 w 0x00000000#32 reduces_S1024x1_S1 (.inl rfl) rfl (ix1 u)
      = ∑ p : Fin 1024, w (ix2 p u) := by
  refine (Ideal.multiReduction_add_single w _ reduces_S1024x1_S1 _ _ (ix1 u)).trans ?_
  show ∑ k : Fin 1024, w (reduces_S1024x1_S1.lift (ix1 u) k) = _
  refine Finset.sum_congr rfl fun k _ => congrArg w (funext fun a => Fin.ext ?_)
  match a with
  | ⟨0, _⟩ => rfl
  | ⟨1, _⟩ => rfl

/-- The one total, spread over the 8 × 128 slab: every entry is the sum of all the array's entries, rows first. -/
theorem total_apply (v : FVec Ideal S1024x1024 .f32) (r : Fin 8) (c : Fin 128) :
    broadcastTo S8x128 (shapeCast S1x1 (multiReduction (F := Ideal) .add [0] S1 (shapeCast S1024x1 (multiReduction (F := Ideal) .add [1] S1024 v 0x00000000#32 reduces_S1024x1024_S1024 (.inl rfl) rfl) shapeCasts_S1024_S1024x1) 0x00000000#32 reduces_S1024x1_S1 (.inl rfl) rfl) shapeCasts_S1_S1x1) broadcasts_S1x1_S8x128 (ix2 r c)
      = ∑ p : Fin 1024, ∑ q : Fin 1024, v (ix2 p q) := by
  refine (broadcastTo_apply _ broadcasts_S1x1_S8x128 (ix2 r c) (ix2 (0 : Fin 1) (0 : Fin 1)) (fun a => by
    match a with
    | ⟨0, _⟩ => rfl
    | ⟨1, _⟩ => rfl)).trans ?_
  refine (shapeCast_a_1a_apply _ shapeCasts_S1_S1x1 (0 : Fin 1) (0 : Fin 1)).trans ?_
  refine (colSum_apply _ (0 : Fin 1)).trans ?_
  refine Finset.sum_congr rfl fun p _ => ?_
  exact (asColumn_apply _ p (0 : Fin 1)).trans (rowSum_apply v p)

/-! ## The slab that holds one number at its corner -/

/-- `e00 s` at `(r, c)`. -/
theorem e00_apply (s : EReal) (r : Fin 8) (c : Fin 128) : e00 s (ix2 r c) = if r = 0 ∧ c = 0 then s else 0 := by
  unfold e00
  refine if_congr ⟨fun h => ⟨congrFun h (0 : Fin 2), congrFun h (1 : Fin 2)⟩, fun h => ?_⟩ rfl rfl
  obtain ⟨hr, hc⟩ := h
  subst hr; subst hc; rfl

/-- Adding the total `T`, masked to the corner, to the slab that holds `s` at its corner gives the slab that holds `s + T`:
    at the corner `s + 1 · T`, elsewhere `0 + 0 · T`. -/
theorem corner_add (s T : EReal) (r : Fin 8) (c : Fin 128) :
    (if r = 0 ∧ c = 0 then s else 0) + (if r = 0 ∧ c = 0 then (1 : EReal) else 0) * T = if r = 0 ∧ c = 0 then s + T else 0 := by
  by_cases h : r = 0 ∧ c = 0
  · rw [if_pos h, if_pos h, if_pos h, one_mul]
  · rw [if_neg h, if_neg h, if_neg h, zero_mul, add_zero]

/-! ## The payloads -/

/-- The hinge at `(p, q)`: `max (1 − ⟨row p, row q⟩) 0`. -/
theorem hinge_apply (x y : FVec Ideal S1024x1024 .bf16) (p q : Fin 1024) :
    maximumf (subf (broadcast S1024x1024 (Scalar.ofBits (F := Ideal) .f32 0x3F800000#32))
        (matmul dot_S1024x1024_S1024x1024_S1024x1024_1_1_0_0_n_n none x y (constant (F := Ideal) S1024x1024 .f32 0x00000000#32)))
      (broadcast S1024x1024 (Scalar.ofBits (F := Ideal) .f32 0x00000000#32)) (ix2 p q)
      = max ((1 : EReal) - ∑ k : Fin 1024, x (ix2 p k) * y (ix2 q k)) 0 := by
  rw [maximumf_apply, subf_apply, broadcast_apply, broadcast_apply, mmA_apply]
  show max (Ideal.ofBits .f32 0x3F800000#32 - _) (Ideal.ofBits .f32 0x00000000#32) = _
  rw [one_word, Ideal.ofBits_zero_f32]

/-- The zeroing payload is the slab that holds `0` at its corner: the zero slab. -/
theorem pay1_eq : k0_pay1 (F := Ideal) = e00 0 := by
  funext j
  obtain ⟨r, c, rfl⟩ : ∃ (r : Fin 8) (c : Fin 128), j = ix2 r c := ⟨j 0, j 1, eq_ix2 j⟩
  unfold k0_pay1
  simp only [shapeCast_self]
  rw [e00_apply, ite_self]
  exact Ideal.ofBits_zero_f32

/-- An upper block's payload adds the block's total at the corner. -/
theorem pay3_eq (b0 b1 : Vec Ideal S1024x1024 .bf16) (b3 b4 : Vec Ideal S1024x8 .f32) (s : EReal) :
    k0_pay3 (F := Ideal) b0 b1 b3 b4 (e00 s) = e00 (s + upT b0 b1 b3 b4) := by
  funext j
  obtain ⟨r, c, rfl⟩ : ∃ (r : Fin 8) (c : Fin 128), j = ix2 r c := ⟨j 0, j 1, eq_ix2 j⟩
  unfold k0_pay3
  simp only [shapeCast_self]
  rw [addf_apply, mulf_apply, cornerMask_apply, total_apply, e00_apply, e00_apply]
  refine Eq.trans ?_ (corner_add s (upT b0 b1 b3 b4) r c)
  refine congrArg (fun T : EReal => (if r = 0 ∧ c = 0 then s else 0) + (if r = 0 ∧ c = 0 then (1 : EReal) else 0) * T) ?_
  unfold upT
  refine Finset.sum_congr rfl fun p _ => Finset.sum_congr rfl fun q _ => ?_
  rw [mulf_apply, mmB_apply, hinge_apply]

/-- The diagonal block's payload adds the block's total, its own diagonal masked out, at the corner. -/
theorem pay2_pay5_eq (b0 b1 : Vec Ideal S1024x1024 .bf16) (b2 b4 : Vec Ideal S1024x8 .f32) (s : EReal) :
    k0_pay2 (k0_pay5 (F := Ideal) b0 b1 b2 b4 (e00 s)) = e00 (s + diagT b0 b1 b2 b4) := by
  funext j
  obtain ⟨r, c, rfl⟩ : ∃ (r : Fin 8) (c : Fin 128), j = ix2 r c := ⟨j 0, j 1, eq_ix2 j⟩
  unfold k0_pay2 k0_pay5
  simp only [shapeCast_self]
  rw [addf_apply, mulf_apply, cornerMask_apply, total_apply, e00_apply, e00_apply]
  refine Eq.trans ?_ (corner_add s (diagT b0 b1 b2 b4) r c)
  refine congrArg (fun T : EReal => (if r = 0 ∧ c = 0 then s else 0) + (if r = 0 ∧ c = 0 then (1 : EReal) else 0) * T) ?_
  unfold diagT
  refine Finset.sum_congr rfl fun p _ => Finset.sum_congr rfl fun q _ => ?_
  rw [mulf_apply, mulf_apply, mmB_apply, hinge_apply, subf_apply, broadcast_apply, diagMask_apply]
  show _ * _ * (Ideal.ofBits .f32 0x3F800000#32 - _) = _
  rw [one_word]

/-- The copy to the output block: the accumulator under a leading unit axis. -/
theorem pay4_apply (v : Vec Ideal S8x128 .f32) (a : Fin 1) (r : Fin 8) (cc : Fin 128) :
    k0_pay4 (F := Ideal) v (ix3 a r cc) = v (ix2 r cc) := by
  unfold k0_pay4
  exact shapeCast_ab_1ab_apply v shapeCasts_S8x128_S1x8x128 a r cc

/-- One grid point's effect on an accumulator that holds `s` at its corner: again such a slab, holding `0` or `s`, then
    the diagonal block's total added if the point is on the diagonal, then an upper block's if it is above it. -/
theorem accNext_e00 (i : grid0.Coords) (b0 b1 : Vec Ideal S1024x1024 .bf16) (b2 b3 b4 : Vec Ideal S1024x8 .f32) (s : EReal) :
    accNext (F := Ideal) i b0 b1 b2 b3 b4 (e00 s)
      = e00 ((if cond2 i then (fun a => a + upT b0 b1 b3 b4) else id) ((if cond1 i then (fun a => a + diagT b0 b1 b2 b4) else id) (if cond0 i then 0 else s))) := by
  unfold accNext
  dsimp only
  by_cases h0 : cond0 i <;> by_cases h1 : cond1 i <;> by_cases h2 : cond2 i <;>
    (first | simp only [if_neg h0] | simp only [if_pos h0]) <;>
    (first | simp only [if_neg h1] | simp only [if_pos h1]) <;>
    (first | simp only [if_neg h2] | simp only [if_pos h2]) <;>
    simp only [pay1_eq, pay2_pay5_eq, pay3_eq, id]

end Cert.KernelIdeal.PayValue
end
-- ==== Proof.KIAcc.lean ====
/-
  The pairwise kernel's accumulator, block-row by block-row, in closed form.

  Over the 8 × 8 grid (points in row-major order, point `8 i + j` being block `(i, j)`) the accumulator is zeroed at
  `j = 0`, gains the diagonal block's total at `j = i` and an upper block's total at every `j > i`. With the five
  input blocks of a point read off the arrays the region finds (rows `1024 i + p` of the normalised rows and of the two
  weight-row arrays, rows `1024 j + q` of the normalised rows and of the one-hot rows), those totals are the
  specification's `diagBlock i` and `upBlock i j`; so after point `8 i + j` the accumulator holds, at its corner,
  the diagonal block if `i ≤ j` plus the upper blocks `j'` with `i < j' ≤ j`, and after the last point of the
  block-row the whole of `rowBlockSum i`.
-/
import proofs.«411099_j55954833933114_3_alg».proof.Proof.KIDat
import proofs.«411099_j55954833933114_3_alg».proof.Proof.Spec
import proofs.«411099_j55954833933114_3_alg».proof.Proof.KIPay
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.AccValue

open Cert.KernelIdeal Cert.KernelIdeal.Gen Cert.KernelIdeal.Hand Cert.KernelIdeal.PayValue
open Idealize.ShloMosaic Idealize.ShloMosaic.TcCoe Idealize.ShloMosaic.ValueIdx
open Idealize.SL.Sem

variable (m : (ℓ : Loc nD τ sig) → Buf (Elt Ideal) ℓ)

/-! ## The body's three conditions over the grid -/

/-- The accumulator is zeroed at the first point of each block-row. -/
theorem cond0_iff : ∀ t : Fin cfg0.N, cond0 (grid0.coords t) ↔ t.val % 8 = 0 :=
  (by decide +kernel : ∀ t : Fin grid0.N, cond0 (grid0.coords t) ↔ t.val % 8 = 0)
/-- The diagonal block is added where the column block is the row block. -/
theorem cond1_iff : ∀ t : Fin cfg0.N, cond1 (grid0.coords t) ↔ t.val / 8 = t.val % 8 :=
  (by decide +kernel : ∀ t : Fin grid0.N, cond1 (grid0.coords t) ↔ t.val / 8 = t.val % 8)
/-- An upper block is added where the column block is to the right of the row block. -/
theorem cond2_iff : ∀ t : Fin cfg0.N, cond2 (grid0.coords t) ↔ t.val / 8 < t.val % 8 :=
  (by decide +kernel : ∀ t : Fin grid0.N, cond2 (grid0.coords t) ↔ t.val / 8 < t.val % 8)

/-! ## The windows' block indices over the grid -/

/-- Windows 0, 2 and 3 move with the block-row, windows 1 and 4 with the block-column; none moves along its second axis. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val % 8 ∧ win0_4.index t (1 : Fin 2) = 0 :=
  (by decide +kernel : ∀ t : Fin grid0.N, _)

/-! ## The blocks read off the arrays

A block's coordinate on an axis is the window's block index there times the block's extent plus the coordinate inside
the block. -/

/-- Window 0's block at point `t` is rows `1024 (t / 8) + ·` of the normalised rows. -/
theorem iblk0_apply (c : Dev nD) (t : Fin cfg0.N) (x : S1024x1024.Idx) (k : S8192x1024.Idx)
    (hk0 : (k 0).val = 1024 * (t.val / 8) + (x 0).val) (hk1 : (k 1).val = (x 1).val) :
    (iblk m c 0 t : Vec Ideal S1024x1024 .bf16) x = (V m c main_call0_v27 : S8192x1024.Idx → EReal) k := by
  obtain ⟨e0, e1, -⟩ := idx_facts t
  show V m c main_call0_v27 (((cfg0.win 0).blk t).view.emb x) = V m c main_call0_v27 k
  refine congrArg _ (funext fun a => Fin.ext ?_)
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- Window 1's block at point `t` is rows `1024 (t % 8) + ·` of the normalised rows. -/
theorem iblk1_apply (c : Dev nD) (t : Fin cfg0.N) (x : S1024x1024.Idx) (k : S8192x1024.Idx)
    (hk0 : (k 0).val = 1024 * (t.val % 8) + (x 0).val) (hk1 : (k 1).val = (x 1).val) :
    (iblk m c 1 t : Vec Ideal S1024x1024 .bf16) x = (V m c main_call0_v27 : S8192x1024.Idx → EReal) k := by
  obtain ⟨-, -, e0, e1, -⟩ := idx_facts t
  show V m c main_call0_v27 (((cfg0.win 1).blk t).view.emb x) = V m c main_call0_v27 k
  refine congrArg _ (funext fun a => Fin.ext ?_)
  match a with
  | ⟨0, _⟩ => show win0_1.index t (0 : Fin 2) * 1024 + 1 * (x 0).val = (k 0).val; rw [e0, hk0]; omega
  | ⟨1, _⟩ => show win0_1.index t (1 : Fin 2) * 1024 + 1 * (x 1).val = (k 1).val; rw [e1, hk1]; omega

/-- Window 2's block at point `t` is rows `1024 (t / 8) + ·` of the weight rows. -/
theorem iblk2_apply (c : Dev nD) (t : Fin cfg0.N) (x : S1024x8.Idx) (k : S8192x8.Idx)
    (hk0 : (k 0).val = 1024 * (t.val / 8) + (x 0).val) (hk1 : (k 1).val = (x 1).val) :
    (iblk m c 2 t : Vec Ideal S1024x8 .f32) x = (V m c main_call0_v29 : S8192x8.Idx → EReal) k := by
  obtain ⟨-, -, -, -, e0, e1, -⟩ := idx_facts t
  show V m c main_call0_v29 (((cfg0.win 2).blk t).view.emb x) = V m c main_call0_v29 k
  refine congrArg _ (funext fun a => Fin.ext ?_)
  match a with
  | ⟨0, _⟩ => show win0_2.index t (0 : Fin 2) * 1024 + 1 * (x 0).val = (k 0).val; rw [e0, hk0]; omega
  | ⟨1, _⟩ => show win0_2.index t (1 : Fin 2) * 8 + 1 * (x 1).val = (k 1).val; rw [e1, hk1]; omega

/-- Window 3's block at point `t` is rows `1024 (t / 8) + ·` of the symmetrised weight rows. -/
theorem iblk3_apply (c : Dev nD) (t : Fin cfg0.N) (x : S1024x8.Idx) (k : S8192x8.Idx)
    (hk0 : (k 0).val = 1024 * (t.val / 8) + (x 0).val) (hk1 : (k 1).val = (x 1).val) :
    (iblk m c 3 t : Vec Ideal S1024x8 .f32) x = (V m c main_call0_v32 : S8192x8.Idx → EReal) k := by
  obtain ⟨-, -, -, -, -, -, e0, e1, -⟩ := idx_facts t
  show V m c main_call0_v32 (((cfg0.win 3).blk t).view.emb x) = V m c main_call0_v32 k
  refine congrArg _ (funext fun a => Fin.ext ?_)
  match a with
  | ⟨0, _⟩ => show win0_3.index t (0 : Fin 2) * 1024 + 1 * (x 0).val = (k 0).val; rw [e0, hk0]; omega
  | ⟨1, _⟩ => show win0_3.index t (1 : Fin 2) * 8 + 1 * (x 1).val = (k 1).val; rw [e1, hk1]; omega

/-- Window 4's block at point `t` is rows `1024 (t % 8) + ·` of the one-hot rows. -/
theorem iblk4_apply (c : Dev nD) (t : Fin cfg0.N) (x : S1024x8.Idx) (k : S8192x8.Idx)
    (hk0 : (k 0).val = 1024 * (t.val % 8) + (x 0).val) (hk1 : (k 1).val = (x 1).val) :
    (iblk m c 4 t : Vec Ideal S1024x8 .f32) x = (V m c main_call0_v28 : S8192x8.Idx → EReal) k := by
  obtain ⟨-, -, -, -, -, -, -, -, e0, e1⟩ := idx_facts t
  show V m c main_call0_v28 (((cfg0.win 4).blk t).view.emb x) = V m c main_call0_v28 k
  refine congrArg _ (funext fun a => Fin.ext ?_)
  match a with
  | ⟨0, _⟩ => show win0_4.index t (0 : Fin 2) * 1024 + 1 * (x 0).val = (k 0).val; rw [e0, hk0]; omega
  | ⟨1, _⟩ => show win0_4.index t (1 : Fin 2) * 8 + 1 * (x 1).val = (k 1).val; rw [e1, hk1]; omega

/-! ### The same at block `(i, j)`, in the specification's row numbering -/

section AtBlock
variable (c : Dev nD) (t : Fin cfg0.N) (i j : Fin 8) (hi : t.val / 8 = i.val) (hj : t.val % 8 = j.val)
include hi in
theorem iblk0_row (p k : Fin 1024) :
    (iblk m c 0 t : Vec Ideal S1024x1024 .bf16) (ix2 p k) = (V m c main_call0_v27 : S8192x1024.Idx → EReal) (ix2 (Cert.Spec.row i p) k) :=
  iblk0_apply m c t _ _ (by show 1024 * i.val + p.val = 1024 * (t.val / 8) + p.val; rw [hi]) rfl
include hj in
theorem iblk1_row (q k : Fin 1024) :
    (iblk m c 1 t : Vec Ideal S1024x1024 .bf16) (ix2 q k) = (V m c main_call0_v27 : S8192x1024.Idx → EReal) (ix2 (Cert.Spec.row j q) k) :=
  iblk1_apply m c t _ _ (by show 1024 * j.val + q.val = 1024 * (t.val % 8) + q.val; rw [hj]) rfl
include hi in
theorem iblk2_row (p : Fin 1024) (k : Fin 8) :
    (iblk m c 2 t : Vec Ideal S1024x8 .f32) (ix2 p k) = (V m c main_call0_v29 : S8192x8.Idx → EReal) (ix2 (Cert.Spec.row i p) k) :=
  iblk2_apply m c t _ _ (by show 1024 * i.val + p.val = 1024 * (t.val / 8) + p.val; rw [hi]) rfl
include hi in
theorem iblk3_row (p : Fin 1024) (k : Fin 8) :
    (iblk m c 3 t : Vec Ideal S1024x8 .f32) (ix2 p k) = (V m c main_call0_v32 : S8192x8.Idx → EReal) (ix2 (Cert.Spec.row i p) k) :=
  iblk3_apply m c t _ _ (by show 1024 * i.val + p.val = 1024 * (t.val / 8) + p.val; rw [hi]) rfl
include hj in
theorem iblk4_row (q : Fin 1024) (k : Fin 8) :
    (iblk m c 4 t : Vec Ideal S1024x8 .f32) (ix2 q k) = (V m c main_call0_v28 : S8192x8.Idx → EReal) (ix2 (Cert.Spec.row j q) k) :=
  iblk4_apply m c t _ _ (by show 1024 * j.val + q.val = 1024 * (t.val % 8) + q.val; rw [hj]) rfl
end AtBlock

/-! ## A block's total is the specification's -/

/-- The diagonal block's total over blocks that are the specification's rows. -/
theorem diagT_spec (fn : Fin 8192 → Fin 1024 → EReal) (lab : Fin 8192 → Fin 8) (sim : Fin 8 → Fin 8 → EReal) (i : Fin 8)
    (b0 b1 : Vec Ideal S1024x1024 .bf16) (b2 b4 : Vec Ideal S1024x8 .f32)
    (h0 : ∀ p k, b0 (ix2 p k) = fn (Cert.Spec.row i p) k) (h1 : ∀ q k, b1 (ix2 q k) = fn (Cert.Spec.row i q) k)
    (h2 : ∀ p k, b2 (ix2 p k) = Cert.Spec.simrow lab sim (Cert.Spec.row i p) k)
    (h4 : ∀ q k, b4 (ix2 q k) = Cert.Spec.onehot lab (Cert.Spec.row i q) k) :
    diagT b0 b1 b2 b4 = Cert.Spec.diagBlock fn lab sim i := by
  unfold diagT Cert.Spec.diagBlock Cert.Spec.wDiag Cert.Spec.hinge Cert.Spec.cosv
  refine Finset.sum_congr rfl fun p _ => Finset.sum_congr rfl fun q _ => ?_
  simp only [h0, h1, h2, h4]

/-- An upper block's total over blocks that are the specification's rows. -/
theorem upT_spec (fn : Fin 8192 → Fin 1024 → EReal) (lab : Fin 8192 → Fin 8) (sim : Fin 8 → Fin 8 → EReal) (i j : Fin 8)
    (b0 b1 : Vec Ideal S1024x1024 .bf16) (b3 b4 : Vec Ideal S1024x8 .f32)
    (h0 : ∀ p k, b0 (ix2 p k) = fn (Cert.Spec.row i p) k) (h1 : ∀ q k, b1 (ix2 q k) = fn (Cert.Spec.row j q) k)
    (h3 : ∀ p k, b3 (ix2 p k) = Cert.Spec.simrowSym lab sim (Cert.Spec.row i p) k)
    (h4 : ∀ q k, b4 (ix2 q k) = Cert.Spec.onehot lab (Cert.Spec.row j q) k) :
    upT b0 b1 b3 b4 = Cert.Spec.upBlock fn lab sim i j := by
  unfold upT Cert.Spec.upBlock Cert.Spec.wUp Cert.Spec.hinge Cert.Spec.cosv
  refine Finset.sum_congr rfl fun p _ => Finset.sum_congr rfl fun q _ => ?_
  simp only [h0, h1, h3, h4]

/-! ## The accumulator along a block-row -/

section Row
variable (fn : Fin 8192 → Fin 1024 → EReal) (lab : Fin 8192 → Fin 8) (sim : Fin 8 → Fin 8 → EReal)

/-- Block-row `i`'s share up to and including the column block `j`: the diagonal block once `j` has reached it, and the
    upper blocks `j'`, `i < j' ≤ j`. -/
def rowPart (i j : Fin 8) : EReal :=
  (if i ≤ j then Cert.Spec.diagBlock fn lab sim i else 0)
    + ∑ j' ∈ (Finset.Ioi i).filter (fun j' => j' ≤ j), Cert.Spec.upBlock fn lab sim i j'

/-- No column block is both to the right of `i` and at most `j` when `j ≤ i`. -/
theorem upper_empty (i j : Fin 8) (h : j ≤ i) : (Finset.Ioi i).filter (fun j' => j' ≤ j) = ∅ :=
  Finset.filter_eq_empty_iff.mpr fun x hx hle => absurd (lt_of_lt_of_le (Finset.mem_Ioi.mp hx) (le_trans hle h)) (lt_irrefl _)

/-- At the first column block the accumulator, zeroed, holds the diagonal block if the block-row is the first, nothing
    otherwise. -/
theorem rowPart_first (i j : Fin 8) (hj : j.val = 0) :
    (if i < j then (fun a => a + Cert.Spec.upBlock fn lab sim i j) else id)
        ((if i = j then (fun a => a + Cert.Spec.diagBlock fn lab sim i) else id) (0 : EReal))
      = rowPart fn lab sim i j := by
  have hji : j ≤ i := by rw [Fin.le_def, hj]; exact Nat.zero_le _
  unfold rowPart
  rw [upper_empty i j hji, Finset.sum_empty, add_zero, if_neg (not_lt.mpr hji)]
  by_cases h : i = j
  · subst h; rw [if_pos rfl, if_pos (le_refl _)]; simp only [id_eq, zero_add]
  · rw [if_neg h, if_neg (fun hle => h (le_antisymm hle hji))]; rfl

/-- One column block further: the diagonal block joins at `j' = i`, the upper block `j'` at `j' > i`. -/
theorem rowPart_succ (i j j' : Fin 8) (hjj : j'.val = j.val + 1) :
    (if i < j' then (fun a => a + Cert.Spec.upBlock fn lab sim i j') else id)
        ((if i = j' then (fun a => a + Cert.Spec.diagBlock fn lab sim i) else id) (rowPart fn lab sim i j))
      = rowPart fn lab sim i j' := by
  unfold rowPart
  rcases lt_trichotomy i j' with h | h | h
  · have hij : i ≤ j := by rw [Fin.le_def]; rw [Fin.lt_def] at h; omega
    have hf : (Finset.Ioi i).filter (fun x => x ≤ j') = insert j' ((Finset.Ioi i).filter (fun x => x ≤ j)) := by
      ext x
      simp only [Finset.mem_filter, Finset.mem_Ioi, Finset.mem_insert]
      constructor
      · rintro ⟨h1, h2⟩
        by_cases hx : x = j'
        · exact Or.inl hx
        · refine Or.inr ⟨h1, ?_⟩
          have hne : x.val ≠ j'.val := fun e => hx (Fin.ext e)
          rw [Fin.le_def] at h2 ⊢; omega
      · rintro (rfl | ⟨h1, h2⟩)
        · exact ⟨h, le_refl _⟩
        · refine ⟨h1, ?_⟩; rw [Fin.le_def] at h2 ⊢; omega
    have hn : j' ∉ (Finset.Ioi i).filter (fun x => x ≤ j) := by
      simp only [Finset.mem_filter, not_and]; intro _ hle; rw [Fin.le_def] at hle; omega
    rw [if_pos h, if_neg (ne_of_lt h), if_pos hij, if_pos (le_of_lt h), hf, Finset.sum_insert hn]
    simp only [id_eq]
    rw [add_assoc, add_comm (Finset.sum _ _)]
  · subst h
    have hij : ¬ i ≤ j := by rw [Fin.le_def]; omega
    rw [if_neg (lt_irrefl _), if_pos rfl, if_neg hij, if_pos (le_refl _), upper_empty i j (le_of_lt (not_le.mp hij)),
      upper_empty i i (le_refl _), Finset.sum_empty]
    simp only [id_eq, add_zero, zero_add]
  · have hij : ¬ i ≤ j := by rw [Fin.le_def]; rw [Fin.lt_def] at h; omega
    rw [if_neg (not_lt.mpr (le_of_lt h)), if_neg (ne_of_gt h), if_neg hij, if_neg (not_le.mpr h),
      upper_empty i j (le_of_lt (not_le.mp hij)), upper_empty i j' (le_of_lt h)]
    rfl

/-- At the last column block the share is the whole of the block-row's. -/
theorem rowPart_last (i j : Fin 8) (hj : j.val = 7) : rowPart fn lab sim i j = Cert.Spec.rowBlockSum fn lab sim i := by
  have hle : ∀ x : Fin 8, x ≤ j := fun x => by rw [Fin.le_def, hj]; have := x.isLt; omega
  unfold rowPart Cert.Spec.rowBlockSum
  rw [if_pos (hle i), Finset.filter_true_of_mem (fun x _ => hle x)]

end Row

/-- The block `(n / 8, n % 8)` of point `n`, each as a number below 8. -/
def blk (n : ℕ) : Fin 8 := ⟨n % 8, Nat.mod_lt n (by decide)⟩

section Closed
variable (c : Dev nD) (lab : Fin 8192 → Fin 8) (sim : Fin 8 → Fin 8 → EReal)
  (h28 : ∀ r k, (V m c main_call0_v28 : S8192x8.Idx → EReal) (ix2 r k) = Cert.Spec.onehot lab r k)
  (h29 : ∀ r k, (V m c main_call0_v29 : S8192x8.Idx → EReal) (ix2 r k) = Cert.Spec.simrow lab sim r k)
  (h32 : ∀ r k, (V m c main_call0_v32 : S8192x8.Idx → EReal) (ix2 r k) = Cert.Spec.simrowSym lab sim r k)

/-- The normalised rows as the region finds them, row by row. -/
abbrev rowsOf : Fin 8192 → Fin 1024 → EReal := fun r k => (V m c main_call0_v27 : S8192x1024.Idx → EReal) (ix2 r k)

include h28 h29 h32 in
/-- One point's effect on an accumulator that holds `s` at its corner and zero elsewhere, at block `(i, j)`. -/
theorem step_e00 (t : Fin cfg0.N) (i j : Fin 8) (hi : t.val / 8 = i.val) (hj : t.val % 8 = j.val) (s : EReal) :
    accNext (F := Ideal) (grid0.coords t) (iblk m c 0 t) (iblk m c 1 t) (iblk m c 2 t) (iblk m c 3 t) (iblk m c 4 t) (e00 s)
      = e00 ((if i < j then (fun a => a + Cert.Spec.upBlock (rowsOf m c) lab sim i j) else id)
          ((if i = j then (fun a => a + Cert.Spec.diagBlock (rowsOf m c) lab sim i) else id) (if j.val = 0 then 0 else s))) := by
  have c0 : cond0 (grid0.coords t) ↔ j.val = 0 := by rw [cond0_iff t, hj]
  have c1 : cond1 (grid0.coords t) ↔ i = j := by rw [cond1_iff t, hi, hj]; exact Fin.val_inj
  have c2 : cond2 (grid0.coords t) ↔ i < j := by rw [cond2_iff t, hi, hj]; exact Fin.lt_def.symm
  rw [accNext_e00, if_congr c0 rfl rfl]
  congr 1
  by_cases h2 : i < j
  · have eU := upT_spec (rowsOf m c) lab sim i j (iblk m c 0 t) (iblk m c 1 t) (iblk m c 3 t) (iblk m c 4 t)
      (iblk0_row m c t i hi) (iblk1_row m c t j hj) (fun p k => (iblk3_row m c t i hi p k).trans (h32 _ _))
      (fun q k => (iblk4_row m c t j hj q k).trans (h28 _ _))
    rw [if_pos (c2.mpr h2), if_neg (fun h => (ne_of_lt h2) (c1.mp h)), if_pos h2, if_neg (ne_of_lt h2), eU]
  · rw [if_neg (fun h => h2 (c2.mp h)), if_neg h2]
    by_cases h1 : i = j
    · subst h1
      have eD := diagT_spec (rowsOf m c) lab sim i (iblk m c 0 t) (iblk m c 1 t) (iblk m c 2 t) (iblk m c 4 t)
        (iblk0_row m c t i hi) (iblk1_row m c t i hj) (fun p k => (iblk2_row m c t i hi p k).trans (h29 _ _))
        (fun q k => (iblk4_row m c t i hj q k).trans (h28 _ _))
      rw [if_pos (c1.mpr rfl), if_pos rfl, eD]
    · rw [if_neg (fun h => h1 (c1.mp h)), if_neg h1]

include h28 h29 h32 in
/-- After point `n`, block `(n / 8, n % 8)`, the accumulator holds the block-row's share so far at its corner. -/
theorem acc_closed : ∀ (n : ℕ) (hn : n < cfg0.N),
    accAt m c n hn = e00 (rowPart (rowsOf m c) lab sim (blk (n / 8)) (blk n))
  | 0, hn => by
      show accNext (F := Ideal) (grid0.coords ⟨0, hn⟩) (iblk m c 0 ⟨0, hn⟩) (iblk m c 1 ⟨0, hn⟩) (iblk m c 2 ⟨0, hn⟩) (iblk m c 3 ⟨0, hn⟩)
        (iblk m c 4 ⟨0, hn⟩) (k0_pay1 (F := Ideal)) = _
      have hz : (blk 0).val = 0 := by show 0 % 8 = 0; decide
      rw [pay1_eq, step_e00 m c lab sim h28 h29 h32 ⟨0, hn⟩ (blk (0 / 8)) (blk 0) (by show 0 / 8 = 0 / 8 % 8; decide) rfl, if_pos hz,
        rowPart_first (rowsOf m c) lab sim _ _ hz]
  | n + 1, hn => by
      have hN : cfg0.N = 64 := N_0
      have ih := acc_closed n (Nat.lt_of_succ_lt hn)
      show accNext (F := Ideal) (grid0.coords ⟨n + 1, hn⟩) (iblk m c 0 ⟨n + 1, hn⟩) (iblk m c 1 ⟨n + 1, hn⟩) (iblk m c 2 ⟨n + 1, hn⟩)
        (iblk m c 3 ⟨n + 1, hn⟩) (iblk m c 4 ⟨n + 1, hn⟩) (accAt m c n (Nat.lt_of_succ_lt hn)) = _
      rw [ih, step_e00 m c lab sim h28 h29 h32 ⟨n + 1, hn⟩ (blk ((n + 1) / 8)) (blk (n + 1))
        (by show (n + 1) / 8 = (n + 1) / 8 % 8; omega) rfl]
      congr 1
      by_cases h0 : (blk (n + 1)).val = 0
      · rw [if_pos h0, rowPart_first (rowsOf m c) lab sim _ _ h0]
      · have hb : blk (n / 8) = blk ((n + 1) / 8) := Fin.ext (by
          have : (n + 1) % 8 ≠ 0 := h0
          show n / 8 % 8 = (n + 1) / 8 % 8; omega)
        rw [if_neg h0, hb]
        exact rowPart_succ (rowsOf m c) lab sim _ (blk n) (blk (n + 1)) (by
          have : (n + 1) % 8 ≠ 0 := h0
          show (n + 1) % 8 = n % 8 + 1; omega)

include h28 h29 h32 in
/-- After the last point of block-row `i` the accumulator holds the block-row's whole share at its corner. -/
theorem acc_final (i : Fin 8) :
    accAt m c (8 * i.val + 7) (by have := i.isLt; have : cfg0.N = 64 := N_0; omega)
      = e00 (Cert.Spec.rowBlockSum (fun r k => (V m c main_call0_v27 : S8192x1024.Idx → EReal) (ix2 r k)) lab sim i) := by
  have hi := i.isLt
  rw [acc_closed m c lab sim h28 h29 h32, rowPart_last (rowsOf m c) lab sim _ _ (by show (8 * i.val + 7) % 8 = 7; omega)]
  have hb : blk ((8 * i.val + 7) / 8) = i := Fin.ext (by show (8 * i.val + 7) / 8 % 8 = i.val; omega)
  rw [hb]

end Closed

end Cert.KernelIdeal.AccValue

end
-- ==== Proof.KIOut.lean ====
/-
  What the region's result array holds after the run, and its total.

  The output window's block at grid point (i, j) is block-row i of the 8 × 8 × 128 result array, and it is written back
  at the last point of the block-row only, j = 7. What is written there is the accumulator after that point: the
  block-row's total in its corner element (0, 0), zero elsewhere. So the array ends holding, in row i, the total of
  block-row i at (0, 0) and zeros, and the sum of all its elements is the sum of the eight block-row totals.
-/
import proofs.«411099_j55954833933114_3_alg».proof.Proof.KIDat
import proofs.«411099_j55954833933114_3_alg».proof.Proof.Spec
import proofs.«411099_j55954833933114_3_alg».proof.Proof.KIPay
import proofs.«411099_j55954833933114_3_alg».proof.Proof.KIAcc
import Idealize.ShloMosaic.Lib.ValueIdx
import Idealize.ShloMosaic.Lib.Pipeline.Value
import Idealize.ShloMosaic.Lib.ReduceAll
import Idealize.ShloMosaic.PureOps.Ideal.Laws

set_option maxRecDepth 16384

noncomputable section

open scoped BigOperators

namespace Cert.KernelIdeal.OutValue

open Cert.KernelIdeal Cert.KernelIdeal.Gen Cert.KernelIdeal.Hand
open Cert.KernelIdeal.PayValue Cert.KernelIdeal.AccValue
open Idealize.ShloMosaic Idealize.ShloMosaic.TcCoe Idealize.ShloMosaic.ValueIdx
open Idealize.ShloMosaic.Pipeline (Dat)

variable (m : (ℓ : Loc nD τ sig) → Buf (Elt Ideal) ℓ)

/-- Block-row i's total over the normalised rows as the region finds them. -/
abbrev rowTot (c : Dev nD) (lab : Fin 8192 → Fin 8) (sim : Fin 8 → Fin 8 → EReal) (i : Fin 8) : EReal :=
  Cert.Spec.rowBlockSum (fun r k => V m c main_call0_v27 (ix2 r k)) lab sim i

/-- What the result array ends holding: row i is block-row i's total at (0, 0), zero elsewhere. -/
def G (c : Dev nD) (lab : Fin 8192 → Fin 8) (sim : Fin 8 → Fin 8 → EReal) : S8x8x128.Idx → EReal :=
  fun idx => e00 (rowTot m c lab sim (idx 0)) (ix2 (idx 1) (idx 2))

/-- The output window's block index at point t = 8 i + j is (i, 0, 0). -/
theorem blockIndex : ∀ t : Fin cfg0.N, win0_5.index t (0 : Fin 3) = t.val / 8 ∧ win0_5.index t (1 : Fin 3) = 0
    ∧ win0_5.index t (2 : Fin 3) = 0 :=
  (by decide +kernel : ∀ t : Fin grid0.N, _)

/-- The accumulator after a point does not depend on how the point's number is written. -/
theorem accAt_congr (c : Dev nD) {n n' : ℕ} (h : n = n') (hn : n < cfg0.N) (hn' : n' < cfg0.N) :
    accAt m c n hn = accAt m c n' hn' := by
  subst h; rfl

/-- An index of the result array is in point t's block iff each coordinate is in the block's range on its axis. -/
theorem mem_blk (t : Fin cfg0.N) (i : S8x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_call0_v33).slice (win0_5.rect t)).set ↔ _
  rw [View.set_slice_whole, Rect.mem_set_unit]
  exact Iff.rfl

/-- What the last point of a block-row writes back is that block-row's part of G. -/
theorem flushed_eq (c : Dev nD) (lab : Fin 8192 → Fin 8) (sim : Fin 8 → Fin 8 → EReal)
    (h28 : ∀ r k, V m c main_call0_v28 (ix2 r k) = Cert.Spec.onehot lab r k)
    (h29 : ∀ r k, V m c main_call0_v29 (ix2 r k) = Cert.Spec.simrow lab sim r k)
    (h32 : ∀ r k, V m c main_call0_v32 (ix2 r k) = Cert.Spec.simrowSym lab sim r k)
    (t : Fin cfg0.N) (hf : (cfg0.win 5).flush t = true) :
    (dats m 0 c).flushed 5 t = ((cfg0.win 5).blk t).view.read (Elt Ideal) (G m c lab sim) := by
  have hN : cfg0.N = 64 := N_0
  have h7 : t.val % 8 = 7 := (flush0_5 t).mp hf
  have htlt : t.val < 64 := hN ▸ t.isLt
  obtain ⟨e0, e1, e2⟩ := blockIndex t
  show (cfg0.win 5).cut (grid0.coords t) ((dats m 0 c).after 5 t) = _
  dsimp only [dats]
  funext j
  show k0_pay4 (F := Ideal) (accAt m c t.val t.isLt) ((cfg0.win 5).xinj (grid0.coords t) j)
    = G m c lab sim (((cfg0.win 5).blk t).view.emb j)
  have hj0 : (j 0).val < 1 := (j 0).isLt
  have hj1 : (j 1).val < 8 := (j 1).isLt
  have hj2 : (j 2).val < 128 := (j 2).isLt
  let i : Fin 8 := ⟨t.val / 8, by omega⟩
  let a : Fin 1 := ⟨(j 0).val, hj0⟩
  let r : Fin 8 := ⟨(j 1).val, hj1⟩
  let cc : Fin 128 := ⟨(j 2).val, hj2⟩
  have hx : ((cfg0.win 5).xinj (grid0.coords t) j : S1x8x128.Idx) = ix3 a r cc := by
    funext b; apply Fin.ext
    match b with
    | ⟨0, _⟩ => rfl
    | ⟨1, _⟩ => rfl
    | ⟨2, _⟩ => rfl
  have hemb : (((cfg0.win 5).blk t).view.emb j : S8x8x128.Idx) = ix3 i r cc := by
    funext b; apply Fin.ext
    match b with
    | ⟨0, _⟩ => show win0_5.index t (0 : Fin 3) * 1 + 1 * (j 0).val = t.val / 8; omega
    | ⟨1, _⟩ => show win0_5.index t (1 : Fin 3) * 8 + 1 * (j 1).val = (j 1).val; omega
    | ⟨2, _⟩ => show win0_5.index t (2 : Fin 3) * 128 + 1 * (j 2).val = (j 2).val; omega
  rw [hx, pay4_apply, hemb]
  show accAt m c t.val t.isLt (ix2 r cc) = e00 (rowTot m c lab sim i) (ix2 r cc)
  have ht : t.val = 8 * i.val + 7 := by show t.val = 8 * (t.val / 8) + 7; omega
  rw [accAt_congr m c ht t.isLt (by omega), acc_final m c lab sim h28 h29 h32 i]

/-- Every index of the result array is in the block the last point of its block-row writes back. -/
theorem covered (idx : S8x8x128.Idx) :
    ∃ t : Fin cfg0.N, (cfg0.win 5).flush t = true ∧ idx ∈ ((cfg0.win 5).blk t).view.set := by
  have hN : cfg0.N = 64 := N_0
  have h0 : (idx 0).val < 8 := (idx 0).isLt
  have h1 : (idx 1).val < 8 := (idx 1).isLt
  have h2 : (idx 2).val < 128 := (idx 2).isLt
  let t : Fin cfg0.N := ⟨8 * (idx 0).val + 7, by omega⟩
  have htv : t.val = 8 * (idx 0).val + 7 := rfl
  obtain ⟨e0, e1, e2⟩ := blockIndex t
  refine ⟨t, (flush0_5 t).mpr (by omega), ?_⟩
  rw [mem_blk]
  intro b
  match b with
  | ⟨0, _⟩ =>
    show win0_5.index t (0 : Fin 3) * 1 ≤ (idx 0).val ∧ (idx 0).val < win0_5.index t (0 : Fin 3) * 1 + 1
    omega
  | ⟨1, _⟩ =>
    show win0_5.index t (1 : Fin 3) * 8 ≤ (idx 1).val ∧ (idx 1).val < win0_5.index t (1 : Fin 3) * 8 + 8
    omega
  | ⟨2, _⟩ =>
    show win0_5.index t (2 : Fin 3) * 128 ≤ (idx 2).val ∧ (idx 2).val < win0_5.index t (2 : Fin 3) * 128 + 128
    omega

/-- The result array after the run is G. -/
theorem final (c : Dev nD) (lab : Fin 8192 → Fin 8) (sim : Fin 8 → Fin 8 → EReal)
    (h28 : ∀ r k, V m c main_call0_v28 (ix2 r k) = Cert.Spec.onehot lab r k)
    (h29 : ∀ r k, V m c main_call0_v29 (ix2 r k) = Cert.Spec.simrow lab sim r k)
    (h32 : ∀ r k, V m c main_call0_v32 (ix2 r k) = Cert.Spec.simrowSym lab sim r k) :
    (dats m 0 c).arrAt 5 cfg0.N = G m c lab sim :=
  (dats m 0 c).arrAt_eq_of_cover 5 (G m c lab sim) (fun t hf => flushed_eq m c lab sim h28 h29 h32 t hf) covered

/-- The result array after the run, element by element: row i holds block-row i's total at (0, 0) and zeros. -/
theorem out_array (c : Dev nD) (lab : Fin 8192 → Fin 8) (sim : Fin 8 → Fin 8 → EReal)
    (h28 : ∀ r k, V m c main_call0_v28 (ix2 r k) = Cert.Spec.onehot lab r k)
    (h29 : ∀ r k, V m c main_call0_v29 (ix2 r k) = Cert.Spec.simrow lab sim r k)
    (h32 : ∀ r k, V m c main_call0_v32 (ix2 r k) = Cert.Spec.simrowSym lab sim r k)
    (i : Fin 8) (r : Fin 8) (cc : Fin 128) :
    (dats m 0 c).arrAt 5 cfg0.N (ix3 i r cc)
      = Cert.KernelIdeal.PayValue.e00 (Cert.Spec.rowBlockSum (fun r k => V m c main_call0_v27 (ix2 r k)) lab sim i) (ix2 r cc) := by
  rw [final m c lab sim h28 h29 h32]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ d : Fin n2, f (ix3 a b d) := by
  rw [← Equiv.sum_comp (idxEquiv3 (n0 := n0) (n1 := n1) (n2 := n2)).symm f, Fintype.sum_prod_type]
  refine Finset.sum_congr rfl fun a _ => ?_
  rw [Fintype.sum_prod_type]
  rfl

/-- A block that is s at its corner and zero elsewhere sums to s. -/
theorem sum_e00 (s : EReal) : ∑ r : Fin 8, ∑ cc : Fin 128, e00 s (ix2 r cc) = s := by
  rw [Finset.sum_eq_single (0 : Fin 8)]
  · rw [Finset.sum_eq_single (0 : Fin 128)]
    · unfold e00; rw [if_pos rfl]
    · intro cc _ hcc
      unfold e00
      rw [if_neg]
      intro h
      exact hcc (congrFun h 1)
    · intro h; exact absurd (Finset.mem_univ _) h
  · intro r _ hr
    apply Finset.sum_eq_zero
    intro cc _
    unfold e00
    rw [if_neg]
    intro h
    exact hr (congrFun h 0)
  · intro h; exact absurd (Finset.mem_univ _) h

/-- The sum of the whole result array from zero, as the host takes it after the region, is the kernel's total: the sum
    of the eight block-row totals. -/
theorem out_total (c : Dev nD) (lab : Fin 8192 → Fin 8) (sim : Fin 8 → Fin 8 → EReal)
    (h28 : ∀ r k, V m c main_call0_v28 (ix2 r k) = Cert.Spec.onehot lab r k)
    (h29 : ∀ r k, V m c main_call0_v29 (ix2 r k) = Cert.Spec.simrow lab sim r k)
    (h32 : ∀ r k, V m c main_call0_v32 (ix2 r k) = Cert.Spec.simrowSym lab sim r k) :
    (Host.reduceAdd (F := Ideal) ((dats m 0 c).arrAt 5 cfg0.N) (constant S_ .f32 0x00000000#32)
        reducesTo_S8x8x128_S_d0_1_2 h_S_) ix0
      = Cert.Spec.kerSum (fun r k => V m c main_call0_v27 (ix2 r k)) lab sim := by
  rw [final m c lab sim h28 h29 h32]
  simp only [Host.reduceAdd, Ideal.hostReduceAdd_def]
  rw [Ideal.hostReduceAdd_total reducesTo_S8x8x128_S_d0_1_2 (fun b => b.elim0)]
  rw [constant_apply, Ideal.ofBits_zero_f32, zero_add, sum_idx3 (G m c lab sim)]
  unfold Cert.Spec.kerSum
  refine Finset.sum_congr rfl fun i _ => ?_
  show ∑ r : Fin 8, ∑ cc : Fin 128, e00 (rowTot m c lab sim i) (ix2 r cc) = _
  exact sum_e00 _

end Cert.KernelIdeal.OutValue

end
-- ==== Proof.SpecIdx.lean ====
/-
  Reading the label and weight inputs as plain functions: a label word as a class number, the 8 × 8 weight array as
  a function of two class numbers.
-/
import proofs.«411099_j55954833933114_3_alg».proof.Proof.Spec
import Idealize.ShloMosaic.PureOps.Ideal
import Idealize.ShloMosaic.Lib.ValueIdx

noncomputable section

namespace Cert.Spec

open Idealize.ShloMosaic Idealize.ShloMosaic.ValueIdx

/-- A label word as a class number (the word's value when it lies in the label range). -/
def labOf (l : IVec (⟨1, ![8192]⟩ : Shape) 32) (r : Fin 8192) : Fin 8 := ⟨(l (ix1 r)).toNat % 8, Nat.mod_lt _ (by decide)⟩

/-- The weight array as a function of two class numbers. -/
def simOf (s : FVec Ideal (⟨2, ![8, 8]⟩ : Shape) .f32) (a b : Fin 8) : EReal := s (ix2 a b)

/-- A label word in the label range is its class number. -/
theorem labOf_val (l : IVec (⟨1, ![8192]⟩ : Shape) 32) (r : Fin 8192)
    (h : 0 ≤ (l (ix1 r)).toInt ∧ (l (ix1 r)).toInt < 8) : ((labOf l r).val : Int) = (l (ix1 r)).toInt := by
  have h0 := h.1; have h8 := h.2
  have hlt : (l (ix1 r)).toNat < 2 ^ 32 := (l (ix1 r)).isLt
  have htoInt : (l (ix1 r)).toInt = ((l (ix1 r)).toNat : Int) := by
    rw [BitVec.toInt_eq_toNat_cond]
    split
    · rfl
    · rename_i hh
      rw [BitVec.toInt_eq_toNat_cond, if_neg hh] at h0
      omega
  rw [htoInt] at h0 h8 ⊢
  show (((l (ix1 r)).toNat % 8 : Nat) : Int) = _
  have : (l (ix1 r)).toNat < 8 := by omega
  rw [Nat.mod_eq_of_lt this]

end Cert.Spec

end
-- ==== Proof.KIHostW.lean ====
/-
  The one-hot rows and their two products with the class-pair weight matrix, as the host operations before the
  kernel region leave them.

  Row `r` of the one-hot array compares the label word of row `r`, laid along the 8 columns, with the column number:
  entry `(r, k)` is 1 where the word is `k` and 0 elsewhere. With the label words in the label range `0 … 7` that is
  the one-hot row of the class number. The first product contracts the one-hot row with the weight matrix's rows,
  `Σ_k' onehot r k' · sim k' k`; the second does the same with the symmetrised matrix `sim + simᵀ`, whose entry at
  `(k', k)` is `sim k' k + sim k k'`.
-/
import proofs.«411099_j55954833933114_3_alg».proof.Proof.KIKit
import proofs.«411099_j55954833933114_3_alg».proof.Proof.SpecIdx
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.HostValue

open Cert.KernelIdeal Cert.KernelIdeal.Gen Cert.KernelIdeal.Hand
open Idealize.ShloMosaic Idealize.ShloMosaic.TcCoe Idealize.ShloMosaic.StableHlo Idealize.ShloMosaic.ValueIdx
open Idealize.ShloMosaic.StableHlo.Predicate (cmpi_eq_iff toInt_ofNat_small)
open scoped BigOperators

/-! ## The operations' terms -/

/-- The one-hot array as the operations compute it from the label words: the words laid along the columns, compared
    with the column numbers, the comparison's bit as a number. -/
def ohTerm (l : IVec S8192 32) : FVec Ideal S8192x8 .f32 :=
  uitofp (F := Ideal) .f32 (cmpi .eq
    (broadcastInDim S8192x8 ![0, 1] bcast_S8192x1_S8192x8_0_1 (broadcastInDim S8192x1 ![0] bcast_S8192_S8192x1_0 l))
    (broadcastInDim S8192x8 ![0, 1] bcast_S1x8_S8192x8_0_1 (iotaInDim S1x8 32 1)))

/-- The symmetrised weights as the operations compute them: the matrix plus its transpose. -/
def symTerm (s : FVec Ideal S8x8 .f32) : FVec Ideal S8x8 .f32 :=
  addf s (transpose S8x8 [1, 0] s transposes_S8x8_S8x8_1_0)

/-! ## Reading the terms at an index -/

/-- The label words laid along the columns read, at `(r, k)`, row `r`'s word. -/
theorem bcastLab_apply (l : IVec S8192 32) (r : Fin 8192) (k : Fin 8) :
    broadcastInDim S8192x8 ![0, 1] bcast_S8192x1_S8192x8_0_1 (broadcastInDim S8192x1 ![0] bcast_S8192_S8192x1_0 l) (ix2 r k)
      = l (ix1 r) := by
  refine (broadcastInDim_apply _ bcast_S8192x1_S8192x8_0_1 _ (ix2 r k) (ix2 r (0 : Fin 1)) (fun a => ?_)).trans ?_
  · match a with
    | ⟨0, _⟩ => show r.val = if (8192 : Nat) = 1 then 0 else r.val; rw [if_neg (by decide)]
    | ⟨1, _⟩ => show (0 : Nat) = if (1 : Nat) = 1 then 0 else k.val; rw [if_pos rfl]
  · exact broadcastInDim_apply _ bcast_S8192_S8192x1_0 l (ix2 r (0 : Fin 1)) (ix1 r) (fun a => match a with
      | ⟨0, _⟩ => by show r.val = if (8192 : Nat) = 1 then 0 else r.val; rw [if_neg (by decide)])

/-- The column numbers laid down the rows read, at `(r, k)`, the word of `k`. -/
theorem bcastIota_apply (r : Fin 8192) (k : Fin 8) :
    broadcastInDim S8192x8 ![0, 1] bcast_S1x8_S8192x8_0_1 (iotaInDim S1x8 32 1) (ix2 r k) = BitVec.ofNat 32 k.val := by
  refine (broadcastInDim_apply _ bcast_S1x8_S8192x8_0_1 _ (ix2 r k) (ix2 (0 : Fin 1) k) (fun a => ?_)).trans rfl
  match a with
  | ⟨0, _⟩ => show (0 : Nat) = if (1 : Nat) = 1 then 0 else r.val; rw [if_pos rfl]
  | ⟨1, _⟩ => show k.val = if (8 : Nat) = 1 then 0 else k.val; rw [if_neg (by decide)]

/-- A label word in the label range is the word of `k` exactly when its class number is `k`. -/
theorem word_eq_iff (l : IVec S8192 32) (r : Fin 8192) (h : 0 ≤ (l (ix1 r)).toInt ∧ (l (ix1 r)).toInt < 8) (k : Fin 8) :
    l (ix1 r) = BitVec.ofNat 32 k.val ↔ Cert.Spec.labOf l r = k := by
  have hv := Cert.Spec.labOf_val l r h
  have hk : (BitVec.ofNat 32 k.val).toInt = (k.val : Int) := toInt_ofNat_small k.val (by have := k.isLt; omega)
  constructor
  · intro e
    apply Fin.ext
    have : ((Cert.Spec.labOf l r).val : Int) = (k.val : Int) := by rw [hv, e, hk]
    exact_mod_cast this
  · intro e
    apply BitVec.eq_of_toInt_eq
    rw [← hv, e, hk]

/-- The one-hot array at `(r, k)`, the label words in range: the one-hot row of row `r`'s class number. -/
theorem ohTerm_apply (l : IVec S8192 32) (hl : ∀ r : Fin 8192, 0 ≤ (l (ix1 r)).toInt ∧ (l (ix1 r)).toInt < 8)
    (r : Fin 8192) (k : Fin 8) : ohTerm l (ix2 r k) = Cert.Spec.onehot (Cert.Spec.labOf l) r k := by
  show FloatOps.uitofp (F := Ideal) .f32 (IntOp.cmpi .eq
      (broadcastInDim S8192x8 ![0, 1] bcast_S8192x1_S8192x8_0_1 (broadcastInDim S8192x1 ![0] bcast_S8192_S8192x1_0 l) (ix2 r k))
      (broadcastInDim S8192x8 ![0, 1] bcast_S1x8_S8192x8_0_1 (iotaInDim S1x8 32 1) (ix2 r k))) = _
  rw [bcastLab_apply, bcastIota_apply]
  unfold Cert.Spec.onehot
  by_cases e : Cert.Spec.labOf l r = k
  · rw [if_pos e, cmpi_eq_iff.2 ((word_eq_iff l r (hl r) k).2 e)]
    show (((1#1 : BitVec 1).toNat : ℝ) : EReal) = 1
    simp
  · rw [if_neg e, eq_zero_of_ne_one fun h => e ((word_eq_iff l r (hl r) k).1 (cmpi_eq_iff.1 h))]
    show (((0#1 : BitVec 1).toNat : ℝ) : EReal) = 0
    simp

/-! ### The contraction: a row of the left operand against a column of the right -/

/-- The left operand's index at output index `i` and contraction index `q`: `i`'s row, `q`'s one coordinate as the column. -/
theorem lhs_dot_0 (i : S8192x8.Idx) (q : dot_S8192x8_S8x8_S8192x8_1_0_0_1_n_n.contr.Idx) :
    (dot_S8192x8_S8x8_S8192x8_1_0_0_1_n_n.lhsIdx i q 0).val = (i 0).val := by
  unfold DotDims.lhsIdx
  rw [dif_neg (show ¬(0 : Fin S8192x8.rank) ∈ dot_S8192x8_S8x8_S8192x8_1_0_0_1_n_n.lhsBatch by decide), dif_pos (show (0 : Fin S8192x8.rank) ∈ dot_S8192x8_S8x8_S8192x8_1_0_0_1_n_n.lhsNonContracting by decide)]
  rfl
theorem lhs_dot_1 (i : S8192x8.Idx) (q : dot_S8192x8_S8x8_S8192x8_1_0_0_1_n_n.contr.Idx) :
    (dot_S8192x8_S8x8_S8192x8_1_0_0_1_n_n.lhsIdx i q 1).val = (q ⟨0, by decide⟩).val :=
  dot_S8192x8_S8x8_S8192x8_1_0_0_1_n_n.lhsIdx_val_of_single rfl i q
/-- The right operand's index: `q`'s one coordinate as the row, `i`'s column. -/
theorem rhs_dot_0 (i : S8192x8.Idx) (q : dot_S8192x8_S8x8_S8192x8_1_0_0_1_n_n.contr.Idx) :
    (dot_S8192x8_S8x8_S8192x8_1_0_0_1_n_n.rhsIdx i q 0).val = (q ⟨0, by decide⟩).val :=
  dot_S8192x8_S8x8_S8192x8_1_0_0_1_n_n.rhsIdx_val_of_single rfl i q
theorem rhs_dot_1 (i : S8192x8.Idx) (q : dot_S8192x8_S8x8_S8192x8_1_0_0_1_n_n.contr.Idx) :
    (dot_S8192x8_S8x8_S8192x8_1_0_0_1_n_n.rhsIdx i q 1).val = (i 1).val := by
  unfold DotDims.rhsIdx
  rw [dif_neg (show ¬(1 : Fin S8x8.rank) ∈ dot_S8192x8_S8x8_S8192x8_1_0_0_1_n_n.rhsBatch by decide), dif_pos (show (1 : Fin S8x8.rank) ∈ dot_S8192x8_S8x8_S8192x8_1_0_0_1_n_n.rhsNonContracting by decide)]
  rfl

/-- The product at `(r, k)`: row `r` of the left operand against column `k` of the right. -/
theorem dot_apply (x : FVec Ideal S8192x8 .f32) (y : FVec Ideal S8x8 .f32) (r : Fin 8192) (k : Fin 8) :
    Host.dotGeneral (F := Ideal) dot_S8192x8_S8x8_S8192x8_1_0_0_1_n_n none x y (ix2 r k)
      = ∑ k' : Fin 8, x (ix2 r k') * y (ix2 k' k) := by
  simp only [Host.dotGeneral]
  rw [Ideal.dotGeneral_apply, ← Equiv.sum_comp (ValueIdx.contrEquiv1 dot_S8192x8_S8x8_S8192x8_1_0_0_1_n_n 8 rfl rfl).symm]
  refine Finset.sum_congr rfl fun k' _ => ?_
  have hk := ValueIdx.contrEquiv1_symm_val dot_S8192x8_S8x8_S8192x8_1_0_0_1_n_n 8 rfl rfl k'
  have el : dot_S8192x8_S8x8_S8192x8_1_0_0_1_n_n.lhsIdx (ix2 r k) ((ValueIdx.contrEquiv1 dot_S8192x8_S8x8_S8192x8_1_0_0_1_n_n 8 rfl rfl).symm k') = ix2 r k' := funext fun a => Fin.ext (by
    match a with
    | ⟨0, _⟩ => exact lhs_dot_0 _ _
    | ⟨1, _⟩ => exact (lhs_dot_1 _ _).trans hk)
  have er : dot_S8192x8_S8x8_S8192x8_1_0_0_1_n_n.rhsIdx (ix2 r k) ((ValueIdx.contrEquiv1 dot_S8192x8_S8x8_S8192x8_1_0_0_1_n_n 8 rfl rfl).symm k') = ix2 k' k := funext fun a => Fin.ext (by
    match a with
    | ⟨0, _⟩ => exact (rhs_dot_0 _ _).trans hk
    | ⟨1, _⟩ => exact rhs_dot_1 _ _)
  rw [el, er]

/-- The symmetrised matrix at `(a, b)`: the entry plus its mirror. -/
theorem symTerm_apply (s : FVec Ideal S8x8 .f32) (a b : Fin 8) : symTerm s (ix2 a b) = s (ix2 a b) + s (ix2 b a) := by
  show s (ix2 a b) + transpose S8x8 [1, 0] s transposes_S8x8_S8x8_1_0 (ix2 a b) = _
  rw [transpose_apply [1, 0] s transposes_S8x8_S8x8_1_0 (ix2 a b) (ix2 b a) (fun d => match d with
    | ⟨0, _⟩ => rfl
    | ⟨1, _⟩ => rfl)]

/-- The one-hot array contracted with a matrix, at `(r, k)`: the matrix's row of row `r`'s class, at column `k`. -/
theorem dot_onehot_apply (l : IVec S8192 32) (hl : ∀ r : Fin 8192, 0 ≤ (l (ix1 r)).toInt ∧ (l (ix1 r)).toInt < 8)
    (s : FVec Ideal S8x8 .f32) (r : Fin 8192) (k : Fin 8) :
    Host.dotGeneral (F := Ideal) dot_S8192x8_S8x8_S8192x8_1_0_0_1_n_n none (ohTerm l) s (ix2 r k)
      = Cert.Spec.simrow (Cert.Spec.labOf l) (Cert.Spec.simOf s) r k := by
  rw [dot_apply]
  unfold Cert.Spec.simrow
  exact Finset.sum_congr rfl fun k' _ => congrArg (· * s (ix2 k' k)) (ohTerm_apply l hl r k')

/-- The same with the symmetrised matrix: the entry plus its mirror in place of the entry. -/
theorem dot_onehot_sym_apply (l : IVec S8192 32) (hl : ∀ r : Fin 8192, 0 ≤ (l (ix1 r)).toInt ∧ (l (ix1 r)).toInt < 8)
    (s : FVec Ideal S8x8 .f32) (r : Fin 8192) (k : Fin 8) :
    Host.dotGeneral (F := Ideal) dot_S8192x8_S8x8_S8192x8_1_0_0_1_n_n none (ohTerm l) (symTerm s) (ix2 r k)
      = Cert.Spec.simrowSym (Cert.Spec.labOf l) (Cert.Spec.simOf s) r k := by
  rw [dot_apply]
  unfold Cert.Spec.simrowSym
  exact Finset.sum_congr rfl fun k' _ => congrArg₂ (· * ·) (ohTerm_apply l hl r k') (symTerm_apply s k' k)

/-! ## The buffers when the region is entered -/

variable (m : (ℓ : Loc nD τ sig) → Buf (Elt Ideal) ℓ)

/-- The one-hot buffer when the region is entered. -/
theorem V_v28_eq (c : Dev nD) :
    (V m c main_call0_v28 : S8192x8.Idx → EReal) = ohTerm (m ((c.tc : Thread nD τ).loc main_arg1)) := by
  show StableHlo.after hostOps0 (fun b => m (c, b)) (Proc.devRef .tc main_call0_v28) = _
  after_results_simp
  rfl

/-- The first product's buffer: the one-hot array contracted with the weight matrix. -/
theorem V_v29_eq (c : Dev nD) :
    (V m c main_call0_v29 : S8192x8.Idx → EReal)
      = Host.dotGeneral (F := Ideal) (φ₂ := .f32) dot_S8192x8_S8x8_S8192x8_1_0_0_1_n_n none (ohTerm (m ((c.tc : Thread nD τ).loc main_arg1)))
          (m ((c.tc : Thread nD τ).loc main_arg3) : FVec Ideal S8x8 .f32) := by
  show StableHlo.after hostOps0 (fun b => m (c, b)) (Proc.devRef .tc main_call0_v29) = _
  after_results_simp
  rfl

/-- The second product's buffer: the one-hot array contracted with the symmetrised matrix. -/
theorem V_v32_eq (c : Dev nD) :
    (V m c main_call0_v32 : S8192x8.Idx → EReal)
      = Host.dotGeneral (F := Ideal) (φ₂ := .f32) dot_S8192x8_S8x8_S8192x8_1_0_0_1_n_n none (ohTerm (m ((c.tc : Thread nD τ).loc main_arg1)))
          (symTerm (m ((c.tc : Thread nD τ).loc main_arg3))) := by
  show StableHlo.after hostOps0 (fun b => m (c, b)) (Proc.devRef .tc main_call0_v32) = _
  after_results_simp
  rfl

/-! ## The three buffers at an index -/

/-- The one-hot buffer at `(r, k)`, the label words in range: the one-hot row of row `r`'s class number. -/
theorem V_onehot (c : Dev nD)
    (hl : ∀ r : Fin 8192, 0 ≤ ((m ((c.tc : Thread nD τ).loc main_arg1) : IVec S8192 32) (ix1 r)).toInt
      ∧ ((m ((c.tc : Thread nD τ).loc main_arg1) : IVec S8192 32) (ix1 r)).toInt < 8)
    (r : Fin 8192) (k : Fin 8) :
    (V m c main_call0_v28 : S8192x8.Idx → EReal) (ix2 r k)
      = Cert.Spec.onehot (Cert.Spec.labOf (m ((c.tc : Thread nD τ).loc main_arg1))) r k :=
  (congrFun (V_v28_eq m c) (ix2 r k)).trans (ohTerm_apply _ hl r k)

/-- The first product's buffer at `(r, k)`: the weight matrix's row of row `r`'s class, at column `k`. -/
theorem V_simrow (c : Dev nD)
    (hl : ∀ r : Fin 8192, 0 ≤ ((m ((c.tc : Thread nD τ).loc main_arg1) : IVec S8192 32) (ix1 r)).toInt
      ∧ ((m ((c.tc : Thread nD τ).loc main_arg1) : IVec S8192 32) (ix1 r)).toInt < 8)
    (r : Fin 8192) (k : Fin 8) :
    (V m c main_call0_v29 : S8192x8.Idx → EReal) (ix2 r k)
      = Cert.Spec.simrow (Cert.Spec.labOf (m ((c.tc : Thread nD τ).loc main_arg1)))
          (Cert.Spec.simOf (m ((c.tc : Thread nD τ).loc main_arg3))) r k :=
  (congrFun (V_v29_eq m c) (ix2 r k)).trans (dot_onehot_apply _ hl _ r k)

/-- The second product's buffer at `(r, k)`: the same with the symmetrised weights. -/
theorem V_simrowSym (c : Dev nD)
    (hl : ∀ r : Fin 8192, 0 ≤ ((m ((c.tc : Thread nD τ).loc main_arg1) : IVec S8192 32) (ix1 r)).toInt
      ∧ ((m ((c.tc : Thread nD τ).loc main_arg1) : IVec S8192 32) (ix1 r)).toInt < 8)
    (r : Fin 8192) (k : Fin 8) :
    (V m c main_call0_v32 : S8192x8.Idx → EReal) (ix2 r k)
      = Cert.Spec.simrowSym (Cert.Spec.labOf (m ((c.tc : Thread nD τ).loc main_arg1)))
          (Cert.Spec.simOf (m ((c.tc : Thread nD τ).loc main_arg3))) r k :=
  (congrFun (V_v32_eq m c) (ix2 r k)).trans (dot_onehot_sym_apply _ hl _ r k)

end Cert.KernelIdeal.HostValue

end
-- ==== Proof.LibGatherRows.lean ====
/-
  THE HOST'S GATHER OF WHOLE ROWS READ AT AN INDEX: operand [P, C], start indices [N, 1] with the index vector on
  axis 1, result [N, C]; offset axes [1], collapsed slice axes [0], start index map [0], slice sizes [1, C], no
  batching axes. Result element (n, ch) is the operand at row idx[n, 0], read signed and clamped into [0, P - 1], and
  column ch. The extents and the index width are variables; the dimension numbers are known only through the
  equations on their lists.
-/
import Idealize.ShloMosaic.PureOps.ShapeOps
import Idealize.ShloMosaic.Lib.ValueIdx

namespace Idealize.ShloMosaic.GatherRows

open Idealize.ShloMosaic Idealize.ShloMosaic.ValueIdx

/-! ## A list with one entry -/

/-- Every entry of a list that equals a one-entry list is that entry. -/
theorem getElem_singleton_of_eq {α : Type} {l : List α} {a : α} (h : l = [a]) (k : Nat) (hk : k < l.length) :
    l[k] = a := by
  subst h
  have hk0 : k = 0 := by simpa using hk
  subst hk0
  rfl

/-! ## The general gather: the start-indices index of a result index, axis by axis -/

section General
variable {s si t : Shape} (d : GatherDims s si t)

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- With one result batch axis a, the start-indices index has, off the index vector's axis, the result index's
    coordinate on a. -/
theorem siIdx_val_of_ne (j : t.Idx) (c : Fin d.startIndexMap.length) (b : Fin si.rank)
    (hb : ¬ b.val = d.indexVectorDim) (a : Fin t.rank) (ha : d.batchDims = [a]) :
    (d.siIdx j c b).val = (j a).val := by
  unfold GatherDims.siIdx
  rw [dif_neg hb]
  unfold GatherDims.siCoord
  exact congrArg (fun e => (j e).val) (getElem_singleton_of_eq ha _ _)

/-- With one offset axis b, the offset coordinate on a kept operand axis is the result index's coordinate on b. -/
theorem offCoord_of_singleton (j : t.Idx) (a : Fin s.rank) (ha : a ∈ d.sKept) (b : Fin t.rank)
    (hb : d.offsetDims = [b]) : d.offCoord j a = (j b).val := by
  unfold GatherDims.offCoord
  rw [dif_pos ha]
  exact congrArg (fun e => (j e).val) (getElem_singleton_of_eq hb _ _)

end General

/-! ## Operand [P, C], start indices [N, 1], result [N, C] -/

/-- THE GATHER READ AT (n, ch): the operand at the clamped start row and the same column. -/
theorem gather_rows_apply {α : Type} {P C N w : Nat} (hP : 0 < P)
    (d : GatherDims (⟨2, ![P, C]⟩ : Shape) (⟨2, ![N, 1]⟩ : Shape) (⟨2, ![N, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  -- no operand axis is a batching axis
  have hnb : ∀ a : Fin 2, a ∉ d.operandBatchingDims := fun a h => by rw [hob] at h; exact List.not_mem_nil h
  -- axis 0 is the one start axis and is collapsed; axis 1 is the one kept axis
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's one batch axis is axis 0
  have hbd : d.batchDims = [0] := by
    show Shape.kept _ d.offsetDims = [0]
    rw [hod]; rfl
  -- the start-indices index of (n, ch) is [n, 0], whatever the component
  have hsi : ∀ c : Fin d.startIndexMap.length, d.siIdx (ix2 n ch) c = ix2 n (0 : Fin 1) := by
    intro c
    funext b
    refine Fin.ext ?_
    match b with
    | ⟨0, hb⟩ =>
      rw [siIdx_val_of_ne d (ix2 n ch) c ⟨0, hb⟩ (by rw [hiv]; exact Nat.zero_ne_one) 0 hbd]
      rfl
    | ⟨1, hb⟩ =>
      have h1 : (d.siIdx (ix2 n ch) c ⟨1, hb⟩).val < 1 := (d.siIdx (ix2 n ch) c ⟨1, hb⟩).isLt
      show (d.siIdx (ix2 n ch) c ⟨1, hb⟩).val = 0
      omega
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl
  | ⟨1, _⟩ =>
    show d.start (ix2 n ch) idx 1 + d.batchCoord (ix2 n ch) 1 + d.offCoord (ix2 n ch) 1 = ch.val
    rw [d.batchCoord_eq_zero _ _ (hnb 1), offCoord_of_singleton d _ _ h1k 1 hod]
    simp only [Nat.add_zero]
    unfold GatherDims.start
    rw [dif_neg h1nmem, Nat.zero_add]
    rfl

end Idealize.ShloMosaic.GatherRows
-- ==== Proof.LibGatherCols.lean ====
/-
  THE HOST'S GATHER OF WHOLE COLUMNS READ AT AN INDEX.

  Picking columns of a matrix by a list of column numbers, x[:, idx] with x : [B, K] and idx : [N], lowers to a gather
  whose start indices are the [N, 1] column of idx with the index vector on axis 1, offset axes [0], collapsed slice
  axes [1], start index map [1], no batching axes and slices of one column. Result element (b, n) is x at row b and at
  the column idx[n, 0] read signed and clamped into [0, K - 1], as the gather clamps every start index.

  The extents B, K, N and the index width w are variables: nothing here evaluates a size. The dimension numbers are
  known only through the equations on their lists.
-/
import Idealize.ShloMosaic.PureOps.Ideal
import Idealize.ShloMosaic.Lib.ValueIdx

noncomputable section

namespace Idealize.ShloMosaic.GatherCols

open Idealize.ShloMosaic Idealize.ShloMosaic.ValueIdx

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

section Cols
variable {α : Type} {B K N w : Nat}
variable (d : GatherDims (⟨2, ![B, K]⟩ : Shape) (⟨2, ![N, 1]⟩ : Shape) (⟨2, ![B, N]⟩ : Shape))

/-- With the index vector on axis 1 and the one batch axis of the result its axis 1, result index (b, n) reads its
    start index at [n, 0]. -/
theorem siIdx_cols (hod : d.offsetDims = [0]) (hiv : d.indexVectorDim = 1) (b : Fin B) (n : Fin N)
    (c : Fin d.startIndexMap.length) : d.siIdx (ix2 b n) c = ix2 n (0 : Fin 1) := by
  have hbd : d.batchDims = [1] := by
    show Shape.kept _ d.offsetDims = [1]
    rw [hod]; rfl
  funext a
  refine Fin.ext ?_
  match a with
  | ⟨0, ha⟩ =>
    have hne : ¬ (⟨0, ha⟩ : Fin 2).val = d.indexVectorDim := by rw [hiv]; exact Nat.zero_ne_one
    show (d.siIdx (ix2 b n) c ⟨0, ha⟩).val = n.val
    unfold GatherDims.siIdx
    rw [dif_neg hne]
    unfold GatherDims.siCoord
    exact congrArg (fun e => ((ix2 b n : (⟨2, ![B, N]⟩ : Shape).Idx) e).val) (getElem_of_eq_singleton hbd _ _)
  | ⟨1, ha⟩ =>
    have h1 : (d.siIdx (ix2 b n) c ⟨1, ha⟩).val < 1 := (d.siIdx (ix2 b n) c ⟨1, ha⟩).isLt
    show (d.siIdx (ix2 b n) c ⟨1, ha⟩).val = 0
    omega

/-- THE GATHER READ AT (b, n): row b of the operand at the column the n-th start index names, read signed and clamped
    into [0, K - 1]. -/
theorem gather_cols_apply (hK : 0 < K)
    (hod : d.offsetDims = [0]) (hcs : d.collapsedSliceDims = [1]) (hob : d.operandBatchingDims = [])
    (hsm : d.startIndexMap = [1]) (hiv : d.indexVectorDim = 1)
    (x : (⟨2, ![B, K]⟩ : Shape).Idx → α) (idx : IVec (⟨2, ![N, 1]⟩ : Shape) w) (b : Fin B) (n : Fin N) :
    Host.gather d x idx (ix2 b n)
      = x (ix2 b ⟨min (idx (ix2 n (0 : Fin 1))).toInt.toNat (K - 1), by omega⟩) := by
  have h10 : ¬ (1 : Fin 2) = 0 := fun h => absurd (congrArg Fin.val h) Nat.one_ne_zero
  have h01 : ¬ (0 : Fin 2) = 1 := fun h => absurd (congrArg Fin.val h) Nat.zero_ne_one
  have hnb : ∀ a : Fin 2, a ∉ d.operandBatchingDims := fun a => by rw [hob]; exact List.not_mem_nil
  have hsk : d.sKept = [0] := by
    show Shape.kept _ (d.collapsedSliceDims ++ d.operandBatchingDims) = [0]
    rw [hcs, hob]; rfl
  unfold Host.gather
  congr 1
  funext a
  refine Fin.ext ?_
  show d.start (ix2 b n) idx a + d.batchCoord (ix2 b n) a + d.offCoord (ix2 b n) a = _
  rw [d.batchCoord_eq_zero _ _ (hnb a), Nat.add_zero]
  match a with
  | ⟨0, ha⟩ =>
    have hns : (⟨0, ha⟩ : Fin 2) ∉ d.startIndexMap := by
      rw [hsm]; exact fun h => h01 (List.mem_singleton.1 h)
    have hk0 : (⟨0, ha⟩ : Fin 2) ∈ d.sKept := by rw [hsk]; exact List.mem_singleton.2 rfl
    have hst : d.start (ix2 b n) idx ⟨0, ha⟩ = 0 := by
      unfold GatherDims.start
      rw [dif_neg hns]
    have hoff : d.offCoord (ix2 b n) ⟨0, ha⟩ = b.val := by
      unfold GatherDims.offCoord
      rw [dif_pos hk0]
      exact congrArg (fun e => ((ix2 b n : (⟨2, ![B, N]⟩ : Shape).Idx) e).val) (getElem_of_eq_singleton hod _ _)
    rw [hst, hoff, Nat.zero_add]
  | ⟨1, ha⟩ =>
    have hs : (⟨1, ha⟩ : Fin 2) ∈ d.startIndexMap := by rw [hsm]; exact List.mem_singleton.2 rfl
    have hc : (⟨1, ha⟩ : Fin 2) ∈ d.collapsedSliceDims := by rw [hcs]; exact List.mem_singleton.2 rfl
    have hnk : (⟨1, ha⟩ : Fin 2) ∉ d.sKept := fun h => ((d.mem_sKept _).1 h).1 hc
    have hsl : d.sliceSizes ⟨1, ha⟩ = 1 := d.slice_collapsed _ hc
    have hst : d.start (ix2 b n) idx ⟨1, ha⟩ = min (idx (ix2 n (0 : Fin 1))).toInt.toNat (K - 1) := by
      unfold GatherDims.start
      rw [dif_pos hs, siIdx_cols d hod hiv b n, hsl]
      rfl
    rw [hst, d.offCoord_eq_zero _ _ hnk, Nat.add_zero]

end Cols

end Idealize.ShloMosaic.GatherCols

end
-- ==== Proof.RefPair.lean ====
/-
  The reference's pairwise term, read entry by entry.

  The reference normalises the rows of the feature matrix (fn = x / max (‖x‖, eps)), forms every inner product
  cos (r, c) = Σ_k fn r k · fn c k, picks the class-pair weight w (r, c) = sim (lab r) (lab c) by two lookups (rows of
  sim by the row's label, then columns of that by the column's label), masks the diagonal by 1 − [r = c], and sums
  w (r, c) · max (1 − cos (r, c)) 0 · (1 − [r = c]) over all ordered pairs. Each stage below is that sentence at one
  index; the last theorem is the whole sum. A label is a 32-bit word read signed; for a label in [0, 8) the wrap
  "l < 0 ? l + 8 : l" leaves it alone and the lookup's clamp into [0, 7] is the label itself.
-/
import proofs.«411099_j55954833933114_3_alg».proof.Proof.RefRead
import proofs.«411099_j55954833933114_3_alg».proof.Proof.SpecIdx
import proofs.«411099_j55954833933114_3_alg».proof.Proof.LibGatherRows
import proofs.«411099_j55954833933114_3_alg».proof.Proof.LibGatherCols
import Idealize.ShloMosaic.Lib.IdealHost
import Idealize.ShloMosaic.Lib.StableHlo.Predicate

noncomputable section

namespace Cert.ReferenceIdeal.RefValue

open Idealize.ShloMosaic Idealize.ShloMosaic.ValueIdx Cert.ReferenceIdeal Cert.ReferenceIdeal.ReadP
open scoped BigOperators

/-! ## Words: a label in [0, 8), and the diagonal's bit -/

/-- A 32-bit word whose signed value lies in [0, 8) has that value unsigned too. -/
theorem word_range {w : BitVec 32} (h0 : 0 ≤ w.toInt) (h8 : w.toInt < 8) :
    w.toNat < 8 ∧ w.toInt = (w.toNat : Int) := by
  have h1 := w.isLt
  rw [BitVec.toInt_eq_toNat_cond] at h0 h8 ⊢
  split_ifs at h0 h8 ⊢ <;> omega

/-- The wrap "w < 0 ? w + 8 : w" of a word that is not negative is the word. -/
theorem wrap_eq {w : BitVec 32} (h0 : 0 ≤ w.toInt) :
    Scalar.select (IntOp.cmpi .slt w 0#32) (IntOp.addi w 8#32) w = w := by
  have hc : IntOp.cmpi .slt w 0#32 = 0#1 := by
    unfold IntOp.cmpi
    have : w.slt 0#32 = false := by
      simp only [BitVec.slt, BitVec.toInt_zero, decide_eq_false_iff_not, not_lt]
      exact h0
    rw [this]; rfl
  rw [hc]; exact select_zero _ _

/-- Clamping a label in [0, 8) into [0, 7] gives the label, which is also its residue mod 8. -/
theorem clamp_eq {w : BitVec 32} (h0 : 0 ≤ w.toInt) (h8 : w.toInt < 8) :
    min w.toInt.toNat (8 - 1) = w.toNat % 8 := by
  obtain ⟨hlt, he⟩ := word_range h0 h8
  rw [he, Int.toNat_natCast]
  omega

/-- A one-bit word converted to a float is 1 for the bit 1 and 0 for the bit 0. -/
theorem uitofp_bit (b : BitVec 1) :
    (FloatOps.uitofp (F := Ideal) .f32 b) = if b = 1#1 then (1 : EReal) else 0 := by
  rcases BitVec.eq_zero_or_eq_one b with h | h
  · subst h
    show (((0#1 : BitVec 1).toNat : ℝ) : EReal) = _
    simp
  · subst h
    show (((1#1 : BitVec 1).toNat : ℝ) : EReal) = _
    simp

/-- The comparison "row number + 0 = column number" of two numbers below 8192, as 32-bit words, holds exactly on the
    diagonal. -/
theorem diag_bit (r c : Fin 8192) :
    IntOp.cmpi .eq (IntOp.addi (BitVec.ofNat 32 r.val) 0#32) (BitVec.ofNat 32 c.val) = 1#1 ↔ r = c := by
  rw [StableHlo.Predicate.cmpi_eq_iff]
  unfold IntOp.addi
  rw [BitVec.add_zero]
  constructor
  · intro h
    have := congrArg BitVec.toNat h
    simp only [BitVec.toNat_ofNat] at this
    have hr := r.isLt; have hc := c.isLt
    exact Fin.ext (by omega)
  · intro h; rw [h]

/-! ## The vocabulary: the normalised rows (labels as class numbers and the weight matrix are the specification's) -/

/-- The normalised rows as the reference computes them, entry by entry. -/
def fnOf (x : FVec Ideal S8192x1024 .f32) (r : Fin 8192) (k : Fin 1024) : EReal :=
  val_main_v23 (F := Ideal) x (ix2 r k)

/-! ## The stages at an index -/

/-- The matrix of inner products: entry (r, c) is Σ_k fn r k · fn c k, the second factor read through the transpose. -/
theorem cos_apply (x : FVec Ideal S8192x1024 .f32) (r c : Fin 8192) :
    val_main_v25 (F := Ideal) x (ix2 r c) = Cert.Spec.cosv (fnOf x) r c := by
  rw [val_main_v25_apply]
  unfold Cert.Spec.cosv fnOf
  refine Finset.sum_congr rfl fun k _ => ?_
  rw [val_main_v24_apply]
  have el : lidx_main_v25 (ix2 r c) k = ix2 r k :=
    funext fun a => Fin.ext (by match a with | ⟨0, _⟩ => rfl | ⟨1, _⟩ => rfl)
  have er : idx_main_v24 (ridx_main_v25 (ix2 r c) k) = ix2 c k :=
    funext fun a => Fin.ext (by match a with | ⟨0, _⟩ => rfl | ⟨1, _⟩ => rfl)
  rw [el, er]

/-- The hinge: entry (r, c) is max (1 − cos (r, c)) 0. -/
theorem hinge_apply (x : FVec Ideal S8192x1024 .f32) (r c : Fin 8192) :
    val_main_v50 (F := Ideal) x (ix2 r c) = Cert.Spec.hinge (fnOf x) r c := by
  rw [val_main_v50_apply, val_main_v49_apply, val_main_v48_apply, val_main_cst_12_apply, val_main_call3_v0_apply,
    val_main_call3_cst_apply, cos_apply]
  simp only [Ideal.maximumf_def, Ideal.subf_def, Ideal.ofBits_def, Ideal.ofBits_one_f32, Ideal.ofBits_zero_f32]
  rfl

/-- The wrapped label column used for the rows' lookup: for a label that is not negative, the label. -/
theorem wrap_rows (l : IVec S8192 32) (r : Fin 8192) (h0 : 0 ≤ (l (ix1 r)).toInt) :
    val_main_v31 (F := Ideal) l (ix2 r (0 : Fin 1)) = l (ix1 r) := by
  have e : idx_main_v31 (ix2 r (0 : Fin 1)) = ix1 r :=
    funext fun a => Fin.ext (by match a with | ⟨0, _⟩ => rfl)
  rw [val_main_v31_apply, e, val_main_v30_apply, val_main_v27_apply, val_main_v29_apply, val_main_v26_apply,
    val_main_v28_apply, val_main_c_6_apply, val_main_c_7_apply]
  exact wrap_eq h0

/-- The wrapped label column used for the columns' lookup: the same. -/
theorem wrap_cols (l : IVec S8192 32) (c : Fin 8192) (h0 : 0 ≤ (l (ix1 c)).toInt) :
    val_main_v38 (F := Ideal) l (ix2 c (0 : Fin 1)) = l (ix1 c) := by
  have e : idx_main_v38 (ix2 c (0 : Fin 1)) = ix1 c :=
    funext fun a => Fin.ext (by match a with | ⟨0, _⟩ => rfl)
  rw [val_main_v38_apply, e, val_main_v37_apply, val_main_v34_apply, val_main_v36_apply, val_main_v33_apply,
    val_main_v35_apply, val_main_c_8_apply, val_main_c_9_apply]
  exact wrap_eq h0

/-- The rows' lookup: row r of the result is the weight matrix's row of r's class. -/
theorem rows_apply (l : IVec S8192 32) (s : FVec Ideal S8x8 .f32) (r : Fin 8192) (ch : Fin 8)
    (h0 : 0 ≤ (l (ix1 r)).toInt) (h8 : (l (ix1 r)).toInt < 8) :
    val_main_v32 (F := Ideal) l s (ix2 r ch) = s (ix2 (Cert.Spec.labOf l r) ch) := by
  unfold val_main_v32
  refine (GatherRows.gather_rows_apply (P := 8) (C := 8) (N := 8192) (by decide)
    gather_S8x8_S8192x1_S8192x8_1_0_n_n_0_1_18 rfl rfl rfl rfl rfl rfl rfl s (val_main_v31 (F := Ideal) l) r ch).trans ?_
  have e : min (val_main_v31 (F := Ideal) l (ix2 r (0 : Fin 1))).toInt.toNat (8 - 1) = (l (ix1 r)).toNat % 8 := by
    rw [wrap_rows l r h0]; exact clamp_eq h0 h8
  exact congrArg (fun a : Fin 8 => s (ix2 a ch)) (Fin.ext e)

/-- The columns' lookup: entry (r, c) is the weight of the class pair (lab r, lab c). -/
theorem weight_apply (l : IVec S8192 32) (s : FVec Ideal S8x8 .f32) (r c : Fin 8192)
    (hr0 : 0 ≤ (l (ix1 r)).toInt) (hr8 : (l (ix1 r)).toInt < 8)
    (hc0 : 0 ≤ (l (ix1 c)).toInt) (hc8 : (l (ix1 c)).toInt < 8) :
    val_main_v39 (F := Ideal) l s (ix2 r c) = Cert.Spec.simOf s (Cert.Spec.labOf l r) (Cert.Spec.labOf l c) := by
  unfold val_main_v39
  refine (GatherCols.gather_cols_apply (B := 8192) (K := 8) (N := 8192)
    gather_S8192x8_S8192x1_S8192x8192_0_1_n_n_1_1_81921 (by decide) rfl rfl rfl rfl rfl
    (val_main_v32 (F := Ideal) l s) (val_main_v38 (F := Ideal) l) r c).trans ?_
  have e : min (val_main_v38 (F := Ideal) l (ix2 c (0 : Fin 1))).toInt.toNat (8 - 1) = (l (ix1 c)).toNat % 8 := by
    rw [wrap_cols l c hc0]; exact clamp_eq hc0 hc8
  have e' : (⟨min (val_main_v38 (F := Ideal) l (ix2 c (0 : Fin 1))).toInt.toNat (8 - 1), by omega⟩ : Fin 8)
      = Cert.Spec.labOf l c := Fin.ext e
  refine (congrArg (fun a : Fin 8 => val_main_v32 (F := Ideal) l s (ix2 r a)) e').trans ?_
  exact rows_apply l s r (Cert.Spec.labOf l c) hr0 hr8

/-- The mask of the pairs off the diagonal: entry (r, c) is 1 − [r = c]. -/
theorem offdiag_apply (r c : Fin 8192) :
    val_main_v47 (F := Ideal) (ix2 r c) = (1 : EReal) - (if r = c then (1 : EReal) else 0) := by
  rw [val_main_v47_apply, val_main_v46_apply, val_main_cst_11_apply, val_main_v45_apply, val_main_v44_apply,
    val_main_v43_apply, val_main_v40_apply, val_main_v41_apply, val_main_v42_apply, val_main_c_10_apply]
  simp only [Ideal.subf_def, Ideal.ofBits_def, Ideal.ofBits_one_f32]
  rw [uitofp_bit]
  exact congrArg ((1 : EReal) - ·) (if_congr (diag_bit r c) rfl rfl)

/-- The summand: entry (r, c) is the reference's term at the ordered pair (r, c). -/
theorem term_apply (x : FVec Ideal S8192x1024 .f32) (l : IVec S8192 32) (s : FVec Ideal S8x8 .f32)
    (hl : ∀ r : Fin 8192, 0 ≤ (l (ix1 r)).toInt ∧ (l (ix1 r)).toInt < 8) (r c : Fin 8192) :
    val_main_v52 (F := Ideal) x l s (ix2 r c) = Cert.Spec.refTerm (fnOf x) (Cert.Spec.labOf l) (Cert.Spec.simOf s) r c := by
  rw [val_main_v52_apply, val_main_v51_apply, weight_apply l s r c (hl r).1 (hl r).2 (hl c).1 (hl c).2,
    hinge_apply, offdiag_apply]
  rfl

/-! ## The sum over all ordered pairs -/

/-- The reference's pairwise sum is the specification's sum of the terms over all ordered pairs of rows. -/
theorem ref_pair (x : FVec Ideal S8192x1024 .f32) (l : IVec S8192 32) (s : FVec Ideal S8x8 .f32)
    (hl : ∀ r : Fin 8192, 0 ≤ (l (ix1 r)).toInt ∧ (l (ix1 r)).toInt < 8) :
    val_main_v53 (F := Ideal) x l s ix0 = Cert.Spec.refSum (fnOf x) (Cert.Spec.labOf l) (Cert.Spec.simOf s) := by
  rw [val_main_v53_apply, val_main_cst_13_apply]
  simp only [Ideal.ofBits_def, Ideal.ofBits_zero_f32, zero_add]
  rw [sum_idx2]
  unfold Cert.Spec.refSum
  exact Finset.sum_congr rfl fun r _ => Finset.sum_congr rfl fun c _ => term_apply x l s hl r c

end Cert.ReferenceIdeal.RefValue

end
-- ==== Proof.SpecLaw.lean ====
/-
  The kernel's blocked sum equals the reference's sum over all ordered pairs.

  Every row index is `row i p` for exactly one block `i` and one offset `p`, so the reference's double sum
  over rows is a fourfold sum over (block, offset) twice. Write `B i j` for the part of it with the first row in
  block `i` and the second in block `j`. A sum over all ordered pairs of blocks splits into the diagonal, the pairs
  above it and the pairs below it; the pairs below are the mirror images of the pairs above, so
  `Σ_i Σ_j B i j = Σ_i (B i i + Σ_{j > i} (B i j + B j i))`. The diagonal block of the kernel is `B i i` (the one-hot
  sums read off `sim (lab r) (lab c)`, and two rows of one block coincide exactly when their offsets do). An upper
  block of the kernel carries the weight `sim a b + sim b a`; multiplying out against the hinge, which is symmetric
  in its two rows, gives `B i j + B j i` (rows of different blocks never coincide, so the mask there is `1`).
  Multiplying out is the one step that needs the entries to be real numbers: on the extended reals the product does
  not distribute over a sum of opposite infinities.
-/
import proofs.«411099_j55954833933114_3_alg».proof.Proof.Spec
import Mathlib.Data.EReal.Inv
import Mathlib.Algebra.BigOperators.Fin
import Mathlib.Order.Interval.Finset.Fin

noncomputable section

namespace Cert.Spec

open scoped BigOperators

/-! ### Real numbers inside the extended reals -/

/-- A finite sum of real numbers, read in the extended reals, is the sum of the readings. -/
theorem coe_finset_sum {ι : Type*} (s : Finset ι) (f : ι → ℝ) :
    ((∑ k ∈ s, f k : ℝ) : EReal) = ∑ k ∈ s, (f k : EReal) := by
  classical
  refine Finset.induction_on s ?_ ?_
  · simp
  · intro a s ha ih
    rw [Finset.sum_insert ha, Finset.sum_insert ha, EReal.coe_add, ih]

/-- The larger of two real numbers, read in the extended reals, is the larger of the readings. -/
theorem coe_max (x y : ℝ) : ((max x y : ℝ) : EReal) = max (x : EReal) (y : EReal) := by
  rcases le_total x y with h | h
  · rw [max_eq_right h, max_eq_right (EReal.coe_le_coe_iff.2 h)]
  · rw [max_eq_left h, max_eq_left (EReal.coe_le_coe_iff.2 h)]

/-- For real `a`, `b`, `h` the product distributes over the sum. -/
theorem add_mul_of_real {a b h : EReal} (ha : ∃ x : ℝ, a = (x : EReal)) (hb : ∃ x : ℝ, b = (x : EReal))
    (hh : ∃ x : ℝ, h = (x : EReal)) : (a + b) * h = a * h + b * h := by
  obtain ⟨x, rfl⟩ := ha
  obtain ⟨y, rfl⟩ := hb
  obtain ⟨z, rfl⟩ := hh
  rw [← EReal.coe_add, ← EReal.coe_mul, ← EReal.coe_mul, ← EReal.coe_mul, ← EReal.coe_add, add_mul]

/-! ### Rows and blocks -/

/-- Two rows coincide exactly when their blocks and their offsets do. -/
theorem row_eq_iff (i j : Fin 8) (p q : Fin 1024) : row i p = row j q ↔ i = j ∧ p = q := by
  have hp := p.isLt
  have hq := q.isLt
  constructor
  · intro h
    have h' : 1024 * i.val + p.val = 1024 * j.val + q.val := congrArg Fin.val h
    constructor
    · apply Fin.ext; omega
    · apply Fin.ext; omega
  · rintro ⟨rfl, rfl⟩; rfl

/-- Block and offset, as one index, are the rows. -/
def rowEquiv : Fin 8 × Fin 1024 ≃ Fin 8192 where
  toFun x := row x.1 x.2
  invFun r := (⟨r.val / 1024, by have := r.isLt; omega⟩, ⟨r.val % 1024, by omega⟩)
  left_inv := by
    rintro ⟨i, p⟩
    have hp := p.isLt
    apply Prod.ext
    · apply Fin.ext; show (1024 * i.val + p.val) / 1024 = i.val; omega
    · apply Fin.ext; show (1024 * i.val + p.val) % 1024 = p.val; omega
  right_inv := by
    intro r
    apply Fin.ext
    show 1024 * (r.val / 1024) + r.val % 1024 = r.val
    omega

/-- A sum over all rows is a sum over blocks and offsets. -/
theorem sum_rows {M : Type*} [AddCommMonoid M] (f : Fin 8192 → M) :
    ∑ r : Fin 8192, f r = ∑ i : Fin 8, ∑ p : Fin 1024, f (row i p) := by
  rw [← Equiv.sum_comp rowEquiv f, Fintype.sum_prod_type]
  rfl

/-! ### The triangular splitting of a sum over ordered pairs -/

/-- A sum over all ordered pairs is the diagonal plus, for each pair above the diagonal, the pair and its mirror. -/
theorem sum_pairs_eq_tri {M : Type*} [AddCommMonoid M] (B : Fin 8 → Fin 8 → M) :
    ∑ i : Fin 8, ∑ j : Fin 8, B i j = ∑ i : Fin 8, (B i i + ∑ j ∈ Finset.Ioi i, (B i j + B j i)) := by
  classical
  have hsplit : ∀ i j : Fin 8, B i j =
      (if i = j then B i j else 0) + ((if i < j then B i j else 0) + (if j < i then B i j else 0)) := by
    intro i j
    rcases lt_trichotomy i j with h | h | h
    · have h1 : ¬ i = j := ne_of_lt h
      have h2 : ¬ j < i := not_lt_of_gt h
      simp [h, h1, h2]
    · subst h; simp
    · have h1 : ¬ i = j := (ne_of_lt h).symm
      have h2 : ¬ i < j := not_lt_of_gt h
      simp [h, h1, h2]
  have hdiag : ∀ i : Fin 8, ∑ j : Fin 8, (if i = j then B i j else 0) = B i i := by
    intro i
    rw [Finset.sum_ite_eq]; simp
  have hup : ∀ (C : Fin 8 → Fin 8 → M) (i : Fin 8),
      ∑ j : Fin 8, (if i < j then C i j else 0) = ∑ j ∈ Finset.Ioi i, C i j := by
    intro C i
    rw [← Finset.sum_filter, Finset.filter_lt_eq_Ioi]
  calc ∑ i : Fin 8, ∑ j : Fin 8, B i j
      = ∑ i : Fin 8, ∑ j : Fin 8, ((if i = j then B i j else 0)
          + ((if i < j then B i j else 0) + (if j < i then B i j else 0))) :=
        Finset.sum_congr rfl (fun i _ => Finset.sum_congr rfl (fun j _ => hsplit i j))
    _ = ∑ i : Fin 8, B i i + (∑ i : Fin 8, ∑ j ∈ Finset.Ioi i, B i j
          + ∑ i : Fin 8, ∑ j : Fin 8, (if j < i then B i j else 0)) := by
        simp only [Finset.sum_add_distrib, hdiag, hup B]
    _ = ∑ i : Fin 8, B i i + (∑ i : Fin 8, ∑ j ∈ Finset.Ioi i, B i j
          + ∑ i : Fin 8, ∑ j ∈ Finset.Ioi i, B j i) := by
        congr 2
        rw [Finset.sum_comm]
        exact Finset.sum_congr rfl (fun i _ => hup (fun a b => B b a) i)
    _ = ∑ i : Fin 8, (B i i + ∑ j ∈ Finset.Ioi i, (B i j + B j i)) := by
        simp only [Finset.sum_add_distrib]

variable (fn : Fin 8192 → Fin 1024 → EReal) (lab : Fin 8192 → Fin 8) (sim : Fin 8 → Fin 8 → EReal)

/-! ### The hinge -/

/-- The inner product does not depend on the order of the two rows. -/
theorem cosv_comm (r c : Fin 8192) : cosv fn r c = cosv fn c r :=
  Finset.sum_congr rfl (fun k _ => mul_comm _ _)

/-- The hinge does not depend on the order of the two rows. -/
theorem hinge_comm (r c : Fin 8192) : hinge fn r c = hinge fn c r := by
  unfold hinge; rw [cosv_comm]

/-- With real features the hinge is a real number. -/
theorem hinge_real (hfn : ∀ r k, ∃ x : ℝ, fn r k = (x : EReal)) (r c : Fin 8192) :
    ∃ x : ℝ, hinge fn r c = (x : EReal) := by
  choose f hf using hfn
  refine ⟨max (1 - ∑ k : Fin 1024, f r k * f c k) 0, ?_⟩
  unfold hinge cosv
  rw [coe_max, EReal.coe_sub, EReal.coe_one, EReal.coe_zero, coe_finset_sum]
  congr 2
  exact Finset.sum_congr rfl (fun k _ => by rw [hf r k, hf c k, EReal.coe_mul])

/-! ### The weights, read through the one-hot rows -/

/-- A one-hot row picks out its label's entry (one-hot on the left). -/
theorem onehot_sum_left (r : Fin 8192) (g : Fin 8 → EReal) :
    ∑ k : Fin 8, onehot lab r k * g k = g (lab r) := by
  unfold onehot
  simp only [ite_mul, one_mul, zero_mul, Finset.sum_ite_eq, Finset.mem_univ, if_true]

/-- A one-hot row picks out its label's entry (one-hot on the right). -/
theorem onehot_sum_right (c : Fin 8192) (g : Fin 8 → EReal) :
    ∑ k : Fin 8, g k * onehot lab c k = g (lab c) := by
  unfold onehot
  simp only [mul_ite, mul_one, mul_zero, Finset.sum_ite_eq, Finset.mem_univ, if_true]

/-- The diagonal block's weight is the class-pair weight. -/
theorem wDiag_eq (i : Fin 8) (p q : Fin 1024) :
    wDiag lab sim i p q = sim (lab (row i p)) (lab (row i q)) := by
  unfold wDiag
  rw [onehot_sum_right]
  unfold simrow
  rw [onehot_sum_left lab (row i p) (fun k' => sim k' (lab (row i q)))]

/-- An upper block's weight is the class-pair weight plus its mirror. -/
theorem wUp_eq (i j : Fin 8) (p q : Fin 1024) :
    wUp lab sim i j p q
      = sim (lab (row i p)) (lab (row j q)) + sim (lab (row j q)) (lab (row i p)) := by
  unfold wUp
  rw [onehot_sum_right]
  unfold simrowSym
  rw [onehot_sum_left lab (row i p) (fun k' => sim k' (lab (row j q)) + sim (lab (row j q)) k')]

/-! ### The blocks of the reference's sum -/

/-- The part of the reference's sum with the first row in block `i` and the second in block `j`. -/
def blk (i j : Fin 8) : EReal := ∑ p : Fin 1024, ∑ q : Fin 1024, refTerm fn lab sim (row i p) (row j q)

/-- The reference's sum is the sum of its blocks. -/
theorem refSum_eq_blk : refSum fn lab sim = ∑ i : Fin 8, ∑ j : Fin 8, blk fn lab sim i j := by
  unfold refSum blk
  rw [sum_rows]
  refine Finset.sum_congr rfl (fun i _ => ?_)
  refine Eq.trans ?_ Finset.sum_comm
  refine Finset.sum_congr rfl (fun p _ => ?_)
  exact sum_rows _

/-- The kernel's diagonal block is the reference's. -/
theorem diagBlock_eq (i : Fin 8) : diagBlock fn lab sim i = blk fn lab sim i i := by
  unfold diagBlock blk refTerm
  refine Finset.sum_congr rfl (fun p _ => Finset.sum_congr rfl (fun q _ => ?_))
  rw [wDiag_eq]
  have h : (row i p = row i q) ↔ (p = q) := by
    rw [row_eq_iff]; exact ⟨fun h => h.2, fun h => ⟨rfl, h⟩⟩
  simp only [h]

/-- Off the diagonal no row is paired with itself, so the mask is `1`. -/
theorem refTerm_off {i j : Fin 8} (hij : i ≠ j) (p q : Fin 1024) :
    refTerm fn lab sim (row i p) (row j q)
      = sim (lab (row i p)) (lab (row j q)) * hinge fn (row i p) (row j q) := by
  unfold refTerm
  have h : ¬ row i p = row j q := fun h => hij ((row_eq_iff i j p q).1 h).1
  rw [if_neg h, sub_zero, mul_one]

/-- An upper block of the kernel is the reference's block plus its mirror block. -/
theorem upBlock_eq (hfn : ∀ r k, ∃ x : ℝ, fn r k = (x : EReal)) (hsim : ∀ a b, ∃ x : ℝ, sim a b = (x : EReal))
    {i j : Fin 8} (hij : i ≠ j) :
    upBlock fn lab sim i j = blk fn lab sim i j + blk fn lab sim j i := by
  have hmirror : blk fn lab sim j i
      = ∑ p : Fin 1024, ∑ q : Fin 1024, refTerm fn lab sim (row j q) (row i p) := by
    unfold blk; rw [Finset.sum_comm]
  rw [hmirror]
  unfold upBlock blk
  simp only [← Finset.sum_add_distrib]
  refine Finset.sum_congr rfl (fun p _ => Finset.sum_congr rfl (fun q _ => ?_))
  rw [wUp_eq, refTerm_off fn lab sim hij, refTerm_off fn lab sim hij.symm,
    hinge_comm fn (row j q) (row i p)]
  exact add_mul_of_real (hsim _ _) (hsim _ _) (hinge_real fn hfn _ _)

/-! ### The two sums agree -/

theorem kerSum_eq_refSum (fn : Fin 8192 → Fin 1024 → EReal) (lab : Fin 8192 → Fin 8) (sim : Fin 8 → Fin 8 → EReal)
    (hfn : ∀ r k, ∃ x : ℝ, fn r k = (x : EReal)) (hsim : ∀ a b, ∃ x : ℝ, sim a b = (x : EReal)) :
    kerSum fn lab sim = refSum fn lab sim := by
  rw [refSum_eq_blk, sum_pairs_eq_tri]
  unfold kerSum rowBlockSum
  refine Finset.sum_congr rfl (fun i _ => ?_)
  rw [diagBlock_eq]
  congr 1
  refine Finset.sum_congr rfl (fun j hj => ?_)
  exact upBlock_eq fn lab sim hfn hsim (ne_of_lt (Finset.mem_Ioi.1 hj))

end Cert.Spec

end
-- ==== Proof.PreFacts.lean ====
/-
  What the precondition says of the inputs, entry by entry.

  The precondition is the conjunction of five `all`-tests, each an `and`-reduction of a table of bits down to one
  bit: four say `|v| < +∞` at every entry of a float input, the fifth says `0 ≤ label < 8` (signed) at every label.
  The conjunction being the bit 1 makes each reduction 1, so every bit that went into it is 1. On the extended reals
  `|v| = max v (−v)` is `+∞` at both infinities, so `|v| < +∞` leaves only the real numbers; a signed comparison
  of words that came out 1 is the comparison of their signed readings.
-/
import proofs.«411099_j55954833933114_3_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Idealize.ShloMosaic.ValueIdx Cert.Pre_finite_inputs

attribute [local instance] Cert.Pre_finite_inputs.Gen.facts

/-- The scalar shape has one index. -/
instance : Subsingleton S_.Idx := ⟨fun a b => funext fun d => d.elim0⟩

/-- The pattern `0x7F800000` denotes `+∞`. -/
theorem inf_bits : Ideal.ofBits .f32 0x7F800000#32 = ⊤ := by simp [Ideal.ofBits, Ideal.ieee]

/-- An extended real whose absolute value is below `+∞` is a real number. -/
theorem real_of_abs_lt_inf (v : EReal)
    (h : Ideal.cmp .olt (max v (-v)) (Ideal.ofBits .f32 0x7F800000#32) = 1#1) : ∃ y : ℝ, v = (y : EReal) := by
  rw [inf_bits] at h
  have h' : max v (-v) < ⊤ := by
    simpa [Ideal.cmp, StableHlo.Predicate.ofBool_eq_one_iff] using h
  induction v using EReal.rec with
  | bot => simp at h'
  | coe y => exact ⟨y, rfl⟩
  | top => simp at h'

/-- A label word that passed both signed tests reads, signed, in `[0, 8)`. -/
theorem label_range (w : BitVec 32)
    (h : IntOp.andi (IntOp.cmpi .sge w 0#32) (IntOp.cmpi .slt w 8#32) = 1#1) : 0 ≤ w.toInt ∧ w.toInt < 8 := by
  rw [IntOp.andi_eq_one, IntOp.cmpi_sge, IntOp.cmpi_slt] at h
  have h0 : (0#32 : BitVec 32).toInt = 0 := by decide
  have h8 : (8#32 : BitVec 32).toInt = 8 := by decide
  rw [h0] at h
  rw [h8] at h
  exact h

/-- Under the precondition every feature and every class-pair weight is a real number, and every label reads,
    signed, in `[0, 8)`. -/
theorem of_pre (x : FVec Ideal S8192x1024 .f32) (l : IVec S8192 32) (lg : FVec Ideal S8192x8 .f32) (s : FVec Ideal S8x8 .f32)
    (cen : FVec Ideal S8x1024 .f32) (h : Cert.Pre_finite_inputs.fn (F := Ideal) x l lg s cen = fun _ => 1#1) :
    (∀ i, ∃ y : ℝ, x i = (y : EReal)) ∧ (∀ i, ∃ y : ℝ, s i = (y : EReal))
      ∧ (∀ r : Fin 8192, 0 ≤ (l (ix1 r)).toInt ∧ (l (ix1 r)).toInt < 8) := by
  have e := congrFun h ix0
  dsimp only [Cert.Pre_finite_inputs.fn, Cert.Pre_finite_inputs.fn_part1, andi] at e
  rw [IntOp.andi_eq_one, IntOp.andi_eq_one, IntOp.andi_eq_one, IntOp.andi_eq_one] at e
  obtain ⟨⟨⟨⟨ex, -⟩, es⟩, -⟩, el⟩ := e
  refine ⟨fun i => ?_, fun i => ?_, fun r => ?_⟩
  · exact real_of_abs_lt_inf (x i) (Host.reduce_andi_all _ _ _ _ ix0 ex i)
  · exact real_of_abs_lt_inf (s i) (Host.reduce_andi_all _ _ _ _ ix0 es i)
  · exact label_range (l (ix1 r)) (Host.reduce_andi_all _ _ _ _ ix0 el (ix1 r))

end Cert.PreFacts

end
-- ==== Proof.FnReal.lean ====
/-
  The reference's normalised rows are real numbers.

  A row is divided, entry by entry, by `max (√(Σ_k x_k²)) ε` with `ε` the positive real the word `0x322BCC77` denotes
  (`11258999 · 2⁻⁵⁰`, about `10⁻⁸`). With every entry of `x` a real, each square is a real, their finite sum is a real
  that is not negative, its square root is a real that is not negative, the maximum with `ε` is a real that is at least
  `ε` and so not zero, and a real divided by a real that is not zero is a real.
-/
import proofs.«411099_j55954833933114_3_alg».proof.Proof.RefRead
import proofs.«411099_j55954833933114_3_alg».proof.Proof.SpecLaw
import Idealize.ShloMosaic.Lib.ValueIdx
import Idealize.ShloMosaic.PureOps.Ideal.Laws

noncomputable section

namespace Cert.ReferenceIdeal.RefValue2

open Idealize.ShloMosaic Idealize.ShloMosaic.ValueIdx
open Cert.ReferenceIdeal Cert.ReferenceIdeal.Gen Cert.ReferenceIdeal.ReadP

/-- The word `0x322BCC77` denotes the real `11258999 · 2⁻⁵⁰`. -/
theorem eps_bits : Ideal.ofBits .f32 0x322BCC77#32 = ((11258999 * (2 ^ 50)⁻¹ : ℝ) : EReal) := by
  simp [Ideal.ofBits, Ideal.ieee, -EReal.coe_mul]

/-- That real is positive. -/
theorem eps_pos : (0 : ℝ) < 11258999 * (2 ^ 50)⁻¹ := by positivity

/-- A real divided by a real that is not zero is a real. -/
theorem div_real (a b : ℝ) (hb : b ≠ 0) : ∃ y : ℝ, Ideal.div (a : EReal) (b : EReal) = (y : EReal) :=
  ⟨a * (1 / b), by rw [Ideal.div_coe hb, EReal.coe_mul]⟩

/-- A row's sum of squares is a real that is not negative. -/
theorem sumsq_real (x : FVec Ideal S8192x1024 .f32) (hx : ∀ i, ∃ y : ℝ, x i = (y : EReal)) (i : S8192.Idx) :
    ∃ y : ℝ, 0 ≤ y ∧ val_main_call2_v1 (F := Ideal) x i = (y : EReal) := by
  choose f hf using hx
  refine ⟨∑ k : Fin 1024, f (idx_main_call2_v1 i k) * f (idx_main_call2_v1 i k),
    Finset.sum_nonneg (fun k _ => mul_self_nonneg _), ?_⟩
  rw [val_main_call2_v1_apply, val_main_call2_cst_apply, Ideal.ofBits_def, Ideal.ofBits_zero_f32, zero_add,
    Cert.Spec.coe_finset_sum]
  refine Finset.sum_congr rfl (fun k _ => ?_)
  rw [val_main_call2_v0_apply, Ideal.mulf_def, hf, EReal.coe_mul]

/-- A row's divisor, the larger of its norm and `ε`, is a positive real. -/
theorem denom_real (x : FVec Ideal S8192x1024 .f32) (hx : ∀ i, ∃ y : ℝ, x i = (y : EReal)) (j : S8192x1.Idx) :
    ∃ y : ℝ, 0 < y ∧ val_main_v21 (F := Ideal) x j = (y : EReal) := by
  obtain ⟨a, ha, e⟩ := sumsq_real x hx (idx_main_call2_v2 j)
  refine ⟨max (Real.sqrt a) (11258999 * (2 ^ 50)⁻¹), lt_max_of_lt_right eps_pos, ?_⟩
  rw [val_main_v21_apply, val_main_v19_apply, val_main_call2_v2_apply, e, val_main_v20_apply, val_main_cst_5_apply,
    Ideal.ofBits_def, eps_bits, Ideal.hostUnary_sqrt_def, Ideal.sqrt_coe, if_neg (not_lt.2 ha), Ideal.maximumf_def,
    Cert.Spec.coe_max]

/-- Every entry of the normalised rows is a real number. -/
theorem fn_real (x : FVec Ideal S8192x1024 .f32) (hx : ∀ i, ∃ y : ℝ, x i = (y : EReal)) (r : Fin 8192) (k : Fin 1024) :
    ∃ y : ℝ, Cert.ReferenceIdeal.ReadP.val_main_v23 (F := Ideal) x (ix2 r k) = (y : EReal) := by
  obtain ⟨a, ha⟩ := hx (ix2 r k)
  obtain ⟨b, hb, eb⟩ := denom_real x hx (idx_main_v22 (ix2 r k))
  rw [val_main_v23_apply, val_main_v22_apply, eb, ha, Ideal.hostDivf_def]
  exact div_real a b (ne_of_gt hb)

end Cert.ReferenceIdeal.RefValue2

end
-- ==== Proof.Bridge.lean ====
/-
  The two programs' results are one number.

  After the region the kernel's program adds three terms: the cross-entropy term and the centre-loss term, which it
  computed before the region by the reference's own host operations, and the total of the region's result array divided
  by 8192 · 8191. The total is the block-triangular sum of the weighted hinges over the normalised rows; the reference's
  is the full sum over ordered pairs; they agree when the rows and the weights are finite, which the precondition gives
  (finite inputs make the normalised rows finite; labels in range make the one-hot rows pick the weights the reference's
  indexing picks).
-/
import proofs.«411099_j55954833933114_3_alg».proof.Proof.KIDat
import proofs.«411099_j55954833933114_3_alg».proof.Proof.LibFrameShared
import proofs.«411099_j55954833933114_3_alg».proof.Proof.KITail
import proofs.«411099_j55954833933114_3_alg».proof.Proof.KIChain6
import proofs.«411099_j55954833933114_3_alg».proof.Proof.KIChain18
import proofs.«411099_j55954833933114_3_alg».proof.Proof.KIChain26
import proofs.«411099_j55954833933114_3_alg».proof.Proof.KIOut
import proofs.«411099_j55954833933114_3_alg».proof.Proof.KIHostW
import proofs.«411099_j55954833933114_3_alg».proof.Proof.RefPair
import proofs.«411099_j55954833933114_3_alg».proof.Proof.SpecLaw
import proofs.«411099_j55954833933114_3_alg».proof.Proof.PreFacts
import proofs.«411099_j55954833933114_3_alg».proof.Proof.FnReal

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The rows the region's windows read are the reference's normalised rows: the change of format is the identity over
    the extended reals. -/
theorem V_fn (c : Dev nD) (r : Fin 8192) (k : Fin 1024) :
    V m c main_call0_v27 (ix2 r k) = Cert.ReferenceIdeal.RefValue.fnOf (m ((c.tc : Thread nD τ).loc main_arg0)) r k := by
  rw [Cert.KernelIdeal.HostChain.V_fn16, Cert.KernelIdeal.HostChain.V_fn32]
  rfl

/-- THE BRIDGE: what the kernel's program leaves in its result buffer is the reference's last stage, as a function of
    the same arguments. -/
theorem kernel_final (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    StableHlo.after (List.flatten [hostOps1]) (Pipeline.exitVal cfgs (dats m) 0 (V0 m) 5 c) (Proc.devRef .tc main_v0)
      = Cert.ReferenceIdeal.ReadP.val_main_v58 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨hx, hs, hl⟩ := Cert.PreFacts.of_pre _ _ _ _ _ hpre
  -- the three buffers the tail reads, at the region's exit
  have e6 : Pipeline.exitVal cfgs (dats m) 0 (V0 m) 5 c (Proc.devRef .tc main_call0_v6)
      = Cert.ReferenceIdeal.ReadP.val_main_v6 (F := Ideal) (m ((c.tc : Thread nD τ).loc main_arg1)) (m ((c.tc : Thread nD τ).loc main_arg2)) :=
    (Pipeline.exitVal_of_ne cfgs (dats m) 0 (V0 m) 5 c main_call0_v6 (by decide)).trans (Cert.KernelIdeal.HostChain.V_ce m c)
  have e18 : Pipeline.exitVal cfgs (dats m) 0 (V0 m) 5 c (Proc.devRef .tc main_call0_v18)
      = Cert.ReferenceIdeal.ReadP.val_main_v18 (F := Ideal) (m ((c.tc : Thread nD τ).loc main_arg0)) (m ((c.tc : Thread nD τ).loc main_arg1))
          (m ((c.tc : Thread nD τ).loc main_arg4)) :=
    (Pipeline.exitVal_of_ne cfgs (dats m) 0 (V0 m) 5 c main_call0_v18 (by decide)).trans (Cert.KernelIdeal.HostChain.V_center m c)
  have e33 : Pipeline.exitVal cfgs (dats m) 0 (V0 m) 5 c (Proc.devRef .tc main_call0_v33) = (dats m 0 c).arrAt 5 cfg0.N :=
    Pipeline.exitVal_out cfgs (dats m) 0 (V0 m) 5 c
  rw [Cert.KernelIdeal.TailValue.tail_value, e6, e18, e33]
  -- the region's total is the reference's sum over all ordered pairs
  have hsum : Host.reduceAdd (F := Ideal) ((dats m 0 c).arrAt 5 cfg0.N) (constant S_ .f32 0x00000000#32)
        reducesTo_S8x8x128_S_d0_1_2 h_S_
      = Cert.ReferenceIdeal.ReadP.val_main_v53 (F := Ideal) (m ((c.tc : Thread nD τ).loc main_arg0))
          (m ((c.tc : Thread nD τ).loc main_arg1)) (m ((c.tc : Thread nD τ).loc main_arg3)) := by
    funext i
    obtain rfl := eq_ix0 i
    have hrows : (fun r k => V m c main_call0_v27 (ix2 r k))
        = Cert.ReferenceIdeal.RefValue.fnOf (m ((c.tc : Thread nD τ).loc main_arg0)) := by
      funext r k; exact V_fn m c r k
    rw [Cert.KernelIdeal.OutValue.out_total m c (Cert.Spec.labOf (m ((c.tc : Thread nD τ).loc main_arg1)))
        (Cert.Spec.simOf (m ((c.tc : Thread nD τ).loc main_arg3)))
        (Cert.KernelIdeal.HostValue.V_onehot m c hl) (Cert.KernelIdeal.HostValue.V_simrow m c hl)
        (Cert.KernelIdeal.HostValue.V_simrowSym m c hl),
      hrows,
      Cert.Spec.kerSum_eq_refSum (Cert.ReferenceIdeal.RefValue.fnOf (m ((c.tc : Thread nD τ).loc main_arg0)))
        (Cert.Spec.labOf (m ((c.tc : Thread nD τ).loc main_arg1))) (Cert.Spec.simOf (m ((c.tc : Thread nD τ).loc main_arg3)))
        (fun r k => Cert.ReferenceIdeal.RefValue2.fn_real _ hx r k) (fun a b => hs (ix2 a b))]
    exact (Cert.ReferenceIdeal.RefValue.ref_pair _ _ _ hl).symm
  rw [hsum]
  rfl

end Cert.Bridge

end
-- ==== Proof.lean ====
/-
  The certificate of the pairwise soft-cosine loss kernel against its jnp reference.

  The loss is three terms. The cross-entropy term and the centre-loss term are computed by the same host operations in
  both programs. The third is the sum, over ordered pairs r ≠ c of the 8192 rows, of a class-pair weight times
  max (1 − ⟨fn r, fn c⟩) 0 for the normalised rows fn; the reference sums the 8192 × 8192 array, the kernel visits the
  8 × 8 grid of 1024 × 1024 blocks, adds the diagonal blocks as they are (their own diagonal masked) and each block above
  the diagonal with the weights symmetrised, and skips the blocks below it: the hinge is symmetric in r and c, so a block
  and its mirror image together are one block with the two weights added. That step distributes a product over a sum,
  which on the extended reals needs the numbers finite: the precondition makes every float input finite, and the labels
  class numbers in range (the kernel reads the weights through one-hot rows, which are zero for a label out of range,
  where the reference's indexing wraps and clamps).

  The three frames: the two kernel programs run by the pipeline's launch for windows sharing an array, over a body run
  once per case of its three conditionals; the reference by its run. `preserves` has no entry.
-/
import proofs.«411099_j55954833933114_3_alg».proof.Defs
import proofs.«411099_j55954833933114_3_alg».proof.Proof.Gen.Kernel
import proofs.«411099_j55954833933114_3_alg».proof.Proof.Gen.KernelIdeal
import proofs.«411099_j55954833933114_3_alg».proof.Proof.Gen.ReferenceIdeal
import proofs.«411099_j55954833933114_3_alg».proof.Proof.Gen.Pre_finite_inputs
import proofs.«411099_j55954833933114_3_alg».proof.Proof.KBFrame
import proofs.«411099_j55954833933114_3_alg».proof.Proof.KIFrame
import proofs.«411099_j55954833933114_3_alg».proof.Proof.Bridge
import Idealize.ShloMosaic.Adequacy
import Idealize.ShloMosaic.Init

noncomputable section

namespace Cert.Proof

open Idealize.ShloMosaic Idealize.SL.Sem

/-- The word-level kernel program runs to the end and leaves its arguments alone. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals, from memories agreeing on the arguments, the two programs end with the same loss. -/
theorem algebraic : Cert.algebraic_KernelIdeal_ReferenceIdeal := by
  intro m ρ m' ρ' hpre hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v58_eq, (hagree c).1, (hagree c).2.1, (hagree c).2.2.1, (hagree c).2.2.2.1, (hagree c).2.2.2.2]
  exact (Cert.Bridge.kernel_final m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
